-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x38 : Shape := ⟨2, ![100000, 38]⟩
abbrev S2x1600000 : Shape := ⟨2, ![2, 1600000]⟩
abbrev S100000 : Shape := ⟨1, ![100000]⟩
abbrev S38x64 : Shape := ⟨2, ![38, 64]⟩
abbrev S64 : Shape := ⟨1, ![64]⟩
abbrev S64x64 : Shape := ⟨2, ![64, 64]⟩
abbrev S_ : Shape := ⟨0, ![]⟩

class Facts : Prop where
  bcast_S_S100000x38 : S_.BroadcastsInDim S100000x38 (![] : Fin 0 → Fin S100000x38.rank)
  reducesTo_S100000x38_S_d0_1 : S100000x38.ReducesTo [0, 1] S_
  h_S_ : 0 < S_.numel
  bcast_S_S38x64 : S_.BroadcastsInDim S38x64 (![] : Fin 0 → Fin S38x64.rank)
  reducesTo_S38x64_S_d0_1 : S38x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64 .f32) (main_arg8 : FVec F S64x64 .f32) (main_v13 : IVec S_ 1) (main_v16 : IVec S38x64 1) : IVec S_ 1 :=
  let main_c_5 : IVec S_ 1 := constantI S_ 1 1#1
  let main_v17 : IVec S_ 1 := (fun x v => Host.reduce IntOp.andi x v reducesTo_S38x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x38 .f32) (main_arg1 : IVec S2x1600000 32) (main_arg2 : IVec S100000 32) (main_arg3 : FVec F S38x64 .f32) (main_arg4 : FVec F S64 .f32) (main_arg5 : FVec F S38x64 .f32) (main_arg6 : FVec F S64x64 .f32) (main_arg7 : FVec F S64 .f32) (main_arg8 : FVec F S64x64 .f32) : IVec S_ 1 :=
  let main_v0 : FVec F S100000x38 .f32 := Host.absf main_arg0
  let main_cst : FVec F S_ .f32 := constant S_ .f32 0x7F800000#32
  let main_v1 : FVec F S100000x38 .f32 := broadcastInDim S100000x38 ![] bcast_S_S100000x38 main_cst
  let main_v2 : IVec S100000x38 1 := cmpf .olt main_v0 main_v1
  let main_c : IVec S_ 1 := constantI S_ 1 1#1
  let main_v3 : IVec S_ 1 := (fun x v => Host.reduce IntOp.andi x v reducesTo_S100000x38_S_d0_1 h_S_) main_v2 main_c
  let main_v4 : FVec F S38x64 .f32 := Host.absf main_arg3
  let main_cst_0 : FVec F S_ .f32 := constant S_ .f32 0x7F800000#32
  let main_v5 : FVec F S38x64 .f32 := broadcastInDim S38x64 ![] bcast_S_S38x64 main_cst_0
  let main_v6 : IVec S38x64 1 := cmpf .olt main_v4 main_v5
  let main_c_1 : IVec S_ 1 := constantI S_ 1 1#1
  let main_v7 : IVec S_ 1 := (fun x v => Host.reduce IntOp.andi x v reducesTo_S38x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S38x64 .f32 := Host.absf main_arg5
  let main_cst_4 : FVec F S_ .f32 := constant S_ .f32 0x7F800000#32
  let main_v15 : FVec F S38x64 .f32 := broadcastInDim S38x64 ![] bcast_S_S38x64 main_cst_4
  let main_v16 : IVec S38x64 1 := cmpf .olt main_v14 main_v15
  fn_part1 (F := F) main_arg6 main_arg7 main_arg8 main_v13 main_v16
-- ==== Kernel.lean ====
abbrev S100000x38 : Shape := ⟨2, ![100000, 38]⟩
abbrev S2x1600000 : Shape := ⟨2, ![2, 1600000]⟩
abbrev S100000 : Shape := ⟨1, ![100000]⟩
abbrev S38x64 : Shape := ⟨2, ![38, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x38 : Shape := ⟨2, ![1600000, 38]⟩
abbrev S1x64 : Shape := ⟨2, ![1, 64]⟩
abbrev S100000x64 : Shape := ⟨2, ![100000, 64]⟩
abbrev S5000x38 : Shape := ⟨2, ![5000, 38]⟩
abbrev S5000x64 : Shape := ⟨2, ![5000, 64]⟩
abbrev S1600000x64 : Shape := ⟨2, ![1600000, 64]⟩
abbrev S100000x1 : Shape := ⟨2, ![100000, 1]⟩
abbrev S256x64 : Shape := ⟨2, ![256, 64]⟩
abbrev S5000x1 : Shape := ⟨2, ![5000, 1]⟩
abbrev S256x1 : Shape := ⟨2, ![256, 1]⟩
abbrev S5000x256 : Shape := ⟨2, ![5000, 256]⟩

abbrev nBuf : Space → Nat
  | .hbm => 45
  | .vmem => 25
  | .smem => 0
  | _ => 0

abbrev bufTy : (tb : Table) → Fin (tcTables nBuf tb) → BufTy
  | .hbm, ⟨0, _⟩ => ⟨S100000x38, .f32⟩
  | .hbm, ⟨1, _⟩ => ⟨S2x1600000, .i32⟩
  | .hbm, ⟨2, _⟩ => ⟨S100000, .i32⟩
  | .hbm, ⟨3, _⟩ => ⟨S38x64, .f32⟩
  | .hbm, ⟨4, _⟩ => ⟨S64, .f32⟩
  | .hbm, ⟨5, _⟩ => ⟨S38x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x38, .f32⟩
  | .hbm, ⟨22, _⟩ => ⟨S_, .f32⟩
  | .hbm, ⟨23, _⟩ => ⟨S100000x38, .f32⟩
  | .hbm, ⟨24, _⟩ => ⟨S1600000x1, .i32⟩
  | .hbm, ⟨25, _⟩ => ⟨S100000x38, .f32⟩
  | .hbm, ⟨26, _⟩ => ⟨S1x64, .f32⟩
  | .hbm, ⟨27, _⟩ => ⟨S100000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x1, .i32⟩
  | .hbm, ⟨44, _⟩ => ⟨S256x64, .f32⟩
  | .local _ .vmem, ⟨0, _⟩ => ⟨S5000x38, .f32⟩
  | .local _ .vmem, ⟨1, _⟩ => ⟨S5000x38, .f32⟩
  | .local _ .vmem, ⟨2, _⟩ => ⟨S5000x38, .f32⟩
  | .local _ .vmem, ⟨3, _⟩ => ⟨S5000x38, .f32⟩
  | .local _ .vmem, ⟨4, _⟩ => ⟨S38x64, .f32⟩
  | .local _ .vmem, ⟨5, _⟩ => ⟨S1x64, .f32⟩
  | .local _ .vmem, ⟨6, _⟩ => ⟨S38x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x1, .i32⟩
  | .local _ .vmem, ⟨21, _⟩ => ⟨S5000x1, .i32⟩
  | .local _ .vmem, ⟨22, _⟩ => ⟨S256x64, .f32⟩
  | .local _ .vmem, ⟨23, _⟩ => ⟨S256x64, .f32⟩
  | .local _ .vmem, ⟨24, _⟩ => ⟨S256x1, .f32⟩
  | _, _ => ⟨S100000x38, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_scratch0 : Ref sig .tc := ⟨.vmem, 23, rfl⟩
abbrev cc2_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x38 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x38 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S38x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S38x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_14 : BitVec 32 := 0#32
  let v29 : BitVec 1 := Scalar.cmpi .ne v28 c0_i32_14
  v29

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x38 : S_.BroadcastsInDim S100000x38 (![] : Fin 0 → Fin S100000x38.rank)
  shapeCasts_S64_S1x64 : S64.ShapeCasts S1x64
  inb_S5000x38_S5000x38_0_0 : ∀ a, (![0, 0] : Fin 2 → Nat) a + S5000x38.size a ≤ S5000x38.size a
  h_S5000x38 : 0 < S5000x38.numel
  shapeCasts_S5000x38_S5000x38 : S5000x38.ShapeCasts S5000x38
  bitsLt_bf16_f32 : FTy.bits .bf16 < FTy.bits .f32
  inb_S38x64_S38x64_0_0 : ∀ a, (![0, 0] : Fin 2 → Nat) a + S38x64.size a ≤ S38x64.size a
  h_S38x64 : 0 < S38x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  broadcasts_S256x1_S256x64 : S256x1.Broadcasts S256x64
  gather_S100000x38_S1600000x1_S1600000x38_1_0_n_n_0_1_138_wf : GatherDims.WF S100000x38 S1600000x1 S1600000x38 [1] [0] [] [0] [] 1 ![1, 38]
  scatter_S100000x38_S1600000x1_S1600000x38_1_0_0_1_wf : ScatterDims.WF S100000x38 S1600000x1 S1600000x38 [1] [0] [0] 1
  dot_S5000x38_S38x64_S5000x64_1_0_0_1_n_n_wf : DotDims.WF S5000x38 S38x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x256_S5000x64_S256x64_0_0_1_1_n_n_wf : DotDims.WF S5000x256 S5000x64 S256x64 [0] [0] [1] [1] [] []
  dot_S5000x256_S5000x1_S256x1_0_0_1_1_n_n_wf : DotDims.WF S5000x256 S5000x1 S256x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x38.size a ≤ S100000x38.size a
  hwx0_0 : ∀ i : grid0.Coords, EltTy.bits .f32 = 32 ∨ (Rect.block (s := S100000x38) S5000x38.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x38.size a ≤ S100000x38.size a
  hwx0_1 : ∀ i : grid0.Coords, EltTy.bits .f32 = 32 ∨ (Rect.block (s := S100000x38) S5000x38.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S38x64.size a ≤ S38x64.size a
  hwx0_2 : ∀ i : grid0.Coords, EltTy.bits .f32 = 32 ∨ (Rect.block (s := S38x64) S38x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S38x64.size a ≤ S38x64.size a
  hwx0_4 : ∀ i : grid0.Coords, EltTy.bits .f32 = 32 ∨ (Rect.block (s := S38x64) S38x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)

variable [Facts₀]

def gather_S100000x38_S1600000x1_S1600000x38_1_0_n_n_0_1_138 : GatherDims S100000x38 S1600000x1 S1600000x38 where
  offsetDims := [1]
  collapsedSliceDims := [0]
  operandBatchingDims := []
  startIndicesBatchingDims := []
  startIndexMap := [0]
  indexVectorDim := 1
  sliceSizes := ![1, 38]
  wf := gather_S100000x38_S1600000x1_S1600000x38_1_0_n_n_0_1_138_wf
def scatter_S100000x38_S1600000x1_S1600000x38_1_0_0_1 : ScatterDims S100000x38 S1600000x1 S1600000x38 where
  updateWindowDims := [1]
  insertedWindowDims := [0]
  scatterDimsToOperandDims := [0]
  indexVectorDim := 1
  wf := scatter_S100000x38_S1600000x1_S1600000x38_1_0_0_1_wf
def dot_S5000x38_S38x64_S5000x64_1_0_0_1_n_n : DotDims S5000x38 S38x64 S5000x64 where
  lhsContracting := [1]
  rhsContracting := [0]
  lhsNonContracting := [0]
  rhsNonContracting := [1]
  lhsBatch := []
  rhsBatch := []
  wf := dot_S5000x38_S38x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S5000x256_S5000x1_S256x1_0_0_1_1_n_n : DotDims S5000x256 S5000x1 S256x1 where
  lhsContracting := [0]
  rhsContracting := [0]
  lhsNonContracting := [1]
  rhsNonContracting := [1]
  lhsBatch := []
  rhsBatch := []
  wf := dot_S5000x256_S5000x1_S256x1_0_0_1_1_n_n_wf

abbrev win0_0 : Pipeline.Window sig grid0 :=
  Pipeline.Window.ofSpec (Memref.whole main_v13) S5000x38.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x38.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S38x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S38x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S256x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S100000x38 : Shape := ⟨2, ![100000, 38]⟩
abbrev S2x1600000 : Shape := ⟨2, ![2, 1600000]⟩
abbrev S100000 : Shape := ⟨1, ![100000]⟩
abbrev S38x64 : Shape := ⟨2, ![38, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x38 : Shape := ⟨2, ![1600000, 38]⟩
abbrev S100000x64 : Shape := ⟨2, ![100000, 64]⟩
abbrev S1x64 : Shape := ⟨2, ![1, 64]⟩
abbrev S1600000x64 : Shape := ⟨2, ![1600000, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩

abbrev nBuf : Space → Nat
  | .hbm => 77
  | .vmem => 0
  | .smem => 0
  | _ => 0

abbrev bufTy : (tb : Table) → Fin (tcTables nBuf tb) → BufTy
  | .hbm, ⟨0, _⟩ => ⟨S100000x38, .f32⟩
  | .hbm, ⟨1, _⟩ => ⟨S2x1600000, .i32⟩
  | .hbm, ⟨2, _⟩ => ⟨S100000, .i32⟩
  | .hbm, ⟨3, _⟩ => ⟨S38x64, .f32⟩
  | .hbm, ⟨4, _⟩ => ⟨S64, .f32⟩
  | .hbm, ⟨5, _⟩ => ⟨S38x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x38, .f32⟩
  | .hbm, ⟨22, _⟩ => ⟨S_, .f32⟩
  | .hbm, ⟨23, _⟩ => ⟨S100000x38, .f32⟩
  | .hbm, ⟨24, _⟩ => ⟨S1600000x1, .i32⟩
  | .hbm, ⟨25, _⟩ => ⟨S100000x38, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | .hbm, ⟨35, _⟩ => ⟨S1x1600000, .i32⟩
  | .hbm, ⟨36, _⟩ => ⟨S1600000, .i32⟩
  | .hbm, ⟨37, _⟩ => ⟨S1x1600000, .i32⟩
  | .hbm, ⟨38, _⟩ => ⟨S1600000, .i32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S256x64, .f32⟩
  | .hbm, ⟨60, _⟩ => ⟨S100000x1, .i32⟩
  | .hbm, ⟨61, _⟩ => ⟨S256x64, .f32⟩
  | .hbm, ⟨62, _⟩ => ⟨S_, .f32⟩
  | .hbm, ⟨63, _⟩ => ⟨S100000, .f32⟩
  | .hbm, ⟨64, _⟩ => ⟨S_, .f32⟩
  | .hbm, ⟨65, _⟩ => ⟨S256, .f32⟩
  | .hbm, ⟨66, _⟩ => ⟨S100000x1, .i32⟩
  | .hbm, ⟨67, _⟩ => ⟨S256, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S256x1, .f32⟩
  | .hbm, ⟨72, _⟩ => ⟨S256x64, .f32⟩
  | .hbm, ⟨73, _⟩ => ⟨S256x64, .f32⟩
  | .hbm, ⟨74, _⟩ => ⟨S_, .f32⟩
  | .hbm, ⟨75, _⟩ => ⟨S256x64, .f32⟩
  | .hbm, ⟨76, _⟩ => ⟨S256x64, .f32⟩
  | _, _ => ⟨S100000x38, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_1 : Ref sig .tc := ⟨.hbm, 39, rfl⟩
abbrev main_v25 : Ref sig .tc := ⟨.hbm, 40, rfl⟩
abbrev main_v26 : Ref sig .tc := ⟨.hbm, 41, rfl⟩
abbrev main_c_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call1_cst : Ref sig .tc := ⟨.hbm, 74, rfl⟩
abbrev main_call1_v0 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x38 : S_.BroadcastsInDim S100000x38 (![] : Fin 0 → Fin S100000x38.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  gather_S100000x38_S1600000x1_S1600000x38_1_0_n_n_0_1_138_wf : GatherDims.WF S100000x38 S1600000x1 S1600000x38 [1] [0] [] [0] [] 1 ![1, 38]
  scatter_S100000x38_S1600000x1_S1600000x38_1_0_0_1_wf : ScatterDims.WF S100000x38 S1600000x1 S1600000x38 [1] [0] [0] 1
  dot_S100000x38_S38x64_S100000x64_1_0_0_1_n_n_wf : DotDims.WF S100000x38 S38x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1

variable [Facts₀]

def gather_S100000x38_S1600000x1_S1600000x38_1_0_n_n_0_1_138 : GatherDims S100000x38 S1600000x1 S1600000x38 where
  offsetDims := [1]
  collapsedSliceDims := [0]
  operandBatchingDims := []
  startIndicesBatchingDims := []
  startIndexMap := [0]
  indexVectorDim := 1
  sliceSizes := ![1, 38]
  wf := gather_S100000x38_S1600000x1_S1600000x38_1_0_n_n_0_1_138_wf
def scatter_S100000x38_S1600000x1_S1600000x38_1_0_0_1 : ScatterDims S100000x38 S1600000x1 S1600000x38 where
  updateWindowDims := [1]
  insertedWindowDims := [0]
  scatterDimsToOperandDims := [0]
  indexVectorDim := 1
  wf := scatter_S100000x38_S1600000x1_S1600000x38_1_0_0_1_wf
def dot_S100000x38_S38x64_S100000x64_1_0_0_1_n_n : DotDims S100000x38 S38x64 S100000x64 where
  lhsContracting := [1]
  rhsContracting := [0]
  lhsNonContracting := [0]
  rhsNonContracting := [1]
  lhsBatch := []
  rhsBatch := []
  wf := dot_S100000x38_S38x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.K_Reg0.lean ====
/-
  The first GraphConv layer's region, at the buffer contents `V` it is entered from: what its six windows hold at a grid
  point (the aggregated rows' and the node rows' 5000-row tiles, the two weight matrices and the bias whole), what the
  body leaves in the output tile (one whole-tile store of the rectified sum of the two products and the bias), the
  body's triple, the pipeline's proof data and the body obligation at every point.
-/
import proofs.«406771_j46110768890112_1_alg».proof.Proof.Gen.Kernel.Launch
import proofs.«406771_j46110768890112_1_alg».proof.Proof.Gen.Kernel.Skeleton
import proofs.«406771_j46110768890112_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_in : Rect S5000x38 := Rect.unit (s := S5000x38) ![0, 0] S5000x38.size inb_S5000x38_S5000x38_0_0
abbrev r0_w : Rect S38x64 := Rect.unit (s := S38x64) ![0, 0] S38x64.size inb_S38x64_S38x64_0_0
abbrev r0_b : Rect S1x64 := Rect.unit (s := S1x64) ![0, 0] S1x64.size inb_S1x64_S1x64_0_0
abbrev r0_out : Rect S5000x64 := Rect.unit (s := S5000x64) ![0, 0] S5000x64.size inb_S5000x64_S5000x64_0_0

/-- The output tile after the body, from the five input blocks: its one store. -/
def out0_5 (x0 x1 : Vec F S5000x38 .f32) (x2 : Vec F S38x64 .f32) (x3 : Vec F S1x64 .f32) (x4 : Vec F S38x64 .f32) : Vec F S5000x64 .f32 :=
  View.canon [⟨r0_out, k0_pay1 (View.ld x0 r0_in) (View.ld x1 r0_in) (View.ld x2 r0_w) (View.ld x4 r0_w) (View.ld x3 r0_b)⟩]

/-- The store covers the tile. -/
theorem cover0_5 (p0 : Vec F S5000x64 .f32) (y : S5000x64.Idx) :
    ∃ pc ∈ ([⟨r0_out, p0⟩] : List (View.Piece (Elt F) S5000x64 .f32)), y ∈ pc.1.set :=
  View.cover_of_tiled [⟨r0_out, p0⟩] S5000x64.size (by rfl) y

set_option maxHeartbeats 4000000 in
/-- The body on whole staging memrefs: the inputs keep their contents, the output tile ends at `out0_5` of them. -/
theorem sound_kernel0 (c : Dev nD) (E : Set ℕ) (i : grid0.Coords)
    (arg1 : Memref sig .tc .vmem S5000x38 .f32) (harg1 : arg1.IsWhole) (arg2 : Memref sig .tc .vmem S5000x38 .f32) (harg2 : arg2.IsWhole)
    (arg3 : Memref sig .tc .vmem S38x64 .f32) (harg3 : arg3.IsWhole) (arg4 : Memref sig .tc .vmem S1x64 .f32) (harg4 : arg4.IsWhole)
    (arg5 : Memref sig .tc .vmem S38x64 .f32) (harg5 : arg5.IsWhole) (arg6 : Memref sig .tc .vmem S5000x64 .f32) (harg6 : arg6.IsWhole)
    (x0 x1 : Vec F S5000x38 .f32) (x2 : Vec F S38x64 .f32) (x3 : Vec F S1x64 .f32) (x4 : Vec F S38x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__linear_kernel i arg1 harg1 arg2 harg2 arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of this pipeline on core `c`: the arrays as the region finds them; after the body each input's buffer at
    its block and the output's at `out0_5` of the blocks; the scoped rest and the generator register untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_Reg1.lean ====
/-
  The second GraphConv layer's region, at the buffer contents `V` it is entered from: what its six windows hold at a grid
  point (the aggregated rows' and the node rows' 5000-row tiles, the two weight matrices and the bias whole), what the
  body leaves in the output tile (one whole-tile store of the sum of the two products and the bias), the
  body's triple, the pipeline's proof data and the body obligation at every point.
-/
import proofs.«406771_j46110768890112_1_alg».proof.Proof.Gen.Kernel.Launch
import proofs.«406771_j46110768890112_1_alg».proof.Proof.Gen.Kernel.Skeleton
import proofs.«406771_j46110768890112_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_in : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_out : Rect S5000x64 := Rect.unit (s := S5000x64) ![0, 0] S5000x64.size inb_S5000x64_S5000x64_0_0

/-- The output tile after the body, from the five input blocks: its one store. -/
def out1_5 (x0 x1 : Vec F S5000x64 .f32) (x2 : Vec F S64x64 .f32) (x3 : Vec F S1x64 .f32) (x4 : Vec F S64x64 .f32) : Vec F S5000x64 .f32 :=
  View.canon [⟨r1_out, k1_pay1 (View.ld x0 r1_in) (View.ld x1 r1_in) (View.ld x2 r1_w) (View.ld x4 r1_w) (View.ld x3 r1_b)⟩]

/-- The store covers the tile. -/
theorem cover1_5 (p0 : Vec F S5000x64 .f32) (y : S5000x64.Idx) :
    ∃ pc ∈ ([⟨r1_out, p0⟩] : List (View.Piece (Elt F) S5000x64 .f32)), y ∈ pc.1.set :=
  View.cover_of_tiled [⟨r1_out, p0⟩] S5000x64.size (by rfl) y

set_option maxHeartbeats 4000000 in
/-- The body on whole staging memrefs: the inputs keep their contents, the output tile ends at `out1_5` of them. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (x0 x1 : Vec F S5000x64 .f32) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__linear_kernel i arg1 harg1 arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`: the arrays as the region finds them; after the body each input's buffer at
    its block and the output's at `out1_5` of the blocks; the scoped rest and the generator register untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K_Reg2.lean ====
/-
  The pooling region, at the buffer contents `V` it is entered from. Its two scratch buffers carry the running per-graph
  sums (256 × 64) and node counts (256 × 1) from one grid point to the next: the first point stores zeros and then adds its
  tile's one-hot products, every later point adds its tile's to what the point before left, and the last point also
  stores the quotient by max(count, 1), rectified, into the output window (idle, and not written back, at every other
  point). `scAt2` is what the scratch buffers hold after each point, by recursion on the point; `out2_2` what the output
  window holds after a point that stores it.
-/
import proofs.«406771_j46110768890112_1_alg».proof.Proof.Gen.Kernel.Launch
import proofs.«406771_j46110768890112_1_alg».proof.Proof.Gen.Kernel.Skeleton
import proofs.«406771_j46110768890112_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch memrefs the body is called with. -/
abbrev scM2_0 : Memref sig .tc .vmem S256x64 .f32 := Memref.whole cc2_scratch0
abbrev scM2_1 : Memref sig .tc .vmem S256x1 .f32 := Memref.whole cc2_scratch1

/-- THE ACCUMULATION: the sums' and the counts' scratch after the body at position `n` — the first point adds its tile's
    products to the zeros it has just stored, a later point to what the point before left. -/
def scAt2 (c : Dev nD) : (n : ℕ) → n < cfg2.N → Vec F S256x64 .f32 × Vec F S256x1 .f32
  | 0, hn => (k2_pay4 (iblk2 V c 1 ⟨0, hn⟩) (iblk2 V c 0 ⟨0, hn⟩) (k2_pay1 (F := F)), k2_pay5 (iblk2 V c 1 ⟨0, hn⟩) (k2_pay2 (F := F)))
  | n + 1, hn => (k2_pay4 (iblk2 V c 1 ⟨n + 1, hn⟩) (iblk2 V c 0 ⟨n + 1, hn⟩) (scAt2 c n (Nat.lt_of_succ_lt hn)).1,
      k2_pay5 (iblk2 V c 1 ⟨n + 1, hn⟩) (scAt2 c n (Nat.lt_of_succ_lt hn)).2)

theorem scAt2_zero (c : Dev nD) (hn : 0 < cfg2.N) :
    scAt2 V c 0 hn = (k2_pay4 (iblk2 V c 1 ⟨0, hn⟩) (iblk2 V c 0 ⟨0, hn⟩) (k2_pay1 (F := F)), k2_pay5 (iblk2 V c 1 ⟨0, hn⟩) (k2_pay2 (F := F))) := rfl
theorem scAt2_succ (c : Dev nD) (n : ℕ) (hn : n + 1 < cfg2.N) :
    scAt2 V c (n + 1) hn = (k2_pay4 (iblk2 V c 1 ⟨n + 1, hn⟩) (iblk2 V c 0 ⟨n + 1, hn⟩) (scAt2 V c n (Nat.lt_of_succ_lt hn)).1,
      k2_pay5 (iblk2 V c 1 ⟨n + 1, hn⟩) (scAt2 V c n (Nat.lt_of_succ_lt hn)).2) := rfl

/-- What a point that stores the output window leaves in it: the quotient of the sums by max(count, 1), rectified, of
    the scratch contents that point has just written. -/
def out2_2 (c : Dev nD) (t : Fin cfg2.N) : Vec F S256x64 .f32 :=
  k2_pay6 (scAt2 V c t.val t.isLt).1 (scAt2 V c t.val t.isLt).2

/-- The core's scoped buffers that are neither a staging buffer of this region nor one of its two scratch buffers (the
    other regions' staging buffers), each at some contents: the region carries them unopened. -/
abbrev others2 (c : Dev nD) : sProp 𝕄 :=
  Pipeline.scopedRestBut (Ix := Unit) (Name := ℕ) (U := UR sig nD τ) (Lvl := ℕ) (Val := Elt F) spec2 c [cc2_scratch0, cc2_scratch1]

/-- The region invariant before position `n`: before the first point the scoped rest with every scratch at anything and
    the generator register at some state; afterwards the two scratch buffers at what the point before left, the other
    scoped buffers still at anything. -/
def PhiS2 (c : Dev nD) : (n : ℕ) → n ≤ cfg2.N → sProp 𝕄
  | 0, _ => Pipeline.ΦA spec2 c
  | n + 1, hn => iprop(owns (c : Thread nD τ) scM2_0 fullShare ((scAt2 V c n hn).1) ∗ owns (c : Thread nD τ) scM2_1 fullShare ((scAt2 V c n hn).2)
      ∗ Pipeline.scopedRestBut (Ix := Unit) (Name := ℕ) (U := UR sig nD τ) (Lvl := ℕ) (Val := Elt F) spec2 c [cc2_scratch0, cc2_scratch1] ∗ (∃ r, prngReg c r))

/-- The proof data of the pooling pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 V c t := by dsimp only [dat2]

/-! ## The body's two branch conditions, and where the output window is idle -/

/-- The condition of the body's first branch (the grid coordinate is 0), as the body computes it, -/
abbrev cond2_0 (i : grid2.Coords) : Prop := (Scalar.cmpi .ne (Scalar.extui (Scalar.cmpi .eq (BitVec.ofNat 32 (i 0).val) 0#32)) 0#32) = 1#1
/-- holds at the first point only. -/
theorem hcond2_0 : ∀ t : Fin cfg2.N, cond2_0 (grid2.coords t) ↔ t.val = 0 :=
  (by decide +kernel : ∀ t : Fin grid2.N, cond2_0 (grid2.coords t) ↔ t.val = 0)
/-- The condition of its second branch (the grid coordinate is 19) -/
abbrev cond2_1 (i : grid2.Coords) : Prop := k2_cond2 i = 1#1
/-- holds at the last point only. -/
theorem hcond2_1 : ∀ t : Fin cfg2.N, cond2_1 (grid2.coords t) ↔ t.val = 19 :=
  (by decide +kernel : ∀ t : Fin grid2.N, cond2_1 (grid2.coords t) ↔ t.val = 19)

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Where the second branch is not taken the output window is idle and is not written back; -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- where it is taken, the window is live. -/
theorem liveAt2_2 : ∀ t : Fin cfg2.N, cond2_1 (grid2.coords t) → cfg2.idle 2 (grid2.coords t) = false := by decide +kernel

/-! ## Whole-buffer loads and stores -/

/-- Every rectangle of the body sits at zero offsets. -/
theorem zero_off2 : (![0, 0] : Fin 2 → Nat) = fun _ => 0 := funext fun a => by fin_cases a <;> rfl

/-- A buffer whose LAST store went through its whole rectangle reads that store's payload, whatever was stored before
    and whatever it held. -/
theorem read_writes_whole_last2 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The body on whole memrefs, case by case -/

set_option maxHeartbeats 4000000 in
/-- THE FIRST POINT (first branch taken, second not): whatever the scratch buffers held, they end at the tile's
    products added to zero; the inputs and the output window keep their contents. -/
theorem sound_kernel2_A (c : Dev nD) (E : Set ℕ) (i : grid2.Coords)
    (arg1 : Memref sig .tc .vmem S5000x64 .f32) (harg1 : arg1.IsWhole) (arg2 : Memref sig .tc .vmem S5000x1 .i32) (harg2 : arg2.IsWhole)
    (arg3 : Memref sig .tc .vmem S256x64 .f32) (harg3 : arg3.IsWhole) (arg4 : Memref sig .tc .vmem S256x64 .f32) (harg4 : arg4.IsWhole)
    (arg5 : Memref sig .tc .vmem S256x1 .f32) (harg5 : arg5.IsWhole) (hc0 : cond2_0 i) (hc1 : ¬cond2_1 i)
    (x0 : Vec F S5000x64 .f32) (x1 : Vec F S5000x1 .i32) (xi2 : Vec F S256x64 .f32) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (k2_pay4 x1 x0 (k2_pay1 (F := F)))
            ∗ owns (c : Thread nD τ) arg5 fullShare (k2_pay5 x1 (k2_pay2 (F := F)))) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    (try sl_unfold_run_names)
    rw [read_writes_whole_last2 _ _ zero_off2]
    simp only [View.readAt_eq_ld, View.ld_unit_zero (S := S5000x1) zero_off2, View.ld_unit_zero (S := S5000x64) zero_off2,
      View.ld_unit_zero (S := S256x64) zero_off2, View.ld_unit_zero (S := S256x1) zero_off2,
      View.readCov_unit_zero (S := S256x64) _ zero_off2, View.readCov_unit_zero (S := S256x1) _ zero_off2]
  iexists _; isplitr
  swap; · iexact HS1
  ipureintro
  (try sl_unfold_run_names)
  rw [read_writes_whole_last2 _ _ zero_off2]
  simp only [View.readAt_eq_ld, View.ld_unit_zero (S := S5000x1) zero_off2, View.ld_unit_zero (S := S5000x64) zero_off2,
      View.ld_unit_zero (S := S256x64) zero_off2, View.ld_unit_zero (S := S256x1) zero_off2,
      View.readCov_unit_zero (S := S256x64) _ zero_off2, View.readCov_unit_zero (S := S256x1) _ zero_off2]

set_option maxHeartbeats 4000000 in
/-- A MIDDLE POINT (neither branch taken): the scratch buffers, at what the point before left, end at the tile's products
    added to that; the inputs and the output window keep their contents. -/
theorem sound_kernel2_B (c : Dev nD) (E : Set ℕ) (i : grid2.Coords)
    (arg1 : Memref sig .tc .vmem S5000x64 .f32) (harg1 : arg1.IsWhole) (arg2 : Memref sig .tc .vmem S5000x1 .i32) (harg2 : arg2.IsWhole)
    (arg3 : Memref sig .tc .vmem S256x64 .f32) (harg3 : arg3.IsWhole) (arg4 : Memref sig .tc .vmem S256x64 .f32) (harg4 : arg4.IsWhole)
    (arg5 : Memref sig .tc .vmem S256x1 .f32) (harg5 : arg5.IsWhole) (hc0 : ¬cond2_0 i) (hc1 : ¬cond2_1 i)
    (x0 : Vec F S5000x64 .f32) (x1 : Vec F S5000x1 .i32) (xi2 : Vec F S256x64 .f32) (xs0 : Vec F S256x64 .f32) (xs1 : Vec F S256x1 .f32)
    (K : PUnit → sProp 𝕄) :
    iprop(owns (c : Thread nD τ) arg1 fullShare x0 ∗ owns (c : Thread nD τ) arg2 fullShare x1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare x1 ∗ owns (c : Thread nD τ) arg3 fullShare xi2
            ∗ owns (c : Thread nD τ) arg4 fullShare (k2_pay4 x1 x0 xs0)
            ∗ owns (c : Thread nD τ) arg5 fullShare (k2_pay5 x1 xs1)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    (try sl_unfold_run_names)
    rw [read_writes_whole_last2 _ _ zero_off2]
    simp only [View.readAt_eq_ld, View.ld_unit_zero (S := S5000x1) zero_off2, View.ld_unit_zero (S := S5000x64) zero_off2,
      View.ld_unit_zero (S := S256x64) zero_off2, View.ld_unit_zero (S := S256x1) zero_off2,
      View.readCov_unit_zero (S := S256x64) _ zero_off2, View.readCov_unit_zero (S := S256x1) _ zero_off2]
  iexists _; isplitr
  swap; · iexact HS1
  ipureintro
  (try sl_unfold_run_names)
  rw [read_writes_whole_last2 _ _ zero_off2]
  simp only [View.readAt_eq_ld, View.ld_unit_zero (S := S5000x1) zero_off2, View.ld_unit_zero (S := S5000x64) zero_off2,
    View.ld_unit_zero (S := S256x64) zero_off2, View.ld_unit_zero (S := S256x1) zero_off2,
    View.readCov_unit_zero (S := S256x64) _ zero_off2, View.readCov_unit_zero (S := S256x1) _ zero_off2]

set_option maxHeartbeats 4000000 in
/-- THE LAST POINT (second branch taken, first not): the scratch buffers as at a middle point, and the output window,
    whatever it held, ends at the quotient of the new sums by the new counts. -/
theorem sound_kernel2_C (c : Dev nD) (E : Set ℕ) (i : grid2.Coords)
    (arg1 : Memref sig .tc .vmem S5000x64 .f32) (harg1 : arg1.IsWhole) (arg2 : Memref sig .tc .vmem S5000x1 .i32) (harg2 : arg2.IsWhole)
    (arg3 : Memref sig .tc .vmem S256x64 .f32) (harg3 : arg3.IsWhole) (arg4 : Memref sig .tc .vmem S256x64 .f32) (harg4 : arg4.IsWhole)
    (arg5 : Memref sig .tc .vmem S256x1 .f32) (harg5 : arg5.IsWhole) (hc0 : ¬cond2_0 i) (hc1 : cond2_1 i)
    (x0 : Vec F S5000x64 .f32) (x1 : Vec F S5000x1 .i32) (xs0 : Vec F S256x64 .f32) (xs1 : Vec F S256x1 .f32)
    (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare (k2_pay6 (k2_pay4 x1 x0 xs0) (k2_pay5 x1 xs1))
            ∗ owns (c : Thread nD τ) arg4 fullShare (k2_pay4 x1 x0 xs0)
            ∗ owns (c : Thread nD τ) arg5 fullShare (k2_pay5 x1 xs1)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  subst hf0; subst hf1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    (try sl_unfold_run_names)
    rw [read_writes_whole_last2 _ _ zero_off2]
    simp only [View.readAt_eq_ld, View.ld_unit_zero (S := S5000x1) zero_off2, View.ld_unit_zero (S := S5000x64) zero_off2,
      View.ld_unit_zero (S := S256x64) zero_off2, View.ld_unit_zero (S := S256x1) zero_off2,
      View.readCov_unit_zero (S := S256x64) _ zero_off2, View.readCov_unit_zero (S := S256x1) _ zero_off2]
  isplitl [HS0]
  · iexists _; isplitr
    swap; · iexact HS0
    ipureintro
    (try sl_unfold_run_names)
    rw [read_writes_whole_last2 _ _ zero_off2]
    simp only [View.readAt_eq_ld, View.ld_unit_zero (S := S5000x1) zero_off2, View.ld_unit_zero (S := S5000x64) zero_off2,
      View.ld_unit_zero (S := S256x64) zero_off2, View.ld_unit_zero (S := S256x1) zero_off2,
      View.readCov_unit_zero (S := S256x64) _ zero_off2, View.readCov_unit_zero (S := S256x1) _ zero_off2]
  iexists _; isplitr
  swap; · iexact HS1
  ipureintro
  (try sl_unfold_run_names)
  rw [read_writes_whole_last2 _ _ zero_off2]
  simp only [View.readAt_eq_ld, View.ld_unit_zero (S := S5000x1) zero_off2, View.ld_unit_zero (S := S5000x64) zero_off2,
    View.ld_unit_zero (S := S256x64) zero_off2, View.ld_unit_zero (S := S256x1) zero_off2,
    View.readCov_unit_zero (S := S256x64) _ zero_off2, View.readCov_unit_zero (S := S256x1) _ zero_off2]

/-! ## The staging buffers and the invariant at a point -/

/-- An input window's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- The scoped rest the launch hands the region, split at the region's own two scratch buffers: each at some contents,
    beside the other scoped buffers unopened and the generator register. -/
theorem PhiA2_eq (c : Dev nD) :
    (Pipeline.ΦA spec2 c : sProp 𝕄)
      = iprop((((∃ d, owns (c : Thread nD τ) scM2_0 fullShare d) ∗ (∃ d, owns (c : Thread nD τ) scM2_1 fullShare d)) ∗ others2 (F := F) c) ∗ (∃ r, prngReg c r)) := by
  unfold Pipeline.ΦA
  rw [Pipeline.scopedRest_split_of_list spec2 c [cc2_scratch0, cc2_scratch1] (by decide) (by decide)]
  simp only [scM2_0, scM2_1, owns_whole]; try rfl

theorem PhiS2_zero (c : Dev nD) (n : ℕ) (h : n ≤ cfg2.N) (hz : n = 0) : PhiS2 V c n h = Pipeline.ΦA spec2 c := by
  subst hz; rfl

/-- After point `n`: the scratch buffers at that point's contents. -/
theorem PhiS2_succ (c : Dev nD) (n : ℕ) (hn : n < cfg2.N) :
    PhiS2 V c (n + 1) hn = iprop(owns (c : Thread nD τ) scM2_0 fullShare ((scAt2 V c n hn).1) ∗ owns (c : Thread nD τ) scM2_1 fullShare ((scAt2 V c n hn).2)
      ∗ others2 (F := F) c ∗ (∃ r, prngReg c r)) := rfl

/-- Before a point that is not the first: the scratch buffers at what the point before left. -/
theorem PhiS2_pos (c : Dev nD) (n : ℕ) (h : n ≤ cfg2.N) (hz : n ≠ 0) :
    PhiS2 V c n h = iprop(owns (c : Thread nD τ) scM2_0 fullShare ((scAt2 V c (n - 1) (by omega)).1)
      ∗ owns (c : Thread nD τ) scM2_1 fullShare ((scAt2 V c (n - 1) (by omega)).2) ∗ others2 (F := F) c ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- The scratch contents after the first point, -/
theorem scAt2_first (c : Dev nD) (t : Fin cfg2.N) (h : t.val = 0) :
    scAt2 V c t.val t.isLt = (k2_pay4 (iblk2 V c 1 t) (iblk2 V c 0 t) (k2_pay1 (F := F)), k2_pay5 (iblk2 V c 1 t) (k2_pay2 (F := F))) := by
  obtain ⟨n, hn⟩ := t
  cases n with
  | zero => rfl
  | succ n => exact absurd h (Nat.succ_ne_zero n)

/-- and after a later one, over what the point before left. -/
theorem scAt2_pos (c : Dev nD) (t : Fin cfg2.N) (h : t.val ≠ 0) :
    scAt2 V c t.val t.isLt = (k2_pay4 (iblk2 V c 1 t) (iblk2 V c 0 t) (scAt2 V c (t.val - 1) (Nat.lt_of_le_of_lt (Nat.sub_le _ _) t.isLt)).1,
      k2_pay5 (iblk2 V c 1 t) (scAt2 V c (t.val - 1) (Nat.lt_of_le_of_lt (Nat.sub_le _ _) t.isLt)).2) := by
  obtain ⟨n, hn⟩ := t
  cases n with
  | zero => exact absurd rfl h
  | succ n => rfl

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' staging buffers hold their blocks; the position decides the case (first, middle,
    last); the invariant hands the body the scratch buffers (at anything before the first point, at what the point before
    left afterwards) and takes them back at this point's contents; at every point but the last the output window is idle
    and goes back as it came, at the last it holds the quotient. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 20 := lt_of_lt_of_eq t.isLt (show cfg2.N = 20 from N_2)
  by_cases h1 : t.val = 19
  · have h0 : t.val ≠ 0 := by omega
    rw [show (dat2 V c).leavesExact 2 t = owns (c : Thread nD τ) (st2_2 t) fullShare ((dat2 V c).after 2 t) from by
      unfold Dat.leavesExact; rw [liveAt2_2 t ((hcond2_1 t).mpr h1)], after2_2]
    unfold out2_2
    rw [scAt2_pos V c t h0]; dsimp only
    rw [PhiS2_castSucc V c t, PhiS2_pos V c _ _ h0]
    iintro ⟨⟨HS0, HS1, HR, Hg⟩, Ho, ⟨%d0, H0⟩, ⟨%d1, H1⟩, ⟨%d2, H2⟩⟩
    iapply (sound_kernel2_C c Set.univ (grid2.coords t) _ _ _ _ _ _ _ _ _ _ (fun h => h0 ((hcond2_0 t).mp h)) ((hcond2_1 t).mpr h1)
      (iblk2 V c 0 t) (iblk2 V c 1 t) _ _ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    iexact H2
  · have hn1 : ¬cond2_1 (grid2.coords t) := fun h => h1 ((hcond2_1 t).mp h)
    rw [Dat.leavesExact_idle (dat2 V c) 2 t (idleAt2_2 t hn1) (noFlush2_2 t hn1)]
    by_cases h0 : t.val = 0
    · rw [scAt2_first V c t h0]; dsimp only
      rw [PhiS2_castSucc V c t, PhiS2_zero V c _ _ h0, PhiA2_eq]
      iintro ⟨⟨⟨⟨HS0, HS1⟩, HR⟩, Hg⟩, Ho, ⟨%d0, H0⟩, ⟨%d1, H1⟩, ⟨%d2, H2⟩⟩
      iapply (sound_kernel2_A c Set.univ (grid2.coords t) _ _ _ _ _ _ _ _ _ _ ((hcond2_0 t).mpr h0) hn1
        (iblk2 V c 0 t) (iblk2 V c 1 t) _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexists _; iexact H2
    · rw [scAt2_pos V c t h0]; dsimp only
      rw [PhiS2_castSucc V c t, PhiS2_pos V c _ _ h0]
      iintro ⟨⟨HS0, HS1, HR, Hg⟩, Ho, ⟨%d0, H0⟩, ⟨%d1, H1⟩, ⟨%d2, H2⟩⟩
      iapply (sound_kernel2_B c Set.univ (grid2.coords t) _ _ _ _ _ _ _ _ _ _ (fun h => h0 ((hcond2_0 t).mp h)) hn1
        (iblk2 V c 0 t) (iblk2 V c 1 t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back, the scratch contents forgotten. -/
theorem hout2 (c : Dev nD) : (dat2 V c).Φ (Fin.last cfg2.N) ⊢ Pipeline.ΦA spec2 c := by
  have ht : (Fin.last cfg2.N).val ≠ 0 := by rw [Fin.val_last]; have : cfg2.N = 20 := N_2; omega
  rw [show (dat2 V c).Φ (Fin.last cfg2.N) = PhiS2 V c (Fin.last cfg2.N).val (Nat.le_of_lt_succ (Fin.last cfg2.N).isLt) from rfl,
    PhiS2_pos V c _ _ ht, PhiA2_eq]
  iintro ⟨HS0, HS1, HR, Hg⟩
  isplitr [Hg]
  · isplitr [HR]
    · isplitl [HS0]
      · iexists _; iexact HS0
      iexists _; iexact HS1
    iexact HR
  iexact Hg

end Cert.Kernel.Hand

end
-- ==== Proof.K_Run.lean ====
/-
  The whole run of @main: three host stretches and three kernel regions in turn. The buffer contents at each boundary
  are a fold from the launch memory — a host stretch applies its operations, a region replaces its arrays by what its
  write-backs leave —, every pipeline's proof data is taken at its region's entry contents, and the launch composes the
  six segments. Every weakly fair execution terminates with each unscoped buffer at the last boundary's contents; an
  argument array walks back through the fold to its launch contents, since no stretch and no region writes one.
-/
import proofs.«406771_j46110768890112_1_alg».proof.Proof.K_Reg0
import proofs.«406771_j46110768890112_1_alg».proof.Proof.K_Reg1
import proofs.«406771_j46110768890112_1_alg».proof.Proof.K_Reg2
import proofs.«406771_j46110768890112_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m (c, b)
/-- After the first host stretch (region 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b

/-- At region 0's exit: its arrays at what its write-backs leave, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second host stretch (region 1's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b

/-- At region 1's exit: its arrays at what its write-backs leave, every other buffer as entered. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- The same read at the TensorCore's references. -/
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- After the third host stretch (region 2's entry). -/
abbrev B5 : Dev nD → Valuation τ sig (Elt F) := fun c => StableHlo.after hostOps2 (B4 m c)
abbrev E5 : (c : Dev nD) → (b : Ref sig .tc) → Buf (Elt F) ((c : Thread nD τ).loc b) := fun c b => B5 m c b

/-- At region 2's exit: its arrays at what its write-backs leave, every other buffer as entered. -/
def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
/-- The same read at the TensorCore's references. -/
abbrev E6 : (c : Dev nD) → (b : Ref sig .tc) → Buf (Elt F) ((c : Thread nD τ).loc b) := fun c b => B6 m c b
theorem hF2 (c : Dev nD) (w : Fin cfg2.W) : (dat2 (E5 m) c).arrAt w cfg2.N = E6 m c (Pipeline.arrRef spec2 w) :=
  (B6_arr m c w).symm
theorem hrest2 (c : Dev nD) : ∀ b, b ∉ Finset.univ.image (Pipeline.arrRef spec2) → E6 m c b = E5 m c b :=
  fun b hb => B6_of_ne m c b fun w e => hb (Finset.mem_image.mpr ⟨w, Finset.mem_univ _, e⟩)

/-- An array the region only reads (an input window's), or no array of the region at all, leaves the region as it entered. -/
theorem B2_keep (c : Dev nD) (r : Ref sig .tc) (h : ∀ w, Pipeline.arrRef spec0 w = r → (cfg0.win w).isOut = false) :
    B2 m c (Proc.devRef .tc r) = B1 m c (Proc.devRef .tc r) := by
  by_cases hw : ∃ w, Pipeline.arrRef spec0 w = r
  · obtain ⟨w, rfl⟩ := hw
    rw [B2_arr]
    exact ((dat0 (E1 m) c).arrAt_in w (h w rfl) _).trans (A_eq0 (E1 m) c w)
  · exact B2_of_ne m c r (fun w e => hw ⟨w, e⟩)

/-- An array the region only reads (an input window's), or no array of the region at all, leaves the region as it entered. -/
theorem B4_keep (c : Dev nD) (r : Ref sig .tc) (h : ∀ w, Pipeline.arrRef spec1 w = r → (cfg1.win w).isOut = false) :
    B4 m c (Proc.devRef .tc r) = B3 m c (Proc.devRef .tc r) := by
  by_cases hw : ∃ w, Pipeline.arrRef spec1 w = r
  · obtain ⟨w, rfl⟩ := hw
    rw [B4_arr]
    exact ((dat1 (E3 m) c).arrAt_in w (h w rfl) _).trans (A_eq1 (E3 m) c w)
  · exact B4_of_ne m c r (fun w e => hw ⟨w, e⟩)

/-- An array the region only reads (an input window's), or no array of the region at all, leaves the region as it entered. -/
theorem B6_keep (c : Dev nD) (r : Ref sig .tc) (h : ∀ w, Pipeline.arrRef spec2 w = r → (cfg2.win w).isOut = false) :
    B6 m c (Proc.devRef .tc r) = B5 m c (Proc.devRef .tc r) := by
  by_cases hw : ∃ w, Pipeline.arrRef spec2 w = r
  · obtain ⟨w, rfl⟩ := hw
    rw [B6_arr]
    exact ((dat2 (E5 m) c).arrAt_in w (h w rfl) _).trans (A_eq2 (E5 m) c w)
  · exact B6_of_ne m c r (fun w e => hw ⟨w, e⟩)

/-! ## A buffer no stretch and no region writes ends as launched -/

theorem B6_of_unwritten (c : Dev nD) (r : Ref sig .tc) (h0 : r ∉ hostOps0_W) (h1 : r ∉ hostOps1_W) (h2 : r ∉ hostOps2_W)
    (ha0 : ∀ w, Pipeline.arrRef spec0 w = r → (cfg0.win w).isOut = false) (ha1 : ∀ w, Pipeline.arrRef spec1 w = r → (cfg1.win w).isOut = false)
    (ha2 : ∀ w, Pipeline.arrRef spec2 w = r → (cfg2.win w).isOut = false) :
    B6 m c (Proc.devRef .tc r) = m ((c : Thread nD τ).loc r) :=
  calc B6 m c (Proc.devRef .tc r)
    _ = B5 m c (Proc.devRef .tc r) := B6_keep m c r ha2
    _ = B4 m c (Proc.devRef .tc r) := StableHlo.after_of_writes_sub hostOps2 _ hostOps2_writes h2
    _ = B3 m c (Proc.devRef .tc r) := B4_keep m c r ha1
    _ = B2 m c (Proc.devRef .tc r) := StableHlo.after_of_writes_sub hostOps1 _ hostOps1_writes h1
    _ = B1 m c (Proc.devRef .tc r) := B2_keep m c r ha0
    _ = B0 m c (Proc.devRef .tc r) := StableHlo.after_of_writes_sub hostOps0 _ hostOps0_writes h0
    _ = m ((c : Thread nD τ).loc r) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (B6 m c) ∗ ∃ r, prngReg c r)

/-! ## The regions as segments -/

set_option backward.isDefEq.respectTransparency.types false in
/-- Region 0 over the thread state: entered from every unscoped buffer at `B1`, left at `B2`. Its arrays are split
    out of the unscoped buffers and put back at their exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. Its arrays are split
    out of the unscoped buffers and put back at their exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. Its arrays are split
    out of the unscoped buffers and put back at their exit contents; the generator register goes into the region's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E5 m) c)
    unfold Pipeline.ΦA
    iintro ⟨Hp, -, Hr⟩
    isplitl [Hr]; · iexact Hr
    iexact Hp
  hout c := by
    rw [Pipeline.ownSems0_none]
    refine BIBase.Entails.trans (hout2 (E5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (B6_of_unwritten m c main_arg0 (by decide) (by decide) (by decide) (by decide) (by decide) (by decide)),
     (h c _ (mem_uc main_arg1 (by decide))).trans (B6_of_unwritten m c main_arg1 (by decide) (by decide) (by decide) (by decide) (by decide) (by decide)),
     (h c _ (mem_uc main_arg2 (by decide))).trans (B6_of_unwritten m c main_arg2 (by decide) (by decide) (by decide) (by decide) (by decide) (by decide)),
     (h c _ (mem_uc main_arg3 (by decide))).trans (B6_of_unwritten m c main_arg3 (by decide) (by decide) (by decide) (by decide) (by decide) (by decide)),
     (h c _ (mem_uc main_arg4 (by decide))).trans (B6_of_unwritten m c main_arg4 (by decide) (by decide) (by decide) (by decide) (by decide) (by decide)),
     (h c _ (mem_uc main_arg5 (by decide))).trans (B6_of_unwritten m c main_arg5 (by decide) (by decide) (by decide) (by decide) (by decide) (by decide)),
     (h c _ (mem_uc main_arg6 (by decide))).trans (B6_of_unwritten m c main_arg6 (by decide) (by decide) (by decide) (by decide) (by decide) (by decide)),
     (h c _ (mem_uc main_arg7 (by decide))).trans (B6_of_unwritten m c main_arg7 (by decide) (by decide) (by decide) (by decide) (by decide) (by decide)),
     (h c _ (mem_uc main_arg8 (by decide))).trans (B6_of_unwritten m c main_arg8 (by decide) (by decide) (by decide) (by decide) (by decide) (by decide))⟩)
    (run_all m ρ)

end Cert.Kernel.Hand

end
-- ==== Proof.KI_Reg0.lean ====
/-
  The first GraphConv layer's region, at the buffer contents `V` it is entered from: what its six windows hold at a grid
  point (the aggregated rows' and the node rows' 5000-row tiles, the two weight matrices and the bias whole), what the
  body leaves in the output tile (one whole-tile store of the rectified sum of the two products and the bias), the
  body's triple, the pipeline's proof data and the body obligation at every point.
-/
import proofs.«406771_j46110768890112_1_alg».proof.Proof.Gen.KernelIdeal.Launch
import proofs.«406771_j46110768890112_1_alg».proof.Proof.Gen.KernelIdeal.Skeleton
import proofs.«406771_j46110768890112_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_in : Rect S5000x38 := Rect.unit (s := S5000x38) ![0, 0] S5000x38.size inb_S5000x38_S5000x38_0_0
abbrev r0_w : Rect S38x64 := Rect.unit (s := S38x64) ![0, 0] S38x64.size inb_S38x64_S38x64_0_0
abbrev r0_b : Rect S1x64 := Rect.unit (s := S1x64) ![0, 0] S1x64.size inb_S1x64_S1x64_0_0
abbrev r0_out : Rect S5000x64 := Rect.unit (s := S5000x64) ![0, 0] S5000x64.size inb_S5000x64_S5000x64_0_0

/-- The output tile after the body, from the five input blocks: its one store. -/
def out0_5 (x0 x1 : Vec F S5000x38 .f32) (x2 : Vec F S38x64 .f32) (x3 : Vec F S1x64 .f32) (x4 : Vec F S38x64 .f32) : Vec F S5000x64 .f32 :=
  View.canon [⟨r0_out, k0_pay1 (View.ld x0 r0_in) (View.ld x1 r0_in) (View.ld x2 r0_w) (View.ld x4 r0_w) (View.ld x3 r0_b)⟩]

/-- The store covers the tile. -/
theorem cover0_5 (p0 : Vec F S5000x64 .f32) (y : S5000x64.Idx) :
    ∃ pc ∈ ([⟨r0_out, p0⟩] : List (View.Piece (Elt F) S5000x64 .f32)), y ∈ pc.1.set :=
  View.cover_of_tiled [⟨r0_out, p0⟩] S5000x64.size (by rfl) y

set_option maxHeartbeats 4000000 in
/-- The body on whole staging memrefs: the inputs keep their contents, the output tile ends at `out0_5` of them. -/
theorem sound_kernel0 (c : Dev nD) (E : Set ℕ) (i : grid0.Coords)
    (arg1 : Memref sig .tc .vmem S5000x38 .f32) (harg1 : arg1.IsWhole) (arg2 : Memref sig .tc .vmem S5000x38 .f32) (harg2 : arg2.IsWhole)
    (arg3 : Memref sig .tc .vmem S38x64 .f32) (harg3 : arg3.IsWhole) (arg4 : Memref sig .tc .vmem S1x64 .f32) (harg4 : arg4.IsWhole)
    (arg5 : Memref sig .tc .vmem S38x64 .f32) (harg5 : arg5.IsWhole) (arg6 : Memref sig .tc .vmem S5000x64 .f32) (harg6 : arg6.IsWhole)
    (x0 x1 : Vec F S5000x38 .f32) (x2 : Vec F S38x64 .f32) (x3 : Vec F S1x64 .f32) (x4 : Vec F S38x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__linear_kernel i arg1 harg1 arg2 harg2 arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of this pipeline on core `c`: the arrays as the region finds them; after the body each input's buffer at
    its block and the output's at `out0_5` of the blocks; the scoped rest and the generator register untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Reg1.lean ====
/-
  The second GraphConv layer's region, at the buffer contents `V` it is entered from: what its six windows hold at a grid
  point (the aggregated rows' and the node rows' 5000-row tiles, the two weight matrices and the bias whole), what the
  body leaves in the output tile (one whole-tile store of the sum of the two products and the bias), the
  body's triple, the pipeline's proof data and the body obligation at every point.
-/
import proofs.«406771_j46110768890112_1_alg».proof.Proof.Gen.KernelIdeal.Launch
import proofs.«406771_j46110768890112_1_alg».proof.Proof.Gen.KernelIdeal.Skeleton
import proofs.«406771_j46110768890112_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_in : Rect S5000x64 := Rect.unit (s := S5000x64) ![0, 0] S5000x64.size inb_S5000x64_S5000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_out : Rect S5000x64 := Rect.unit (s := S5000x64) ![0, 0] S5000x64.size inb_S5000x64_S5000x64_0_0

/-- The output tile after the body, from the five input blocks: its one store. -/
def out1_5 (x0 x1 : Vec F S5000x64 .f32) (x2 : Vec F S64x64 .f32) (x3 : Vec F S1x64 .f32) (x4 : Vec F S64x64 .f32) : Vec F S5000x64 .f32 :=
  View.canon [⟨r1_out, k1_pay1 (View.ld x0 r1_in) (View.ld x1 r1_in) (View.ld x2 r1_w) (View.ld x4 r1_w) (View.ld x3 r1_b)⟩]

/-- The store covers the tile. -/
theorem cover1_5 (p0 : Vec F S5000x64 .f32) (y : S5000x64.Idx) :
    ∃ pc ∈ ([⟨r1_out, p0⟩] : List (View.Piece (Elt F) S5000x64 .f32)), y ∈ pc.1.set :=
  View.cover_of_tiled [⟨r1_out, p0⟩] S5000x64.size (by rfl) y

set_option maxHeartbeats 4000000 in
/-- The body on whole staging memrefs: the inputs keep their contents, the output tile ends at `out1_5` of them. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S5000x64 .f32) (harg6 : arg6.IsWhole)
    (x0 x1 : Vec F S5000x64 .f32) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__linear_kernel i arg1 harg1 arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core `c`: the arrays as the region finds them; after the body each input's buffer at
    its block and the output's at `out1_5` of the blocks; the scoped rest and the generator register untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_Reg2.lean ====
/-
  The pooling region, at the buffer contents `V` it is entered from. Its two scratch buffers carry the running per-graph
  sums (256 × 64) and node counts (256 × 1) from one grid point to the next: the first point stores zeros and then adds its
  tile's one-hot products, every later point adds its tile's to what the point before left, and the last point also
  stores the quotient by max(count, 1), rectified, into the output window (idle, and not written back, at every other
  point). `scAt2` is what the scratch buffers hold after each point, by recursion on the point; `out2_2` what the output
  window holds after a point that stores it.
-/
import proofs.«406771_j46110768890112_1_alg».proof.Proof.Gen.KernelIdeal.Launch
import proofs.«406771_j46110768890112_1_alg».proof.Proof.Gen.KernelIdeal.Skeleton
import proofs.«406771_j46110768890112_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch memrefs the body is called with. -/
abbrev scM2_0 : Memref sig .tc .vmem S256x64 .f32 := Memref.whole cc2_scratch0
abbrev scM2_1 : Memref sig .tc .vmem S256x1 .f32 := Memref.whole cc2_scratch1

/-- THE ACCUMULATION: the sums' and the counts' scratch after the body at position `n` — the first point adds its tile's
    products to the zeros it has just stored, a later point to what the point before left. -/
def scAt2 (c : Dev nD) : (n : ℕ) → n < cfg2.N → Vec F S256x64 .f32 × Vec F S256x1 .f32
  | 0, hn => (k2_pay4 (iblk2 V c 1 ⟨0, hn⟩) (iblk2 V c 0 ⟨0, hn⟩) (k2_pay1 (F := F)), k2_pay5 (iblk2 V c 1 ⟨0, hn⟩) (k2_pay2 (F := F)))
  | n + 1, hn => (k2_pay4 (iblk2 V c 1 ⟨n + 1, hn⟩) (iblk2 V c 0 ⟨n + 1, hn⟩) (scAt2 c n (Nat.lt_of_succ_lt hn)).1,
      k2_pay5 (iblk2 V c 1 ⟨n + 1, hn⟩) (scAt2 c n (Nat.lt_of_succ_lt hn)).2)

theorem scAt2_zero (c : Dev nD) (hn : 0 < cfg2.N) :
    scAt2 V c 0 hn = (k2_pay4 (iblk2 V c 1 ⟨0, hn⟩) (iblk2 V c 0 ⟨0, hn⟩) (k2_pay1 (F := F)), k2_pay5 (iblk2 V c 1 ⟨0, hn⟩) (k2_pay2 (F := F))) := rfl
theorem scAt2_succ (c : Dev nD) (n : ℕ) (hn : n + 1 < cfg2.N) :
    scAt2 V c (n + 1) hn = (k2_pay4 (iblk2 V c 1 ⟨n + 1, hn⟩) (iblk2 V c 0 ⟨n + 1, hn⟩) (scAt2 V c n (Nat.lt_of_succ_lt hn)).1,
      k2_pay5 (iblk2 V c 1 ⟨n + 1, hn⟩) (scAt2 V c n (Nat.lt_of_succ_lt hn)).2) := rfl

/-- What a point that stores the output window leaves in it: the quotient of the sums by max(count, 1), rectified, of
    the scratch contents that point has just written. -/
def out2_2 (c : Dev nD) (t : Fin cfg2.N) : Vec F S256x64 .f32 :=
  k2_pay6 (scAt2 V c t.val t.isLt).1 (scAt2 V c t.val t.isLt).2

/-- The core's scoped buffers that are neither a staging buffer of this region nor one of its two scratch buffers (the
    other regions' staging buffers), each at some contents: the region carries them unopened. -/
abbrev others2 (c : Dev nD) : sProp 𝕄 :=
  Pipeline.scopedRestBut (Ix := Unit) (Name := ℕ) (U := UR sig nD τ) (Lvl := ℕ) (Val := Elt F) spec2 c [cc2_scratch0, cc2_scratch1]

/-- The region invariant before position `n`: before the first point the scoped rest with every scratch at anything and
    the generator register at some state; afterwards the two scratch buffers at what the point before left, the other
    scoped buffers still at anything. -/
def PhiS2 (c : Dev nD) : (n : ℕ) → n ≤ cfg2.N → sProp 𝕄
  | 0, _ => Pipeline.ΦA spec2 c
  | n + 1, hn => iprop(owns (c : Thread nD τ) scM2_0 fullShare ((scAt2 V c n hn).1) ∗ owns (c : Thread nD τ) scM2_1 fullShare ((scAt2 V c n hn).2)
      ∗ Pipeline.scopedRestBut (Ix := Unit) (Name := ℕ) (U := UR sig nD τ) (Lvl := ℕ) (Val := Elt F) spec2 c [cc2_scratch0, cc2_scratch1] ∗ (∃ r, prngReg c r))

/-- The proof data of the pooling pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 V c t := by dsimp only [dat2]

/-! ## The body's two branch conditions, and where the output window is idle -/

/-- The condition of the body's first branch (the grid coordinate is 0), as the body computes it, -/
abbrev cond2_0 (i : grid2.Coords) : Prop := (Scalar.cmpi .ne (Scalar.extui (Scalar.cmpi .eq (BitVec.ofNat 32 (i 0).val) 0#32)) 0#32) = 1#1
/-- holds at the first point only. -/
theorem hcond2_0 : ∀ t : Fin cfg2.N, cond2_0 (grid2.coords t) ↔ t.val = 0 :=
  (by decide +kernel : ∀ t : Fin grid2.N, cond2_0 (grid2.coords t) ↔ t.val = 0)
/-- The condition of its second branch (the grid coordinate is 19) -/
abbrev cond2_1 (i : grid2.Coords) : Prop := k2_cond2 i = 1#1
/-- holds at the last point only. -/
theorem hcond2_1 : ∀ t : Fin cfg2.N, cond2_1 (grid2.coords t) ↔ t.val = 19 :=
  (by decide +kernel : ∀ t : Fin grid2.N, cond2_1 (grid2.coords t) ↔ t.val = 19)

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Where the second branch is not taken the output window is idle and is not written back; -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- where it is taken, the window is live. -/
theorem liveAt2_2 : ∀ t : Fin cfg2.N, cond2_1 (grid2.coords t) → cfg2.idle 2 (grid2.coords t) = false := by decide +kernel

/-! ## Whole-buffer loads and stores -/

/-- Every rectangle of the body sits at zero offsets. -/
theorem zero_off2 : (![0, 0] : Fin 2 → Nat) = fun _ => 0 := funext fun a => by fin_cases a <;> rfl

/-- A buffer whose LAST store went through its whole rectangle reads that store's payload, whatever was stored before
    and whatever it held. -/
theorem read_writes_whole_last2 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The body on whole memrefs, case by case -/

set_option maxHeartbeats 4000000 in
/-- THE FIRST POINT (first branch taken, second not): whatever the scratch buffers held, they end at the tile's
    products added to zero; the inputs and the output window keep their contents. -/
theorem sound_kernel2_A (c : Dev nD) (E : Set ℕ) (i : grid2.Coords)
    (arg1 : Memref sig .tc .vmem S5000x64 .f32) (harg1 : arg1.IsWhole) (arg2 : Memref sig .tc .vmem S5000x1 .i32) (harg2 : arg2.IsWhole)
    (arg3 : Memref sig .tc .vmem S256x64 .f32) (harg3 : arg3.IsWhole) (arg4 : Memref sig .tc .vmem S256x64 .f32) (harg4 : arg4.IsWhole)
    (arg5 : Memref sig .tc .vmem S256x1 .f32) (harg5 : arg5.IsWhole) (hc0 : cond2_0 i) (hc1 : ¬cond2_1 i)
    (x0 : Vec F S5000x64 .f32) (x1 : Vec F S5000x1 .i32) (xi2 : Vec F S256x64 .f32) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (k2_pay4 x1 x0 (k2_pay1 (F := F)))
            ∗ owns (c : Thread nD τ) arg5 fullShare (k2_pay5 x1 (k2_pay2 (F := F)))) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    (try sl_unfold_run_names)
    rw [read_writes_whole_last2 _ _ zero_off2]
    simp only [View.readAt_eq_ld, View.ld_unit_zero (S := S5000x1) zero_off2, View.ld_unit_zero (S := S5000x64) zero_off2,
      View.ld_unit_zero (S := S256x64) zero_off2, View.ld_unit_zero (S := S256x1) zero_off2,
      View.readCov_unit_zero (S := S256x64) _ zero_off2, View.readCov_unit_zero (S := S256x1) _ zero_off2]
  iexists _; isplitr
  swap; · iexact HS1
  ipureintro
  (try sl_unfold_run_names)
  rw [read_writes_whole_last2 _ _ zero_off2]
  simp only [View.readAt_eq_ld, View.ld_unit_zero (S := S5000x1) zero_off2, View.ld_unit_zero (S := S5000x64) zero_off2,
      View.ld_unit_zero (S := S256x64) zero_off2, View.ld_unit_zero (S := S256x1) zero_off2,
      View.readCov_unit_zero (S := S256x64) _ zero_off2, View.readCov_unit_zero (S := S256x1) _ zero_off2]

set_option maxHeartbeats 4000000 in
/-- A MIDDLE POINT (neither branch taken): the scratch buffers, at what the point before left, end at the tile's products
    added to that; the inputs and the output window keep their contents. -/
theorem sound_kernel2_B (c : Dev nD) (E : Set ℕ) (i : grid2.Coords)
    (arg1 : Memref sig .tc .vmem S5000x64 .f32) (harg1 : arg1.IsWhole) (arg2 : Memref sig .tc .vmem S5000x1 .i32) (harg2 : arg2.IsWhole)
    (arg3 : Memref sig .tc .vmem S256x64 .f32) (harg3 : arg3.IsWhole) (arg4 : Memref sig .tc .vmem S256x64 .f32) (harg4 : arg4.IsWhole)
    (arg5 : Memref sig .tc .vmem S256x1 .f32) (harg5 : arg5.IsWhole) (hc0 : ¬cond2_0 i) (hc1 : ¬cond2_1 i)
    (x0 : Vec F S5000x64 .f32) (x1 : Vec F S5000x1 .i32) (xi2 : Vec F S256x64 .f32) (xs0 : Vec F S256x64 .f32) (xs1 : Vec F S256x1 .f32)
    (K : PUnit → sProp 𝕄) :
    iprop(owns (c : Thread nD τ) arg1 fullShare x0 ∗ owns (c : Thread nD τ) arg2 fullShare x1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare x1 ∗ owns (c : Thread nD τ) arg3 fullShare xi2
            ∗ owns (c : Thread nD τ) arg4 fullShare (k2_pay4 x1 x0 xs0)
            ∗ owns (c : Thread nD τ) arg5 fullShare (k2_pay5 x1 xs1)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS0]
  · iexists _; isplitr
    swap; · iexact HS0
    ipureintro
    (try sl_unfold_run_names)
    rw [read_writes_whole_last2 _ _ zero_off2]
    simp only [View.readAt_eq_ld, View.ld_unit_zero (S := S5000x1) zero_off2, View.ld_unit_zero (S := S5000x64) zero_off2,
      View.ld_unit_zero (S := S256x64) zero_off2, View.ld_unit_zero (S := S256x1) zero_off2,
      View.readCov_unit_zero (S := S256x64) _ zero_off2, View.readCov_unit_zero (S := S256x1) _ zero_off2]
  iexists _; isplitr
  swap; · iexact HS1
  ipureintro
  (try sl_unfold_run_names)
  rw [read_writes_whole_last2 _ _ zero_off2]
  simp only [View.readAt_eq_ld, View.ld_unit_zero (S := S5000x1) zero_off2, View.ld_unit_zero (S := S5000x64) zero_off2,
    View.ld_unit_zero (S := S256x64) zero_off2, View.ld_unit_zero (S := S256x1) zero_off2,
    View.readCov_unit_zero (S := S256x64) _ zero_off2, View.readCov_unit_zero (S := S256x1) _ zero_off2]

set_option maxHeartbeats 4000000 in
/-- THE LAST POINT (second branch taken, first not): the scratch buffers as at a middle point, and the output window,
    whatever it held, ends at the quotient of the new sums by the new counts. -/
theorem sound_kernel2_C (c : Dev nD) (E : Set ℕ) (i : grid2.Coords)
    (arg1 : Memref sig .tc .vmem S5000x64 .f32) (harg1 : arg1.IsWhole) (arg2 : Memref sig .tc .vmem S5000x1 .i32) (harg2 : arg2.IsWhole)
    (arg3 : Memref sig .tc .vmem S256x64 .f32) (harg3 : arg3.IsWhole) (arg4 : Memref sig .tc .vmem S256x64 .f32) (harg4 : arg4.IsWhole)
    (arg5 : Memref sig .tc .vmem S256x1 .f32) (harg5 : arg5.IsWhole) (hc0 : ¬cond2_0 i) (hc1 : cond2_1 i)
    (x0 : Vec F S5000x64 .f32) (x1 : Vec F S5000x1 .i32) (xs0 : Vec F S256x64 .f32) (xs1 : Vec F S256x1 .f32)
    (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare (k2_pay6 (k2_pay4 x1 x0 xs0) (k2_pay5 x1 xs1))
            ∗ owns (c : Thread nD τ) arg4 fullShare (k2_pay4 x1 x0 xs0)
            ∗ owns (c : Thread nD τ) arg5 fullShare (k2_pay5 x1 xs1)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  subst hf0; subst hf1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    (try sl_unfold_run_names)
    rw [read_writes_whole_last2 _ _ zero_off2]
    simp only [View.readAt_eq_ld, View.ld_unit_zero (S := S5000x1) zero_off2, View.ld_unit_zero (S := S5000x64) zero_off2,
      View.ld_unit_zero (S := S256x64) zero_off2, View.ld_unit_zero (S := S256x1) zero_off2,
      View.readCov_unit_zero (S := S256x64) _ zero_off2, View.readCov_unit_zero (S := S256x1) _ zero_off2]
  isplitl [HS0]
  · iexists _; isplitr
    swap; · iexact HS0
    ipureintro
    (try sl_unfold_run_names)
    rw [read_writes_whole_last2 _ _ zero_off2]
    simp only [View.readAt_eq_ld, View.ld_unit_zero (S := S5000x1) zero_off2, View.ld_unit_zero (S := S5000x64) zero_off2,
      View.ld_unit_zero (S := S256x64) zero_off2, View.ld_unit_zero (S := S256x1) zero_off2,
      View.readCov_unit_zero (S := S256x64) _ zero_off2, View.readCov_unit_zero (S := S256x1) _ zero_off2]
  iexists _; isplitr
  swap; · iexact HS1
  ipureintro
  (try sl_unfold_run_names)
  rw [read_writes_whole_last2 _ _ zero_off2]
  simp only [View.readAt_eq_ld, View.ld_unit_zero (S := S5000x1) zero_off2, View.ld_unit_zero (S := S5000x64) zero_off2,
    View.ld_unit_zero (S := S256x64) zero_off2, View.ld_unit_zero (S := S256x1) zero_off2,
    View.readCov_unit_zero (S := S256x64) _ zero_off2, View.readCov_unit_zero (S := S256x1) _ zero_off2]

/-! ## The staging buffers and the invariant at a point -/

/-- An input window's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- The scoped rest the launch hands the region, split at the region's own two scratch buffers: each at some contents,
    beside the other scoped buffers unopened and the generator register. -/
theorem PhiA2_eq (c : Dev nD) :
    (Pipeline.ΦA spec2 c : sProp 𝕄)
      = iprop((((∃ d, owns (c : Thread nD τ) scM2_0 fullShare d) ∗ (∃ d, owns (c : Thread nD τ) scM2_1 fullShare d)) ∗ others2 (F := F) c) ∗ (∃ r, prngReg c r)) := by
  unfold Pipeline.ΦA
  rw [Pipeline.scopedRest_split_of_list spec2 c [cc2_scratch0, cc2_scratch1] (by decide) (by decide)]
  simp only [scM2_0, scM2_1, owns_whole]; try rfl

theorem PhiS2_zero (c : Dev nD) (n : ℕ) (h : n ≤ cfg2.N) (hz : n = 0) : PhiS2 V c n h = Pipeline.ΦA spec2 c := by
  subst hz; rfl

/-- After point `n`: the scratch buffers at that point's contents. -/
theorem PhiS2_succ (c : Dev nD) (n : ℕ) (hn : n < cfg2.N) :
    PhiS2 V c (n + 1) hn = iprop(owns (c : Thread nD τ) scM2_0 fullShare ((scAt2 V c n hn).1) ∗ owns (c : Thread nD τ) scM2_1 fullShare ((scAt2 V c n hn).2)
      ∗ others2 (F := F) c ∗ (∃ r, prngReg c r)) := rfl

/-- Before a point that is not the first: the scratch buffers at what the point before left. -/
theorem PhiS2_pos (c : Dev nD) (n : ℕ) (h : n ≤ cfg2.N) (hz : n ≠ 0) :
    PhiS2 V c n h = iprop(owns (c : Thread nD τ) scM2_0 fullShare ((scAt2 V c (n - 1) (by omega)).1)
      ∗ owns (c : Thread nD τ) scM2_1 fullShare ((scAt2 V c (n - 1) (by omega)).2) ∗ others2 (F := F) c ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- The scratch contents after the first point, -/
theorem scAt2_first (c : Dev nD) (t : Fin cfg2.N) (h : t.val = 0) :
    scAt2 V c t.val t.isLt = (k2_pay4 (iblk2 V c 1 t) (iblk2 V c 0 t) (k2_pay1 (F := F)), k2_pay5 (iblk2 V c 1 t) (k2_pay2 (F := F))) := by
  obtain ⟨n, hn⟩ := t
  cases n with
  | zero => rfl
  | succ n => exact absurd h (Nat.succ_ne_zero n)

/-- and after a later one, over what the point before left. -/
theorem scAt2_pos (c : Dev nD) (t : Fin cfg2.N) (h : t.val ≠ 0) :
    scAt2 V c t.val t.isLt = (k2_pay4 (iblk2 V c 1 t) (iblk2 V c 0 t) (scAt2 V c (t.val - 1) (Nat.lt_of_le_of_lt (Nat.sub_le _ _) t.isLt)).1,
      k2_pay5 (iblk2 V c 1 t) (scAt2 V c (t.val - 1) (Nat.lt_of_le_of_lt (Nat.sub_le _ _) t.isLt)).2) := by
  obtain ⟨n, hn⟩ := t
  cases n with
  | zero => exact absurd rfl h
  | succ n => rfl

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' staging buffers hold their blocks; the position decides the case (first, middle,
    last); the invariant hands the body the scratch buffers (at anything before the first point, at what the point before
    left afterwards) and takes them back at this point's contents; at every point but the last the output window is idle
    and goes back as it came, at the last it holds the quotient. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 20 := lt_of_lt_of_eq t.isLt (show cfg2.N = 20 from N_2)
  by_cases h1 : t.val = 19
  · have h0 : t.val ≠ 0 := by omega
    rw [show (dat2 V c).leavesExact 2 t = owns (c : Thread nD τ) (st2_2 t) fullShare ((dat2 V c).after 2 t) from by
      unfold Dat.leavesExact; rw [liveAt2_2 t ((hcond2_1 t).mpr h1)], after2_2]
    unfold out2_2
    rw [scAt2_pos V c t h0]; dsimp only
    rw [PhiS2_castSucc V c t, PhiS2_pos V c _ _ h0]
    iintro ⟨⟨HS0, HS1, HR, Hg⟩, Ho, ⟨%d0, H0⟩, ⟨%d1, H1⟩, ⟨%d2, H2⟩⟩
    iapply (sound_kernel2_C c Set.univ (grid2.coords t) _ _ _ _ _ _ _ _ _ _ (fun h => h0 ((hcond2_0 t).mp h)) ((hcond2_1 t).mpr h1)
      (iblk2 V c 0 t) (iblk2 V c 1 t) _ _ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    iexact H2
  · have hn1 : ¬cond2_1 (grid2.coords t) := fun h => h1 ((hcond2_1 t).mp h)
    rw [Dat.leavesExact_idle (dat2 V c) 2 t (idleAt2_2 t hn1) (noFlush2_2 t hn1)]
    by_cases h0 : t.val = 0
    · rw [scAt2_first V c t h0]; dsimp only
      rw [PhiS2_castSucc V c t, PhiS2_zero V c _ _ h0, PhiA2_eq]
      iintro ⟨⟨⟨⟨HS0, HS1⟩, HR⟩, Hg⟩, Ho, ⟨%d0, H0⟩, ⟨%d1, H1⟩, ⟨%d2, H2⟩⟩
      iapply (sound_kernel2_A c Set.univ (grid2.coords t) _ _ _ _ _ _ _ _ _ _ ((hcond2_0 t).mpr h0) hn1
        (iblk2 V c 0 t) (iblk2 V c 1 t) _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexists _; iexact H2
    · rw [scAt2_pos V c t h0]; dsimp only
      rw [PhiS2_castSucc V c t, PhiS2_pos V c _ _ h0]
      iintro ⟨⟨HS0, HS1, HR, Hg⟩, Ho, ⟨%d0, H0⟩, ⟨%d1, H1⟩, ⟨%d2, H2⟩⟩
      iapply (sound_kernel2_B c Set.univ (grid2.coords t) _ _ _ _ _ _ _ _ _ _ (fun h => h0 ((hcond2_0 t).mp h)) hn1
        (iblk2 V c 0 t) (iblk2 V c 1 t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back, the scratch contents forgotten. -/
theorem hout2 (c : Dev nD) : (dat2 V c).Φ (Fin.last cfg2.N) ⊢ Pipeline.ΦA spec2 c := by
  have ht : (Fin.last cfg2.N).val ≠ 0 := by rw [Fin.val_last]; have : cfg2.N = 20 := N_2; omega
  rw [show (dat2 V c).Φ (Fin.last cfg2.N) = PhiS2 V c (Fin.last cfg2.N).val (Nat.le_of_lt_succ (Fin.last cfg2.N).isLt) from rfl,
    PhiS2_pos V c _ _ ht, PhiA2_eq]
  iintro ⟨HS0, HS1, HR, Hg⟩
  isplitr [Hg]
  · isplitr [HR]
    · isplitl [HS0]
      · iexists _; iexact HS0
      iexists _; iexact HS1
    iexact HR
  iexact Hg

end Cert.KernelIdeal.Hand

end
-- ==== Proof.KI_Run.lean ====
/-
  The whole run of @main: three host stretches and three kernel regions in turn. The buffer contents at each boundary
  are a fold from the launch memory — a host stretch applies its operations, a region replaces its arrays by what its
  write-backs leave —, every pipeline's proof data is taken at its region's entry contents, and the launch composes the
  six segments. Every weakly fair execution terminates with each unscoped buffer at the last boundary's contents; an
  argument array walks back through the fold to its launch contents, since no stretch and no region writes one.
-/
import proofs.«406771_j46110768890112_1_alg».proof.Proof.KI_Reg0
import proofs.«406771_j46110768890112_1_alg».proof.Proof.KI_Reg1
import proofs.«406771_j46110768890112_1_alg».proof.Proof.KI_Reg2
import proofs.«406771_j46110768890112_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m (c, b)
/-- After the first host stretch (region 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b

/-- At region 0's exit: its arrays at what its write-backs leave, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second host stretch (region 1's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b

/-- At region 1's exit: its arrays at what its write-backs leave, every other buffer as entered. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- The same read at the TensorCore's references. -/
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- After the third host stretch (region 2's entry). -/
abbrev B5 : Dev nD → Valuation τ sig (Elt F) := fun c => StableHlo.after hostOps2 (B4 m c)
abbrev E5 : (c : Dev nD) → (b : Ref sig .tc) → Buf (Elt F) ((c : Thread nD τ).loc b) := fun c b => B5 m c b

/-- At region 2's exit: its arrays at what its write-backs leave, every other buffer as entered. -/
def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
/-- The same read at the TensorCore's references. -/
abbrev E6 : (c : Dev nD) → (b : Ref sig .tc) → Buf (Elt F) ((c : Thread nD τ).loc b) := fun c b => B6 m c b
theorem hF2 (c : Dev nD) (w : Fin cfg2.W) : (dat2 (E5 m) c).arrAt w cfg2.N = E6 m c (Pipeline.arrRef spec2 w) :=
  (B6_arr m c w).symm
theorem hrest2 (c : Dev nD) : ∀ b, b ∉ Finset.univ.image (Pipeline.arrRef spec2) → E6 m c b = E5 m c b :=
  fun b hb => B6_of_ne m c b fun w e => hb (Finset.mem_image.mpr ⟨w, Finset.mem_univ _, e⟩)

/-- An array the region only reads (an input window's), or no array of the region at all, leaves the region as it entered. -/
theorem B2_keep (c : Dev nD) (r : Ref sig .tc) (h : ∀ w, Pipeline.arrRef spec0 w = r → (cfg0.win w).isOut = false) :
    B2 m c (Proc.devRef .tc r) = B1 m c (Proc.devRef .tc r) := by
  by_cases hw : ∃ w, Pipeline.arrRef spec0 w = r
  · obtain ⟨w, rfl⟩ := hw
    rw [B2_arr]
    exact ((dat0 (E1 m) c).arrAt_in w (h w rfl) _).trans (A_eq0 (E1 m) c w)
  · exact B2_of_ne m c r (fun w e => hw ⟨w, e⟩)

/-- An array the region only reads (an input window's), or no array of the region at all, leaves the region as it entered. -/
theorem B4_keep (c : Dev nD) (r : Ref sig .tc) (h : ∀ w, Pipeline.arrRef spec1 w = r → (cfg1.win w).isOut = false) :
    B4 m c (Proc.devRef .tc r) = B3 m c (Proc.devRef .tc r) := by
  by_cases hw : ∃ w, Pipeline.arrRef spec1 w = r
  · obtain ⟨w, rfl⟩ := hw
    rw [B4_arr]
    exact ((dat1 (E3 m) c).arrAt_in w (h w rfl) _).trans (A_eq1 (E3 m) c w)
  · exact B4_of_ne m c r (fun w e => hw ⟨w, e⟩)

/-- An array the region only reads (an input window's), or no array of the region at all, leaves the region as it entered. -/
theorem B6_keep (c : Dev nD) (r : Ref sig .tc) (h : ∀ w, Pipeline.arrRef spec2 w = r → (cfg2.win w).isOut = false) :
    B6 m c (Proc.devRef .tc r) = B5 m c (Proc.devRef .tc r) := by
  by_cases hw : ∃ w, Pipeline.arrRef spec2 w = r
  · obtain ⟨w, rfl⟩ := hw
    rw [B6_arr]
    exact ((dat2 (E5 m) c).arrAt_in w (h w rfl) _).trans (A_eq2 (E5 m) c w)
  · exact B6_of_ne m c r (fun w e => hw ⟨w, e⟩)

/-! ## A buffer no stretch and no region writes ends as launched -/

theorem B6_of_unwritten (c : Dev nD) (r : Ref sig .tc) (h0 : r ∉ hostOps0_W) (h1 : r ∉ hostOps1_W) (h2 : r ∉ hostOps2_W)
    (ha0 : ∀ w, Pipeline.arrRef spec0 w = r → (cfg0.win w).isOut = false) (ha1 : ∀ w, Pipeline.arrRef spec1 w = r → (cfg1.win w).isOut = false)
    (ha2 : ∀ w, Pipeline.arrRef spec2 w = r → (cfg2.win w).isOut = false) :
    B6 m c (Proc.devRef .tc r) = m ((c : Thread nD τ).loc r) :=
  calc B6 m c (Proc.devRef .tc r)
    _ = B5 m c (Proc.devRef .tc r) := B6_keep m c r ha2
    _ = B4 m c (Proc.devRef .tc r) := StableHlo.after_of_writes_sub hostOps2 _ hostOps2_writes h2
    _ = B3 m c (Proc.devRef .tc r) := B4_keep m c r ha1
    _ = B2 m c (Proc.devRef .tc r) := StableHlo.after_of_writes_sub hostOps1 _ hostOps1_writes h1
    _ = B1 m c (Proc.devRef .tc r) := B2_keep m c r ha0
    _ = B0 m c (Proc.devRef .tc r) := StableHlo.after_of_writes_sub hostOps0 _ hostOps0_writes h0
    _ = m ((c : Thread nD τ).loc r) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (B6 m c) ∗ ∃ r, prngReg c r)

/-! ## The regions as segments -/

set_option backward.isDefEq.respectTransparency.types false in
/-- Region 0 over the thread state: entered from every unscoped buffer at `B1`, left at `B2`. Its arrays are split
    out of the unscoped buffers and put back at their exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. Its arrays are split
    out of the unscoped buffers and put back at their exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. Its arrays are split
    out of the unscoped buffers and put back at their exit contents; the generator register goes into the region's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E5 m) c)
    unfold Pipeline.ΦA
    iintro ⟨Hp, -, Hr⟩
    isplitl [Hr]; · iexact Hr
    iexact Hp
  hout c := by
    rw [Pipeline.ownSems0_none]
    refine BIBase.Entails.trans (hout2 (E5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (B6_of_unwritten m c main_arg0 (by decide) (by decide) (by decide) (by decide) (by decide) (by decide)),
     (h c _ (mem_uc main_arg1 (by decide))).trans (B6_of_unwritten m c main_arg1 (by decide) (by decide) (by decide) (by decide) (by decide) (by decide)),
     (h c _ (mem_uc main_arg2 (by decide))).trans (B6_of_unwritten m c main_arg2 (by decide) (by decide) (by decide) (by decide) (by decide) (by decide)),
     (h c _ (mem_uc main_arg3 (by decide))).trans (B6_of_unwritten m c main_arg3 (by decide) (by decide) (by decide) (by decide) (by decide) (by decide)),
     (h c _ (mem_uc main_arg4 (by decide))).trans (B6_of_unwritten m c main_arg4 (by decide) (by decide) (by decide) (by decide) (by decide) (by decide)),
     (h c _ (mem_uc main_arg5 (by decide))).trans (B6_of_unwritten m c main_arg5 (by decide) (by decide) (by decide) (by decide) (by decide) (by decide)),
     (h c _ (mem_uc main_arg6 (by decide))).trans (B6_of_unwritten m c main_arg6 (by decide) (by decide) (by decide) (by decide) (by decide) (by decide)),
     (h c _ (mem_uc main_arg7 (by decide))).trans (B6_of_unwritten m c main_arg7 (by decide) (by decide) (by decide) (by decide) (by decide) (by decide)),
     (h c _ (mem_uc main_arg8 (by decide))).trans (B6_of_unwritten m c main_arg8 (by decide) (by decide) (by decide) (by decide) (by decide) (by decide))⟩)
    (run_all m ρ)

end Cert.KernelIdeal.Hand

end
-- ==== Proof.Spec.lean ====
/-
  The mathematics of the claim, stated once over plain index functions into the extended reals.

  A node's new feature row is  (∑ₖ agg[n,k]·W_rel[k,f] + ∑ₖ x[n,k]·W_root[k,f]) + b[f]  (one GraphConv layer, `lin`), the first
  layer followed by max(·, 0); a graph's pooled row is the sum of the rows of the nodes whose graph id is that graph,
  divided by max(count, 1), followed by max(·, 0) (`poolAt`). The neighbourhood aggregation (gather along the edges'
  sources, scatter-add at their destinations) is the same host computation in both programs and enters as a parameter.
-/
import Idealize.ShloMosaic.PureOps.Ideal
import Idealize.ShloMosaic.Lib.ValueIdx

noncomputable section

namespace Cert.Spec

open Idealize.ShloMosaic Idealize.ShloMosaic.ValueIdx

/-- The index type of an `a × b` array. -/
abbrev I2 (a b : Nat) : Type := (⟨2, ![a, b]⟩ : Shape).Idx
/-- The index type of a length-`a` array. -/
abbrev I1 (a : Nat) : Type := (⟨1, ![a]⟩ : Shape).Idx

/-- One GraphConv layer at node `n`, feature `f`: the aggregated row through `wrel` plus the node's own row through
    `wroot`, plus the bias. -/
def linAt {K : Nat} (agg x : I2 100000 K → EReal) (wrel wroot : I2 K 64 → EReal) (b : I1 64 → EReal)
    (n : Fin 100000) (f : Fin 64) : EReal :=
  ((∑ k : Fin K, agg (ix2 n k) * wrel (ix2 k f)) + ∑ k : Fin K, x (ix2 n k) * wroot (ix2 k f)) + b (ix1 f)

/-- The layer as an array. -/
def lin {K : Nat} (agg x : I2 100000 K → EReal) (wrel wroot : I2 K 64 → EReal) (b : I1 64 → EReal) :
    I2 100000 64 → EReal :=
  fun i => linAt agg x wrel wroot b (i 0) (i 1)

/-- The layer followed by max(·, 0). -/
def linRelu {K : Nat} (agg x : I2 100000 K → EReal) (wrel wroot : I2 K 64 → EReal) (b : I1 64 → EReal) :
    I2 100000 64 → EReal :=
  fun i => max (linAt agg x wrel wroot b (i 0) (i 1)) 0

/-- The sum of feature `f` over the nodes of graph `g`. -/
def segSum (h : I2 100000 64 → EReal) (batch : I1 100000 → BitVec 32) (g : Fin 256) (f : Fin 64) : EReal :=
  ∑ n : Fin 100000, if batch (ix1 n) = BitVec.ofNat 32 g.val then h (ix2 n f) else 0

/-- The number of nodes of graph `g`. -/
def segCount (batch : I1 100000 → BitVec 32) (g : Fin 256) : EReal :=
  ∑ n : Fin 100000, if batch (ix1 n) = BitVec.ofNat 32 g.val then (1 : EReal) else 0

/-- The pooled, rectified mean of graph `g` at feature `f`. -/
def poolAt (h : I2 100000 64 → EReal) (batch : I1 100000 → BitVec 32) (g : Fin 256) (f : Fin 64) : EReal :=
  max (Ideal.div (segSum h batch g f) (max (segCount batch g) 1)) 0

/-- The pooled array. -/
def pool (h : I2 100000 64 → EReal) (batch : I1 100000 → BitVec 32) : I2 256 64 → EReal :=
  fun i => poolAt h batch (i 0) (i 1)

/-- The whole network: two layers over neighbourhood aggregations `aggA`, `aggB` (parameters), then the pooling. -/
def result (aggA : (I2 100000 38 → EReal) → I2 100000 38 → EReal) (aggB : (I2 100000 64 → EReal) → I2 100000 64 → EReal)
    (x : I2 100000 38 → EReal) (w1rel : I2 38 64 → EReal) (b1 : I1 64 → EReal) (w1root : I2 38 64 → EReal)
    (w2rel : I2 64 64 → EReal) (b2 : I1 64 → EReal) (w2root : I2 64 64 → EReal) (batch : I1 100000 → BitVec 32) :
    I2 256 64 → EReal :=
  pool (lin (aggB (linRelu (aggA x) x w1rel w1root b1)) (linRelu (aggA x) x w1rel w1root b1) w2rel w2root b2) batch

end Cert.Spec

end
-- ==== Proof.KI_Val0.lean ====
/-
  What the first GraphConv layer's region leaves in its output array at the ideal instance: every 5000-row tile written
  back is the rectified layer (`Spec.linRelu`) restricted to the tile — the body's two matrix products over a tile's
  rows are the layer's two sums at those rows, the bias row broadcasts along the rows — and the twenty tiles cover the
  array.
-/
import proofs.«406771_j46110768890112_1_alg».proof.Proof.KI_Reg0
import proofs.«406771_j46110768890112_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The body's arithmetic at one element of the tile -/

/-- The zero offsets of a whole-buffer rectangle. -/
theorem hz0 : (![0, 0] : Fin 2 → Nat) = fun _ => 0 := funext fun a => by fin_cases a <;> rfl

/-- The product's left operand is read at the output's row … -/
theorem lhs_mm0_0 (i : S5000x64.Idx) (q : dot_S5000x38_S38x64_S5000x64_1_0_0_1_n_n.contr.Idx) :
    (dot_S5000x38_S38x64_S5000x64_1_0_0_1_n_n.lhsIdx i q 0).val = (i 0).val := by
  unfold DotDims.lhsIdx
  rw [dif_neg (show ¬(0 : Fin S5000x38.rank) ∈ dot_S5000x38_S38x64_S5000x64_1_0_0_1_n_n.lhsBatch by decide), dif_pos (show (0 : Fin S5000x38.rank) ∈ dot_S5000x38_S38x64_S5000x64_1_0_0_1_n_n.lhsNonContracting by decide)]
  rfl
/-- … and the contracted position; -/
theorem lhs_mm0_1 (i : S5000x64.Idx) (q : dot_S5000x38_S38x64_S5000x64_1_0_0_1_n_n.contr.Idx) :
    (dot_S5000x38_S38x64_S5000x64_1_0_0_1_n_n.lhsIdx i q 1).val = (q ⟨0, by decide⟩).val :=
  dot_S5000x38_S38x64_S5000x64_1_0_0_1_n_n.lhsIdx_val_of_single rfl i q
/-- the right operand at the contracted position … -/
theorem rhs_mm0_0 (i : S5000x64.Idx) (q : dot_S5000x38_S38x64_S5000x64_1_0_0_1_n_n.contr.Idx) :
    (dot_S5000x38_S38x64_S5000x64_1_0_0_1_n_n.rhsIdx i q 0).val = (q ⟨0, by decide⟩).val :=
  dot_S5000x38_S38x64_S5000x64_1_0_0_1_n_n.rhsIdx_val_of_single rfl i q
/-- … and the output's column. -/
theorem rhs_mm0_1 (i : S5000x64.Idx) (q : dot_S5000x38_S38x64_S5000x64_1_0_0_1_n_n.contr.Idx) :
    (dot_S5000x38_S38x64_S5000x64_1_0_0_1_n_n.rhsIdx i q 1).val = (i 1).val := by
  unfold DotDims.rhsIdx
  rw [dif_neg (show ¬(1 : Fin S38x64.rank) ∈ dot_S5000x38_S38x64_S5000x64_1_0_0_1_n_n.rhsBatch by decide), dif_pos (show (1 : Fin S38x64.rank) ∈ dot_S5000x38_S38x64_S5000x64_1_0_0_1_n_n.rhsNonContracting by decide)]
  rfl

/-- A tile's product into the zero accumulator, at row `p` and column `q`: the sum over the 38 features of the
    row's entries times the column's. -/
theorem mm0_apply (a : FVec Ideal S5000x38 .bf16) (w : FVec Ideal S38x64 .bf16) (p : Fin 5000) (q : Fin 64) :
    matmul (F := Ideal) dot_S5000x38_S38x64_S5000x64_1_0_0_1_n_n none a w (constant (F := Ideal) S5000x64 .f32 0x00000000#32) (ix2 p q)
      = ∑ k : Fin 38, a (ix2 p k) * w (ix2 k q) := by
  refine (Ideal.matmul_constant_zero_apply dot_S5000x38_S38x64_S5000x64_1_0_0_1_n_n none a w (ix2 p q)).trans ?_
  rw [← Equiv.sum_comp (contrEquiv1 dot_S5000x38_S38x64_S5000x64_1_0_0_1_n_n 38 rfl rfl).symm]
  refine Finset.sum_congr rfl fun k _ => ?_
  have hk := contrEquiv1_symm_val dot_S5000x38_S38x64_S5000x64_1_0_0_1_n_n 38 rfl rfl k
  have el : dot_S5000x38_S38x64_S5000x64_1_0_0_1_n_n.lhsIdx (ix2 p q) ((contrEquiv1 dot_S5000x38_S38x64_S5000x64_1_0_0_1_n_n 38 rfl rfl).symm k) = ix2 p k := funext fun a => Fin.ext (by
    match a with
    | ⟨0, _⟩ => exact lhs_mm0_0 _ _
    | ⟨1, _⟩ => exact (lhs_mm0_1 _ _).trans hk)
  have er : dot_S5000x38_S38x64_S5000x64_1_0_0_1_n_n.rhsIdx (ix2 p q) ((contrEquiv1 dot_S5000x38_S38x64_S5000x64_1_0_0_1_n_n 38 rfl rfl).symm k) = ix2 k q := funext fun a => Fin.ext (by
    match a with
    | ⟨0, _⟩ => exact (rhs_mm0_0 _ _).trans hk
    | ⟨1, _⟩ => exact rhs_mm0_1 _ _)
  rw [el, er]

/-- The bias row broadcast down the tile's rows reads the row's entry of the column. -/
theorem bias0_apply (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => by
    match a with
    | ⟨0, _⟩ => rfl
    | ⟨1, _⟩ => rfl)

/-- THE BODY AT AN ELEMENT: the two products' sums, the bias, and the maximum with zero. -/
theorem pay0_apply (x0 x1 : Vec Ideal S5000x38 .f32) (x2 x4 : Vec Ideal S38x64 .f32) (x3 : Vec Ideal S1x64 .f32)
    (p : Fin 5000) (q : Fin 64) :
    k0_pay1 (F := Ideal) x0 x1 x2 x4 x3 (ix2 p q)
      = max (((∑ k : Fin 38, x0 (ix2 p k) * x2 (ix2 k q)) + ∑ k : Fin 38, x1 (ix2 p k) * x4 (ix2 k q)) + x3 (ix2 (0 : Fin 1) q)) 0 := by
  unfold k0_pay1
  show max ((matmul (F := Ideal) dot_S5000x38_S38x64_S5000x64_1_0_0_1_n_n none (truncf .bf16 (shapeCast S5000x38 x0 shapeCasts_S5000x38_S5000x38) bitsLt_bf16_f32) (truncf .bf16 x2 bitsLt_bf16_f32) (constant (F := Ideal) S5000x64 .f32 0x00000000#32) (ix2 p q)
      + matmul (F := Ideal) dot_S5000x38_S38x64_S5000x64_1_0_0_1_n_n none (truncf .bf16 x1 bitsLt_bf16_f32) (truncf .bf16 x4 bitsLt_bf16_f32) (constant (F := Ideal) S5000x64 .f32 0x00000000#32) (ix2 p q))
      + broadcastTo S5000x64 (shapeCast S1x64 x3 shapeCasts_S1x64_S1x64) broadcasts_S1x64_S5000x64 (ix2 p q)) (Ideal.ofBits .f32 0x00000000#32) = _
  rw [shapeCast_self x0, shapeCast_self x3, mm0_apply, mm0_apply, bias0_apply, Ideal.ofBits_zero_f32]
  rfl

/-! ## The tile a point writes back -/

/-- The printed index maps over the twenty points: the two row-tiled inputs and the output sit at block row `t`,
    column 0; the weights and the bias at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The body's element with each tile entry named as the array entry it is: the rectified layer at the array's row. -/
theorem tile0_eq (a0 a1 : Vec Ideal S5000x38 .f32) (w2 w4 : Vec Ideal S38x64 .f32) (b3 : Vec Ideal S1x64 .f32)
    (agg x : Cert.Spec.I2 100000 38 → EReal) (wrel wroot : Cert.Spec.I2 38 64 → EReal) (b : Cert.Spec.I2 1 64 → EReal)
    (p : Fin 5000) (q : Fin 64) (n : Fin 100000)
    (h0 : ∀ k, a0 (ix2 p k) = agg (ix2 n k)) (h1 : ∀ k, a1 (ix2 p k) = x (ix2 n k))
    (h2 : ∀ k, w2 (ix2 k q) = wrel (ix2 k q)) (h4 : ∀ k, w4 (ix2 k q) = wroot (ix2 k q))
    (h3 : b3 (ix2 (0 : Fin 1) q) = b (ix2 (0 : Fin 1) q)) :
    k0_pay1 (F := Ideal) a0 a1 w2 w4 b3 (ix2 p q)
      = Cert.Spec.linRelu agg x wrel wroot (fun j => b (ix2 (0 : Fin 1) (j 0))) (ix2 n q) := by
  rw [pay0_apply]
  show max _ 0 = max (((∑ k : Fin 38, agg (ix2 n k) * wrel (ix2 k q)) + ∑ k : Fin 38, x (ix2 n k) * wroot (ix2 k q)) + b (ix2 (0 : Fin 1) q)) 0
  simp only [h0, h1, h2, h4, h3]

variable (V : (c : Dev nD) → (b : Ref sig .tc) → Buf (Elt Ideal) ((c : Thread nD τ).loc b))

/-- The aggregated rows' tile at point `t` is rows `5000 t … 5000 t + 4999` of their array; -/
theorem iblk0_0_apply (c : Dev nD) (t : Fin cfg0.N) (p : Fin 5000) (k : Fin 38) (n : Fin 100000) (hn : n.val = t.val * 5000 + p.val) :
    (iblk0 V c 0 t : Vec Ideal S5000x38 .f32) (ix2 p k) = (V c main_v13 : Cert.Spec.I2 100000 38 → EReal) (ix2 n k) := by
  obtain ⟨e0, e1, -⟩ := idx_facts0 t
  unfold iblk0
  rw [View.read_apply]
  show V c main_v13 (((cfg0.win 0).blk t).view.emb (ix2 p k)) = V c main_v13 (ix2 n k)
  refine congrArg (V c main_v13) (funext fun a => Fin.ext ?_)
  match a with
  | ⟨0, _⟩ => show win0_0.index t (0 : Fin 2) * 5000 + 1 * p.val = n.val; rw [e0, hn]; omega
  | ⟨1, _⟩ => show win0_0.index t (1 : Fin 2) * 38 + 1 * k.val = k.val; rw [e1]; omega

/-- the node rows' tile likewise. -/
theorem iblk0_1_apply (c : Dev nD) (t : Fin cfg0.N) (p : Fin 5000) (k : Fin 38) (n : Fin 100000) (hn : n.val = t.val * 5000 + p.val) :
    (iblk0 V c 1 t : Vec Ideal S5000x38 .f32) (ix2 p k) = (V c main_arg0 : Cert.Spec.I2 100000 38 → EReal) (ix2 n k) := by
  obtain ⟨-, -, e0, e1, -⟩ := idx_facts0 t
  unfold iblk0
  rw [View.read_apply]
  show V c main_arg0 (((cfg0.win 1).blk t).view.emb (ix2 p k)) = V c main_arg0 (ix2 n k)
  refine congrArg (V c main_arg0) (funext fun a => Fin.ext ?_)
  match a with
  | ⟨0, _⟩ => show win0_1.index t (0 : Fin 2) * 5000 + 1 * p.val = n.val; rw [e0, hn]; omega
  | ⟨1, _⟩ => show win0_1.index t (1 : Fin 2) * 38 + 1 * k.val = k.val; rw [e1]; omega

/-- The first weight matrix is staged whole at every point; -/
theorem iblk0_2_apply (c : Dev nD) (t : Fin cfg0.N) (k : Fin 38) (q : Fin 64) :
    (iblk0 V c 2 t : Vec Ideal S38x64 .f32) (ix2 k q) = (V c main_arg3 : Cert.Spec.I2 38 64 → EReal) (ix2 k q) := by
  obtain ⟨-, -, -, -, e0, e1, -⟩ := idx_facts0 t
  unfold iblk0
  rw [View.read_apply]
  show V c main_arg3 (((cfg0.win 2).blk t).view.emb (ix2 k q)) = V c main_arg3 (ix2 k q)
  refine congrArg (V c main_arg3) (funext fun a => Fin.ext ?_)
  match a with
  | ⟨0, _⟩ => show win0_2.index t (0 : Fin 2) * 38 + 1 * k.val = k.val; rw [e0]; omega
  | ⟨1, _⟩ => show win0_2.index t (1 : Fin 2) * 64 + 1 * q.val = q.val; rw [e1]; omega

/-- the bias row; -/
theorem iblk0_3_apply (c : Dev nD) (t : Fin cfg0.N) (k : Fin 1) (q : Fin 64) :
    (iblk0 V c 3 t : Vec Ideal S1x64 .f32) (ix2 k q) = (V c main_v14 : Cert.Spec.I2 1 64 → EReal) (ix2 k q) := by
  obtain ⟨-, -, -, -, -, -, e0, e1, -⟩ := idx_facts0 t
  unfold iblk0
  rw [View.read_apply]
  show V c main_v14 (((cfg0.win 3).blk t).view.emb (ix2 k q)) = V c main_v14 (ix2 k q)
  refine congrArg (V c main_v14) (funext fun a => Fin.ext ?_)
  match a with
  | ⟨0, _⟩ => show win0_3.index t (0 : Fin 2) * 1 + 1 * k.val = k.val; rw [e0]; omega
  | ⟨1, _⟩ => show win0_3.index t (1 : Fin 2) * 64 + 1 * q.val = q.val; rw [e1]; omega

/-- the second weight matrix. -/
theorem iblk0_4_apply (c : Dev nD) (t : Fin cfg0.N) (k : Fin 38) (q : Fin 64) :
    (iblk0 V c 4 t : Vec Ideal S38x64 .f32) (ix2 k q) = (V c main_arg5 : Cert.Spec.I2 38 64 → EReal) (ix2 k q) := by
  obtain ⟨-, -, -, -, -, -, -, -, e0, e1, -⟩ := idx_facts0 t
  unfold iblk0
  rw [View.read_apply]
  show V c main_arg5 (((cfg0.win 4).blk t).view.emb (ix2 k q)) = V c main_arg5 (ix2 k q)
  refine congrArg (V c main_arg5) (funext fun a => Fin.ext ?_)
  match a with
  | ⟨0, _⟩ => show win0_4.index t (0 : Fin 2) * 38 + 1 * k.val = k.val; rw [e0]; omega
  | ⟨1, _⟩ => show win0_4.index t (1 : Fin 2) * 64 + 1 * q.val = q.val; rw [e1]; omega

/-- WHAT POINT `t` WRITES BACK is tile `t` of the rectified layer of the arrays as the region finds them. -/
theorem flushed0_5 (c : Dev nD) (t : Fin cfg0.N) :
    (dat0 (F := Ideal) V c).flushed 5 t = ((cfg0.win 5).blk t).view.read (Elt Ideal) (Cert.Spec.linRelu (V c main_v13) (V c main_arg0) (V c main_arg3) (V c main_arg5) (fun j => V c main_v14 (ix2 (0 : Fin 1) (j 0)))) := by
  show (cfg0.win 5).cut (grid0.coords t) ((dat0 V c).after 5 t) = _
  rw [after0_5]
  unfold out0_5
  rw [View.canon_unit_zero hz0]
  simp only [View.ld_unit_zero (S := S5000x38) hz0, View.ld_unit_zero (S := S38x64) hz0, View.ld_unit_zero (S := S1x64) hz0]
  funext j
  obtain ⟨p, q, rfl⟩ : ∃ (p : Fin 5000) (q : Fin 64), j = ix2 p q := ⟨j 0, j 1, eq_ix2 j⟩
  have ht : t.val < 20 := t.isLt
  have hemb : ((cfg0.win 5).blk t).view.emb (ix2 p q) = ix2 (⟨t.val * 5000 + p.val, by have := p.isLt; omega⟩ : Fin 100000) q := by
    obtain ⟨-, -, -, -, -, -, -, -, -, -, e0, e1⟩ := idx_facts0 t
    funext a; apply Fin.ext
    match a with
    | ⟨0, _⟩ => show win0_5.index t (0 : Fin 2) * 5000 + 1 * p.val = t.val * 5000 + p.val; rw [e0]; omega
    | ⟨1, _⟩ => show win0_5.index t (1 : Fin 2) * 64 + 1 * q.val = q.val; rw [e1]; omega
  show k0_pay1 (F := Ideal) (iblk0 V c 0 t) (iblk0 V c 1 t) (iblk0 V c 2 t) (iblk0 V c 4 t) (iblk0 V c 3 t) (ix2 p q)
      = Cert.Spec.linRelu (V c main_v13) (V c main_arg0) (V c main_arg3) (V c main_arg5) (fun j => V c main_v14 (ix2 (0 : Fin 1) (j 0))) (((cfg0.win 5).blk t).view.emb (ix2 p q))
  rw [hemb]
  exact tile0_eq (iblk0 V c 0 t) (iblk0 V c 1 t) (iblk0 V c 2 t) (iblk0 V c 4 t) (iblk0 V c 3 t)
    (V c main_v13) (V c main_arg0) (V c main_arg3) (V c main_arg5) (V c main_v14) p q ⟨t.val * 5000 + p.val, by have := p.isLt; omega⟩
    (fun k => iblk0_0_apply V c t p k _ rfl) (fun k => iblk0_1_apply V c t p k _ rfl)
    (fun k => iblk0_2_apply V c t k q) (fun k => iblk0_4_apply V c t k q) (iblk0_3_apply V c t 0 q)

/-! ## The twenty tiles cover the array -/

/-- An index of the array is in point `t`'s tile iff each coordinate is in the tile's range on its axis. -/
theorem mem_blk0_5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v15).slice (win0_5.rect t)).set ↔ _
  rw [View.set_slice_whole, Rect.mem_set_unit]
  exact Iff.rfl

/-- Row `r` of the array is in the tile of point `r / 5000`. -/
theorem covered0_5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hlt : (i 0).val / 5000 < 20 := by omega
  refine ⟨⟨(i 0).val / 5000, hlt⟩, flush0_5 _, ?_⟩
  rw [mem_blk0_5]
  obtain ⟨-, -, -, -, -, -, -, -, -, -, e0, e1⟩ := idx_facts0 ⟨(i 0).val / 5000, hlt⟩
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e1]; omega

/-- The layer's output array after the region's last write-back. -/
theorem arrAt0_5 (c : Dev nD) :
    (dat0 (F := Ideal) V c).arrAt 5 cfg0.N
      = Cert.Spec.linRelu (V c main_v13) (V c main_arg0) (V c main_arg3) (V c main_arg5) (fun j => V c main_v14 (ix2 (0 : Fin 1) (j 0))) :=
  (dat0 (F := Ideal) V c).arrAt_eq_of_cover 5 (Cert.Spec.linRelu (V c main_v13) (V c main_arg0) (V c main_arg3) (V c main_arg5) (fun j => V c main_v14 (ix2 (0 : Fin 1) (j 0)))) (fun t _ => flushed0_5 V c t) covered0_5

end Cert.KernelIdeal.HandValue

end
-- ==== Proof.KI_Val1.lean ====
/-
  What the second GraphConv layer's region leaves in its output array at the ideal instance: every 5000-row tile written
  back is the layer (`Spec.lin`) restricted to the tile — the body's two matrix products over a tile's
  rows are the layer's two sums at those rows, the bias row broadcasts along the rows — and the twenty tiles cover the
  array.
-/
import proofs.«406771_j46110768890112_1_alg».proof.Proof.KI_Reg1
import proofs.«406771_j46110768890112_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The body's arithmetic at one element of the tile -/

/-- The zero offsets of a whole-buffer rectangle. -/
theorem hz1 : (![0, 0] : Fin 2 → Nat) = fun _ => 0 := funext fun a => by fin_cases a <;> rfl

/-- The product's left operand is read at the output's row … -/
theorem lhs_mm1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contracted position; -/
theorem lhs_mm1_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contracted position … -/
theorem rhs_mm1_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and the output's column. -/
theorem rhs_mm1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A tile's product into the zero accumulator, at row `p` and column `q`: the sum over the 64 features of the
    row's entries times the column's. -/
theorem mm1_apply (a : FVec Ideal S5000x64 .bf16) (w : FVec Ideal S64x64 .bf16) (p : Fin 5000) (q : Fin 64) :
    matmul (F := Ideal) dot_S5000x64_S64x64_S5000x64_1_0_0_1_n_n none a w (constant (F := Ideal) S5000x64 .f32 0x00000000#32) (ix2 p q)
      = ∑ k : Fin 64, a (ix2 p k) * w (ix2 k q) := by
  refine (Ideal.matmul_constant_zero_apply dot_S5000x64_S64x64_S5000x64_1_0_0_1_n_n none a w (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_mm1_0 _ _
    | ⟨1, _⟩ => exact (lhs_mm1_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_mm1_0 _ _).trans hk
    | ⟨1, _⟩ => exact rhs_mm1_1 _ _)
  rw [el, er]

/-- The bias row broadcast down the tile's rows reads the row's entry of the column. -/
theorem bias1_apply (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => by
    match a with
    | ⟨0, _⟩ => rfl
    | ⟨1, _⟩ => rfl)

/-- THE BODY AT AN ELEMENT: the two products' sums and the bias. -/
theorem pay1_apply (x0 x1 : Vec Ideal S5000x64 .f32) (x2 x4 : Vec Ideal S64x64 .f32) (x3 : Vec Ideal S1x64 .f32)
    (p : Fin 5000) (q : Fin 64) :
    k1_pay1 (F := Ideal) x0 x1 x2 x4 x3 (ix2 p q)
      = ((∑ k : Fin 64, x0 (ix2 p k) * x2 (ix2 k q)) + ∑ k : Fin 64, x1 (ix2 p k) * x4 (ix2 k q)) + x3 (ix2 (0 : Fin 1) q) := by
  unfold k1_pay1
  show (matmul (F := Ideal) dot_S5000x64_S64x64_S5000x64_1_0_0_1_n_n none (truncf .bf16 (shapeCast S5000x64 x0 shapeCasts_S5000x64_S5000x64) bitsLt_bf16_f32) (truncf .bf16 x2 bitsLt_bf16_f32) (constant (F := Ideal) S5000x64 .f32 0x00000000#32) (ix2 p q)
      + matmul (F := Ideal) dot_S5000x64_S64x64_S5000x64_1_0_0_1_n_n none (truncf .bf16 (shapeCast S5000x64 x1 shapeCasts_S5000x64_S5000x64) bitsLt_bf16_f32) (truncf .bf16 x4 bitsLt_bf16_f32) (constant (F := Ideal) S5000x64 .f32 0x00000000#32) (ix2 p q))
      + broadcastTo S5000x64 (shapeCast S1x64 x3 shapeCasts_S1x64_S1x64) broadcasts_S1x64_S5000x64 (ix2 p q) = _
  rw [shapeCast_self x0, shapeCast_self x1, shapeCast_self x3, mm1_apply, mm1_apply, bias1_apply]
  rfl

/-! ## The tile a point writes back -/

/-- The printed index maps over the twenty points: the two row-tiled inputs and the output sit at block row `t`,
    column 0; the weights and the bias at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's element with each tile entry named as the array entry it is: the layer at the array's row. -/
theorem tile1_eq (a0 a1 : Vec Ideal S5000x64 .f32) (w2 w4 : Vec Ideal S64x64 .f32) (b3 : Vec Ideal S1x64 .f32)
    (agg x : Cert.Spec.I2 100000 64 → EReal) (wrel wroot : Cert.Spec.I2 64 64 → EReal) (b : Cert.Spec.I2 1 64 → EReal)
    (p : Fin 5000) (q : Fin 64) (n : Fin 100000)
    (h0 : ∀ k, a0 (ix2 p k) = agg (ix2 n k)) (h1 : ∀ k, a1 (ix2 p k) = x (ix2 n k))
    (h2 : ∀ k, w2 (ix2 k q) = wrel (ix2 k q)) (h4 : ∀ k, w4 (ix2 k q) = wroot (ix2 k q))
    (h3 : b3 (ix2 (0 : Fin 1) q) = b (ix2 (0 : Fin 1) q)) :
    k1_pay1 (F := Ideal) a0 a1 w2 w4 b3 (ix2 p q)
      = Cert.Spec.lin agg x wrel wroot (fun j => b (ix2 (0 : Fin 1) (j 0))) (ix2 n q) := by
  rw [pay1_apply]
  show _ = ((∑ k : Fin 64, agg (ix2 n k) * wrel (ix2 k q)) + ∑ k : Fin 64, x (ix2 n k) * wroot (ix2 k q)) + b (ix2 (0 : Fin 1) q)
  simp only [h0, h1, h2, h4, h3]

variable (V : (c : Dev nD) → (b : Ref sig .tc) → Buf (Elt Ideal) ((c : Thread nD τ).loc b))

/-- The aggregated rows' tile at point `t` is rows `5000 t … 5000 t + 4999` of their array; -/
theorem iblk1_0_apply (c : Dev nD) (t : Fin cfg1.N) (p : Fin 5000) (k : Fin 64) (n : Fin 100000) (hn : n.val = t.val * 5000 + p.val) :
    (iblk1 V c 0 t : Vec Ideal S5000x64 .f32) (ix2 p k) = (V c main_v25 : Cert.Spec.I2 100000 64 → EReal) (ix2 n k) := by
  obtain ⟨e0, e1, -⟩ := idx_facts1 t
  unfold iblk1
  rw [View.read_apply]
  show V c main_v25 (((cfg1.win 0).blk t).view.emb (ix2 p k)) = V c main_v25 (ix2 n k)
  refine congrArg (V c main_v25) (funext fun a => Fin.ext ?_)
  match a with
  | ⟨0, _⟩ => show win1_0.index t (0 : Fin 2) * 5000 + 1 * p.val = n.val; rw [e0, hn]; omega
  | ⟨1, _⟩ => show win1_0.index t (1 : Fin 2) * 64 + 1 * k.val = k.val; rw [e1]; omega

/-- the first layer's rows' tile likewise. -/
theorem iblk1_1_apply (c : Dev nD) (t : Fin cfg1.N) (p : Fin 5000) (k : Fin 64) (n : Fin 100000) (hn : n.val = t.val * 5000 + p.val) :
    (iblk1 V c 1 t : Vec Ideal S5000x64 .f32) (ix2 p k) = (V c main_v15 : Cert.Spec.I2 100000 64 → EReal) (ix2 n k) := by
  obtain ⟨-, -, e0, e1, -⟩ := idx_facts1 t
  unfold iblk1
  rw [View.read_apply]
  show V c main_v15 (((cfg1.win 1).blk t).view.emb (ix2 p k)) = V c main_v15 (ix2 n k)
  refine congrArg (V c main_v15) (funext fun a => Fin.ext ?_)
  match a with
  | ⟨0, _⟩ => show win1_1.index t (0 : Fin 2) * 5000 + 1 * p.val = n.val; rw [e0, hn]; omega
  | ⟨1, _⟩ => show win1_1.index t (1 : Fin 2) * 64 + 1 * k.val = k.val; rw [e1]; omega

/-- The first weight matrix is staged whole at every point; -/
theorem iblk1_2_apply (c : Dev nD) (t : Fin cfg1.N) (k : Fin 64) (q : Fin 64) :
    (iblk1 V c 2 t : Vec Ideal S64x64 .f32) (ix2 k q) = (V c main_arg6 : Cert.Spec.I2 64 64 → EReal) (ix2 k q) := by
  obtain ⟨-, -, -, -, e0, e1, -⟩ := idx_facts1 t
  unfold iblk1
  rw [View.read_apply]
  show V c main_arg6 (((cfg1.win 2).blk t).view.emb (ix2 k q)) = V c main_arg6 (ix2 k q)
  refine congrArg (V c main_arg6) (funext fun a => Fin.ext ?_)
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- the bias row; -/
theorem iblk1_3_apply (c : Dev nD) (t : Fin cfg1.N) (k : Fin 1) (q : Fin 64) :
    (iblk1 V c 3 t : Vec Ideal S1x64 .f32) (ix2 k q) = (V c main_v26 : Cert.Spec.I2 1 64 → EReal) (ix2 k q) := by
  obtain ⟨-, -, -, -, -, -, e0, e1, -⟩ := idx_facts1 t
  unfold iblk1
  rw [View.read_apply]
  show V c main_v26 (((cfg1.win 3).blk t).view.emb (ix2 k q)) = V c main_v26 (ix2 k q)
  refine congrArg (V c main_v26) (funext fun a => Fin.ext ?_)
  match a with
  | ⟨0, _⟩ => show win1_3.index t (0 : Fin 2) * 1 + 1 * k.val = k.val; rw [e0]; omega
  | ⟨1, _⟩ => show win1_3.index t (1 : Fin 2) * 64 + 1 * q.val = q.val; rw [e1]; omega

/-- the second weight matrix. -/
theorem iblk1_4_apply (c : Dev nD) (t : Fin cfg1.N) (k : Fin 64) (q : Fin 64) :
    (iblk1 V c 4 t : Vec Ideal S64x64 .f32) (ix2 k q) = (V c main_arg8 : Cert.Spec.I2 64 64 → EReal) (ix2 k q) := by
  obtain ⟨-, -, -, -, -, -, -, -, e0, e1, -⟩ := idx_facts1 t
  unfold iblk1
  rw [View.read_apply]
  show V c main_arg8 (((cfg1.win 4).blk t).view.emb (ix2 k q)) = V c main_arg8 (ix2 k q)
  refine congrArg (V c main_arg8) (funext fun a => Fin.ext ?_)
  match a with
  | ⟨0, _⟩ => show win1_4.index t (0 : Fin 2) * 64 + 1 * k.val = k.val; rw [e0]; omega
  | ⟨1, _⟩ => show win1_4.index t (1 : Fin 2) * 64 + 1 * q.val = q.val; rw [e1]; omega

/-- WHAT POINT `t` WRITES BACK is tile `t` of the layer of the arrays as the region finds them. -/
theorem flushed1_5 (c : Dev nD) (t : Fin cfg1.N) :
    (dat1 (F := Ideal) V c).flushed 5 t = ((cfg1.win 5).blk t).view.read (Elt Ideal) (Cert.Spec.lin (V c main_v25) (V c main_v15) (V c main_arg6) (V c main_arg8) (fun j => V c main_v26 (ix2 (0 : Fin 1) (j 0)))) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S64x64) hz1, View.ld_unit_zero (S := S1x64) hz1]
  funext j
  obtain ⟨p, q, rfl⟩ : ∃ (p : Fin 5000) (q : Fin 64), j = ix2 p q := ⟨j 0, j 1, eq_ix2 j⟩
  have ht : t.val < 20 := t.isLt
  have hemb : ((cfg1.win 5).blk t).view.emb (ix2 p q) = ix2 (⟨t.val * 5000 + p.val, by have := p.isLt; omega⟩ : Fin 100000) q := by
    obtain ⟨-, -, -, -, -, -, -, -, -, -, e0, e1⟩ := idx_facts1 t
    funext a; apply Fin.ext
    match a with
    | ⟨0, _⟩ => show win1_5.index t (0 : Fin 2) * 5000 + 1 * p.val = t.val * 5000 + p.val; rw [e0]; omega
    | ⟨1, _⟩ => show win1_5.index t (1 : Fin 2) * 64 + 1 * q.val = q.val; rw [e1]; omega
  show k1_pay1 (F := Ideal) (iblk1 V c 0 t) (iblk1 V c 1 t) (iblk1 V c 2 t) (iblk1 V c 4 t) (iblk1 V c 3 t) (ix2 p q)
      = Cert.Spec.lin (V c main_v25) (V c main_v15) (V c main_arg6) (V c main_arg8) (fun j => V c main_v26 (ix2 (0 : Fin 1) (j 0))) (((cfg1.win 5).blk t).view.emb (ix2 p q))
  rw [hemb]
  exact tile1_eq (iblk1 V c 0 t) (iblk1 V c 1 t) (iblk1 V c 2 t) (iblk1 V c 4 t) (iblk1 V c 3 t)
    (V c main_v25) (V c main_v15) (V c main_arg6) (V c main_arg8) (V c main_v26) p q ⟨t.val * 5000 + p.val, by have := p.isLt; omega⟩
    (fun k => iblk1_0_apply V c t p k _ rfl) (fun k => iblk1_1_apply V c t p k _ rfl)
    (fun k => iblk1_2_apply V c t k q) (fun k => iblk1_4_apply V c t k q) (iblk1_3_apply V c t 0 q)

/-! ## The twenty tiles cover the array -/

/-- An index of the array is in point `t`'s tile iff each coordinate is in the tile's range on its axis. -/
theorem mem_blk1_5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v27).slice (win1_5.rect t)).set ↔ _
  rw [View.set_slice_whole, Rect.mem_set_unit]
  exact Iff.rfl

/-- Row `r` of the array is in the tile of point `r / 5000`. -/
theorem covered1_5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hlt : (i 0).val / 5000 < 20 := by omega
  refine ⟨⟨(i 0).val / 5000, hlt⟩, flush1_5 _, ?_⟩
  rw [mem_blk1_5]
  obtain ⟨-, -, -, -, -, -, -, -, -, -, e0, e1⟩ := idx_facts1 ⟨(i 0).val / 5000, hlt⟩
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    rw [e1]; omega

/-- The layer's output array after the region's last write-back. -/
theorem arrAt1_5 (c : Dev nD) :
    (dat1 (F := Ideal) V c).arrAt 5 cfg1.N
      = Cert.Spec.lin (V c main_v25) (V c main_v15) (V c main_arg6) (V c main_arg8) (fun j => V c main_v26 (ix2 (0 : Fin 1) (j 0))) :=
  (dat1 (F := Ideal) V c).arrAt_eq_of_cover 5 (Cert.Spec.lin (V c main_v25) (V c main_v15) (V c main_arg6) (V c main_arg8) (fun j => V c main_v26 (ix2 (0 : Fin 1) (j 0)))) (fun t _ => flushed1_5 V c t) covered1_5

end Cert.KernelIdeal.HandValue

end
-- ==== Proof.KI_Val2.lean ====
/-
  What the pooling region leaves in its output array at the ideal instance. After point t the sums' scratch holds, at
  (g, f), the sum over the nodes of tiles 0..t whose graph id is g of their feature f (a one-hot entry is 1 or 0, and
  0·x = 0, 1·x = x in the extended reals), and the counts' scratch the number of those nodes; the last point stores the
  quotient by max(count, 1), rectified: `Spec.pool`. Only that point writes the output array back, whole.

  The one-hot matrix of a tile has, at (row r, graph g), the converted bit of "the row's id is the word g". Both products
  contract over the tile's 5000 rows, so the sums' product at (g, f) is the sum over the rows with id g of feature f, and
  the counts' product (against a column of ones) the number of those rows. By induction on the point the two scratch
  buffers hold the sums over the tiles seen so far; node 5000·t + r is row r of tile t, so after the twentieth tile the
  sums run over all 100000 nodes: the segment sum and the segment count. Only commutativity and associativity of the
  addition of extended reals, 0 + x = x, 1·x = x and 0·x = 0 are used: no entry needs to be finite.
-/
import proofs.«406771_j46110768890112_1_alg».proof.Proof.KI_Reg2
import proofs.«406771_j46110768890112_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The one-hot entry -/

/-- The converted, widened bit of a word comparison is 1 where the words are equal and 0 elsewhere. -/
theorem onehot2_word (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  by_cases h : x = y
  · have e : IntOp.cmpi .eq x y = 1#1 := by simp [IntOp.cmpi, h]
    have e1 : ((1#1 : BitVec 1).setWidth 32).toInt = 1 := by decide
    rw [e, if_pos h, e1]; simp
  · have e : IntOp.cmpi .eq x y = 0#1 := by
      show BitVec.ofBool (x == y) = 0#1
      rw [beq_eq_false_iff_ne.mpr h]; rfl
    have e0 : ((0#1 : BitVec 1).setWidth 32).toInt = 0 := by decide
    rw [e, if_neg h, e0]; simp

/-- The ids column broadcast along the graphs reads the row's id. -/
theorem ids2_bcast_apply (b : IVec S5000x1 32) (r : Fin 5000) (g : Fin 256) :
    broadcastTo S5000x256 b broadcasts_S5000x1_S5000x256 (ix2 r g) = b (ix2 r (0 : Fin 1)) := by
  refine broadcastTo_apply b broadcasts_S5000x1_S5000x256 (ix2 r g) (ix2 r (0 : Fin 1)) fun a => ?_
  match a with
  | ⟨0, _⟩ => show r.val = if (5000 : Nat) = 1 then 0 else r.val; rw [if_neg (by decide)]
  | ⟨1, _⟩ => show (0 : Nat) = if (1 : Nat) = 1 then 0 else g.val; rw [if_pos rfl]

/-- The one-hot matrix at (row r, graph g): 1 if the row's id is the word g, else 0. -/
theorem pay2_3_apply (b : Vec Ideal S5000x1 .i32) (r : Fin 5000) (g : Fin 256) :
    k2_pay3 (F := Ideal) b (ix2 r g) = if b (ix2 r (0 : Fin 1)) = BitVec.ofNat 32 g.val then (1 : EReal) else 0 := by
  unfold k2_pay3
  show FloatOps.sitofp (F := Ideal) .f32 ((IntOp.cmpi .eq (broadcastTo S5000x256 (shapeCast S5000x1 b shapeCasts_S5000x1_S5000x1) broadcasts_S5000x1_S5000x256 (ix2 r g)) (iota .tc S5000x256 32 [1] iota_S5000x256_d1_w32 (ix2 r g))).setWidth 32) = _
  rw [onehot2_word, ids2_bcast_apply, shapeCast_self, iota_single_apply]

/-! ## The two products: both contract over the tile's rows -/

/-- The operands' indices of the sums' product at output index i and contraction index q, axis by axis: the one-hot
    matrix is read at (q, i 0), the features at (q, i 1). -/
theorem lhs_mm2s_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem lhs_mm2s_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
theorem rhs_mm2s_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem rhs_mm2s_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

/-- The same for the counts' product: the one-hot matrix at (q, i 0), the ones column at (q, i 1). -/
theorem lhs_mm2c_0 (i : S256x1.Idx) (q : dot_S5000x256_S5000x1_S256x1_0_0_1_1_n_n.contr.Idx) :
    (dot_S5000x256_S5000x1_S256x1_0_0_1_1_n_n.lhsIdx i q 0).val = (q ⟨0, by decide⟩).val :=
  dot_S5000x256_S5000x1_S256x1_0_0_1_1_n_n.lhsIdx_val_of_single rfl i q
theorem lhs_mm2c_1 (i : S256x1.Idx) (q : dot_S5000x256_S5000x1_S256x1_0_0_1_1_n_n.contr.Idx) :
    (dot_S5000x256_S5000x1_S256x1_0_0_1_1_n_n.lhsIdx i q 1).val = (i 0).val := by
  unfold DotDims.lhsIdx
  rw [dif_neg (show ¬(1 : Fin S5000x256.rank) ∈ dot_S5000x256_S5000x1_S256x1_0_0_1_1_n_n.lhsBatch by decide), dif_pos (show (1 : Fin S5000x256.rank) ∈ dot_S5000x256_S5000x1_S256x1_0_0_1_1_n_n.lhsNonContracting by decide)]
  rfl
theorem rhs_mm2c_0 (i : S256x1.Idx) (q : dot_S5000x256_S5000x1_S256x1_0_0_1_1_n_n.contr.Idx) :
    (dot_S5000x256_S5000x1_S256x1_0_0_1_1_n_n.rhsIdx i q 0).val = (q ⟨0, by decide⟩).val :=
  dot_S5000x256_S5000x1_S256x1_0_0_1_1_n_n.rhsIdx_val_of_single rfl i q
theorem rhs_mm2c_1 (i : S256x1.Idx) (q : dot_S5000x256_S5000x1_S256x1_0_0_1_1_n_n.contr.Idx) :
    (dot_S5000x256_S5000x1_S256x1_0_0_1_1_n_n.rhsIdx i q 1).val = (i 1).val := by
  unfold DotDims.rhsIdx
  rw [dif_neg (show ¬(1 : Fin S5000x1.rank) ∈ dot_S5000x256_S5000x1_S256x1_0_0_1_1_n_n.rhsBatch by decide), dif_pos (show (1 : Fin S5000x1.rank) ∈ dot_S5000x256_S5000x1_S256x1_0_0_1_1_n_n.rhsNonContracting by decide)]
  rfl

/-- The sums' product at (graph g, feature f): the one-hot column of g against the feature column f, over the rows. -/
theorem mm2s_apply (oh : FVec Ideal S5000x256 .bf16) (x : FVec Ideal S5000x64 .bf16) (g : Fin 256) (f : Fin 64) :
    matmul (F := Ideal) dot_S5000x256_S5000x64_S256x64_0_0_1_1_n_n none oh x (constant (F := Ideal) S256x64 .f32 0x00000000#32) (ix2 g f)
      = ∑ r : Fin 5000, oh (ix2 r g) * x (ix2 r f) := by
  refine (Ideal.matmul_constant_zero_apply dot_S5000x256_S5000x64_S256x64_0_0_1_1_n_n none oh x (ix2 g f)).trans ?_
  rw [← Equiv.sum_comp (contrEquiv1 dot_S5000x256_S5000x64_S256x64_0_0_1_1_n_n 5000 rfl rfl).symm]
  refine Finset.sum_congr rfl fun k _ => ?_
  have hk := contrEquiv1_symm_val dot_S5000x256_S5000x64_S256x64_0_0_1_1_n_n 5000 rfl rfl k
  have el : dot_S5000x256_S5000x64_S256x64_0_0_1_1_n_n.lhsIdx (ix2 g f) ((contrEquiv1 dot_S5000x256_S5000x64_S256x64_0_0_1_1_n_n 5000 rfl rfl).symm k) = ix2 k g := funext fun a => Fin.ext (by
    match a with
    | ⟨0, _⟩ => exact (lhs_mm2s_0 _ _).trans hk
    | ⟨1, _⟩ => exact lhs_mm2s_1 _ _)
  have er : dot_S5000x256_S5000x64_S256x64_0_0_1_1_n_n.rhsIdx (ix2 g f) ((contrEquiv1 dot_S5000x256_S5000x64_S256x64_0_0_1_1_n_n 5000 rfl rfl).symm k) = ix2 k f := funext fun a => Fin.ext (by
    match a with
    | ⟨0, _⟩ => exact (rhs_mm2s_0 _ _).trans hk
    | ⟨1, _⟩ => exact rhs_mm2s_1 _ _)
  rw [el, er]

/-- The counts' product at (graph g, 0): the one-hot column of g against the ones column, over the rows. -/
theorem mm2c_apply (oh : FVec Ideal S5000x256 .bf16) (x : FVec Ideal S5000x1 .bf16) (g : Fin 256) :
    matmul (F := Ideal) dot_S5000x256_S5000x1_S256x1_0_0_1_1_n_n none oh x (constant (F := Ideal) S256x1 .f32 0x00000000#32) (ix2 g (0 : Fin 1))
      = ∑ r : Fin 5000, oh (ix2 r g) * x (ix2 r (0 : Fin 1)) := by
  refine (Ideal.matmul_constant_zero_apply dot_S5000x256_S5000x1_S256x1_0_0_1_1_n_n none oh x (ix2 g (0 : Fin 1))).trans ?_
  rw [← Equiv.sum_comp (contrEquiv1 dot_S5000x256_S5000x1_S256x1_0_0_1_1_n_n 5000 rfl rfl).symm]
  refine Finset.sum_congr rfl fun k _ => ?_
  have hk := contrEquiv1_symm_val dot_S5000x256_S5000x1_S256x1_0_0_1_1_n_n 5000 rfl rfl k
  have el : dot_S5000x256_S5000x1_S256x1_0_0_1_1_n_n.lhsIdx (ix2 g (0 : Fin 1)) ((contrEquiv1 dot_S5000x256_S5000x1_S256x1_0_0_1_1_n_n 5000 rfl rfl).symm k) = ix2 k g := funext fun a => Fin.ext (by
    match a with
    | ⟨0, _⟩ => exact (lhs_mm2c_0 _ _).trans hk
    | ⟨1, _⟩ => exact lhs_mm2c_1 _ _)
  have er : dot_S5000x256_S5000x1_S256x1_0_0_1_1_n_n.rhsIdx (ix2 g (0 : Fin 1)) ((contrEquiv1 dot_S5000x256_S5000x1_S256x1_0_0_1_1_n_n 5000 rfl rfl).symm k) = ix2 k (0 : Fin 1) := funext fun a => Fin.ext (by
    match a with
    | ⟨0, _⟩ => exact (rhs_mm2c_0 _ _).trans hk
    | ⟨1, _⟩ => exact rhs_mm2c_1 _ _)
  rw [el, er]

/-! ## The payloads at an index -/

/-- One tile added into the sums: at (g, f), the accumulator plus the tile's rows whose id is g, at feature f
    (a one-hot entry is 1 or 0; 1·x = x and 0·x = 0 for every extended real x). -/
theorem pay2_4_apply (b : Vec Ideal S5000x1 .i32) (x : Vec Ideal S5000x64 .f32) (acc : Vec Ideal S256x64 .f32) (g : Fin 256) (f : Fin 64) :
    k2_pay4 (F := Ideal) b x acc (ix2 g f)
      = acc (ix2 g f) + ∑ r : Fin 5000, (if b (ix2 r (0 : Fin 1)) = BitVec.ofNat 32 g.val then x (ix2 r f) else 0) := by
  unfold k2_pay4
  refine (congrFun (shapeCast_self _ shapeCasts_S256x64_S256x64) (ix2 g f)).trans ?_
  refine (addf_apply _ _ (ix2 g f)).trans ?_
  refine congrArg (acc (ix2 g f) + ·) ?_
  refine (mm2s_apply _ _ g f).trans ?_
  refine Finset.sum_congr rfl fun r _ => ?_
  rw [pay2_3_apply]
  show _ * shapeCast S5000x64 x shapeCasts_S5000x64_S5000x64 (ix2 r f) = _
  rw [shapeCast_self]
  split_ifs
  · exact one_mul _
  · exact zero_mul _

/-- One tile added into the counts: at (g, 0), the accumulator plus the number of the tile's rows whose id is g. -/
theorem pay2_5_apply (b : Vec Ideal S5000x1 .i32) (cnt : Vec Ideal S256x1 .f32) (g : Fin 256) :
    k2_pay5 (F := Ideal) b cnt (ix2 g (0 : Fin 1))
      = cnt (ix2 g (0 : Fin 1)) + ∑ r : Fin 5000, (if b (ix2 r (0 : Fin 1)) = BitVec.ofNat 32 g.val then (1 : EReal) else 0) := by
  unfold k2_pay5
  refine (congrFun (shapeCast_self _ shapeCasts_S256x1_S256x1) (ix2 g (0 : Fin 1))).trans ?_
  refine (addf_apply _ _ (ix2 g (0 : Fin 1))).trans ?_
  refine congrArg (cnt (ix2 g (0 : Fin 1)) + ·) ?_
  refine (mm2c_apply _ _ g).trans ?_
  refine Finset.sum_congr rfl fun r _ => ?_
  rw [pay2_3_apply]
  show _ * Ideal.ofBits .bf16 0x3F80#16 = _
  rw [Ideal.ofBits_one_bf16, mul_one]

/-- The stored quotient at (g, f): the sum over max(count, 1), rectified. -/
theorem pay2_6_apply (s : Vec Ideal S256x64 .f32) (n : Vec Ideal S256x1 .f32) (g : Fin 256) (f : Fin 64) :
    k2_pay6 (F := Ideal) s n (ix2 g f) = max (Ideal.div (s (ix2 g f)) (max (n (ix2 g (0 : Fin 1))) 1)) 0 := by
  unfold k2_pay6
  show max (Ideal.div (s (ix2 g f)) (broadcastTo S256x64 (maximumf (F := Ideal) n (broadcast S256x1 (Scalar.ofBits (F := Ideal) .f32 0x3F800000#32))) broadcasts_S256x1_S256x64 (ix2 g f))) (Ideal.ofBits .f32 0x00000000#32) = _
  rw [Ideal.ofBits_zero_f32]
  have hb : broadcastTo S256x64 (maximumf (F := Ideal) n (broadcast S256x1 (Scalar.ofBits (F := Ideal) .f32 0x3F800000#32))) broadcasts_S256x1_S256x64 (ix2 g f)
      = (maximumf (F := Ideal) n (broadcast S256x1 (Scalar.ofBits (F := Ideal) .f32 0x3F800000#32))) (ix2 g (0 : Fin 1)) := by
    refine broadcastTo_apply _ broadcasts_S256x1_S256x64 (ix2 g f) (ix2 g (0 : Fin 1)) fun a => ?_
    match a with
    | ⟨0, _⟩ => show g.val = if (256 : Nat) = 1 then 0 else g.val; rw [if_neg (by decide)]
    | ⟨1, _⟩ => show (0 : Nat) = if (1 : Nat) = 1 then 0 else f.val; rw [if_pos rfl]
  rw [hb]
  show max (Ideal.div (s (ix2 g f)) (max (n (ix2 g (0 : Fin 1))) (Ideal.ofBits .f32 0x3F800000#32))) 0 = _
  rw [Ideal.ofBits_one_f32]

/-! ## Twenty tiles of 5000 rows are the 100000 nodes -/

/-- A sum over tiles and rows inside a tile is the sum over the nodes: node 5000·t + r is row r of tile t. -/
theorem sum_tiles2 {M : Type*} [AddCommMonoid M] (F : Fin 100000 → M) :
    ∑ t : Fin 20, ∑ r : Fin 5000, F ⟨5000 * t.val + r.val, by omega⟩ = ∑ m : Fin 100000, F m := by
  rw [← Fintype.sum_prod_type' (f := fun (t : Fin 20) (r : Fin 5000) => F ⟨5000 * t.val + r.val, by omega⟩)]
  rw [← Equiv.sum_comp (finProdFinEquiv (m := 20) (n := 5000)) F]
  refine Finset.sum_congr rfl fun p _ => congrArg F (Fin.ext ?_)
  show 5000 * p.1.val + p.2.val = p.2.val + 5000 * p.1.val
  omega

/-! ## The arrays and the tiles' blocks -/

variable (V : (c : Dev nD) → (b : Ref sig .tc) → Buf (Elt Ideal) ((c : Thread nD τ).loc b))

/-- The node features the pooling reads (the second layer's result), as the region finds them. -/
abbrev harr2 (c : Dev nD) : Vec Ideal S100000x64 .f32 := V c main_v27
/-- The nodes' graph ids, a column. -/
abbrev barr2 (c : Dev nD) : Vec Ideal S100000x1 .i32 := V c main_v28
/-- Tile t of the features. -/
abbrev hblk2 (c : Dev nD) (t : Fin cfg2.N) : Vec Ideal S5000x64 .f32 := iblk2 V c 0 t
/-- Tile t of the ids. -/
abbrev bblk2 (c : Dev nD) (t : Fin cfg2.N) : Vec Ideal S5000x1 .i32 := iblk2 V c 1 t

/-- The printed index maps over the grid: the two input windows walk the row tiles, the output window stays. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- Row r of tile t of the features is node 5000·t + r. -/
theorem iblk2_0_apply (c : Dev nD) (t : ℕ) (ht : t < cfg2.N) (r : Fin 5000) (f : Fin 64) (hlt : 5000 * t + r.val < 100000) :
    hblk2 V c ⟨t, ht⟩ (ix2 r f) = harr2 V c (ix2 ⟨5000 * t + r.val, hlt⟩ f) := by
  obtain ⟨e0, e1, -⟩ := idx_facts2 ⟨t, ht⟩
  show ((cfg2.win 0).blk ⟨t, ht⟩).view.read (Elt Ideal) (V c (Pipeline.arrRef spec2 0)) (ix2 r f) = _
  rw [View.read_apply]
  show V c main_v27 _ = V c main_v27 _
  congr 1
  funext a; apply Fin.ext
  match a with
  | ⟨0, _⟩ => show win2_0.index ⟨t, ht⟩ (0 : Fin 2) * 5000 + 1 * r.val = 5000 * t + r.val; rw [e0]; show t * 5000 + 1 * r.val = _; omega
  | ⟨1, _⟩ => show win2_0.index ⟨t, ht⟩ (1 : Fin 2) * 64 + 1 * f.val = f.val; rw [e1]; omega

/-- Row r of tile t of the ids is node 5000·t + r. -/
theorem iblk2_1_apply (c : Dev nD) (t : ℕ) (ht : t < cfg2.N) (r : Fin 5000) (hlt : 5000 * t + r.val < 100000) :
    bblk2 V c ⟨t, ht⟩ (ix2 r (0 : Fin 1)) = barr2 V c (ix2 ⟨5000 * t + r.val, hlt⟩ (0 : Fin 1)) := by
  obtain ⟨-, -, e0, e1, -⟩ := idx_facts2 ⟨t, ht⟩
  show ((cfg2.win 1).blk ⟨t, ht⟩).view.read (Elt Ideal) (V c (Pipeline.arrRef spec2 1)) (ix2 r (0 : Fin 1)) = _
  rw [View.read_apply]
  show V c main_v28 _ = V c main_v28 _
  congr 1
  funext a; apply Fin.ext
  match a with
  | ⟨0, _⟩ => show win2_1.index ⟨t, ht⟩ (0 : Fin 2) * 5000 + 1 * r.val = 5000 * t + r.val; rw [e0]; show t * 5000 + 1 * r.val = _; omega
  | ⟨1, _⟩ => show win2_1.index ⟨t, ht⟩ (1 : Fin 2) * 1 + 1 * 0 = 0; rw [e1]

/-! ## The scratch buffers after each point -/

/-- The zero splat the sums' scratch is reset to. -/
theorem pay2_1_apply (i : S256x64.Idx) : k2_pay1 (F := Ideal) i = 0 := by
  unfold k2_pay1
  refine (congrFun (shapeCast_self _ shapeCasts_S256x64_S256x64) i).trans ?_
  exact Ideal.ofBits_zero_f32

/-- The zero splat the counts' scratch is reset to. -/
theorem pay2_2_apply (i : S256x1.Idx) : k2_pay2 (F := Ideal) i = 0 := by
  unfold k2_pay2
  refine (congrFun (shapeCast_self _ shapeCasts_S256x1_S256x1) i).trans ?_
  exact Ideal.ofBits_zero_f32

/-- Tile t's part of graph g's sum at feature f: its rows whose id is g (zero past the grid). -/
def tileSum2 (c : Dev nD) (g : Fin 256) (f : Fin 64) (t : ℕ) : EReal :=
  if ht : t < cfg2.N then
    ∑ r : Fin 5000, (if bblk2 V c ⟨t, ht⟩ (ix2 r (0 : Fin 1)) = BitVec.ofNat 32 g.val then hblk2 V c ⟨t, ht⟩ (ix2 r f) else 0)
  else 0

/-- Tile t's part of graph g's node count. -/
def tileCnt2 (c : Dev nD) (g : Fin 256) (t : ℕ) : EReal :=
  if ht : t < cfg2.N then
    ∑ r : Fin 5000, (if bblk2 V c ⟨t, ht⟩ (ix2 r (0 : Fin 1)) = BitVec.ofNat 32 g.val then (1 : EReal) else 0)
  else 0

/-- After point n the sums' scratch holds, at (g, f), the parts of tiles 0..n. -/
theorem scAt2_sum_apply (c : Dev nD) (g : Fin 256) (f : Fin 64) : ∀ (n : ℕ) (hn : n < cfg2.N),
    (scAt2 (F := Ideal) V c n hn).1 (ix2 g f) = ∑ t ∈ Finset.range (n + 1), tileSum2 V c g f t
  | 0, hn => by
    rw [scAt2_zero]; dsimp only
    refine (pay2_4_apply (bblk2 V c ⟨0, hn⟩) (hblk2 V c ⟨0, hn⟩) (k2_pay1 (F := Ideal)) g f).trans ?_
    rw [pay2_1_apply, zero_add, Finset.sum_range_one]
    unfold tileSum2; rw [dif_pos hn]
  | n + 1, hn => by
    have ih := scAt2_sum_apply c g f n (Nat.lt_of_succ_lt hn)
    rw [scAt2_succ]; dsimp only
    refine (pay2_4_apply (bblk2 V c ⟨n + 1, hn⟩) (hblk2 V c ⟨n + 1, hn⟩) (scAt2 (F := Ideal) V c n (Nat.lt_of_succ_lt hn)).1 g f).trans ?_
    rw [ih, Finset.sum_range_succ _ (n + 1)]
    refine congrArg (_ + ·) ?_
    unfold tileSum2; rw [dif_pos hn]

/-- After point n the counts' scratch holds, at (g, 0), the node counts of tiles 0..n. -/
theorem scAt2_cnt_apply (c : Dev nD) (g : Fin 256) : ∀ (n : ℕ) (hn : n < cfg2.N),
    (scAt2 (F := Ideal) V c n hn).2 (ix2 g (0 : Fin 1)) = ∑ t ∈ Finset.range (n + 1), tileCnt2 V c g t
  | 0, hn => by
    rw [scAt2_zero]; dsimp only
    refine (pay2_5_apply (bblk2 V c ⟨0, hn⟩) (k2_pay2 (F := Ideal)) g).trans ?_
    rw [pay2_2_apply, zero_add, Finset.sum_range_one]
    unfold tileCnt2; rw [dif_pos hn]
  | n + 1, hn => by
    have ih := scAt2_cnt_apply c g n (Nat.lt_of_succ_lt hn)
    rw [scAt2_succ]; dsimp only
    refine (pay2_5_apply (bblk2 V c ⟨n + 1, hn⟩) (scAt2 (F := Ideal) V c n (Nat.lt_of_succ_lt hn)).2 g).trans ?_
    rw [ih, Finset.sum_range_succ _ (n + 1)]
    refine congrArg (_ + ·) ?_
    unfold tileCnt2; rw [dif_pos hn]

/-! ## All twenty tiles: the segment sum and the segment count -/

/-- The ids as the specification takes them: one word per node. -/
abbrev batch2 (c : Dev nD) : Cert.Spec.I1 100000 → BitVec 32 := fun j => V c main_v28 (ix2 (j 0) (0 : Fin 1))

/-- The twenty tiles' parts of graph g's sum at feature f add up to the segment sum over all nodes. -/
theorem tiles2_sum (c : Dev nD) (g : Fin 256) (f : Fin 64) :
    ∑ t ∈ Finset.range 20, tileSum2 V c g f t = Cert.Spec.segSum (V c main_v27) (batch2 V c) g f := by
  rw [Finset.sum_range]
  unfold Cert.Spec.segSum
  rw [← sum_tiles2]
  refine Finset.sum_congr rfl fun t _ => ?_
  have ht : t.val < cfg2.N := by rw [show cfg2.N = 20 from N_2]; exact t.isLt
  unfold tileSum2; rw [dif_pos ht]
  refine Finset.sum_congr rfl fun r _ => ?_
  have hlt : 5000 * t.val + r.val < 100000 := by omega
  rw [iblk2_0_apply V c t.val ht r f hlt, iblk2_1_apply V c t.val ht r hlt]

/-- The twenty tiles' parts of graph g's count add up to the segment count over all nodes. -/
theorem tiles2_cnt (c : Dev nD) (g : Fin 256) :
    ∑ t ∈ Finset.range 20, tileCnt2 V c g t = Cert.Spec.segCount (batch2 V c) g := by
  rw [Finset.sum_range]
  unfold Cert.Spec.segCount
  rw [← sum_tiles2]
  refine Finset.sum_congr rfl fun t _ => ?_
  have ht : t.val < cfg2.N := by rw [show cfg2.N = 20 from N_2]; exact t.isLt
  unfold tileCnt2; rw [dif_pos ht]
  refine Finset.sum_congr rfl fun r _ => ?_
  have hlt : 5000 * t.val + r.val < 100000 := by omega
  rw [iblk2_1_apply V c t.val ht r hlt]

/-! ## The last point's store, and the array after the region -/

/-- The last grid point. -/
abbrev tlast2 : Fin cfg2.N := ⟨19, by decide⟩

/-- What the last point stores into the output window is the pooled array. -/
theorem out2_last (c : Dev nD) : out2_2 (F := Ideal) V c tlast2 = Cert.Spec.pool (V c main_v27) (batch2 V c) := by
  funext i
  obtain ⟨g, f, rfl⟩ : ∃ (g : Fin 256) (f : Fin 64), i = ix2 g f := ⟨i 0, i 1, eq_ix2 i⟩
  unfold out2_2
  refine (pay2_6_apply _ _ g f).trans ?_
  rw [scAt2_sum_apply V c g f 19 tlast2.isLt, scAt2_cnt_apply V c g 19 tlast2.isLt, tiles2_sum, tiles2_cnt]
  rfl

/-- The one write-back, at the last point, writes the pooled array: the output's block index is (0, 0) and its block
    the whole array, so an entry of the block sits in the array at its own coordinates. -/
theorem flushed2_2 (c : Dev nD) (t : Fin cfg2.N) (hf : (cfg2.win 2).flush t = true) :
    (dat2 (F := Ideal) V c).flushed 2 t
      = ((cfg2.win 2).blk t).view.read (Elt Ideal) (Cert.Spec.pool (V c main_v27) (batch2 V c)) := by
  have hN : cfg2.N = 20 := N_2
  have h19 : t.val = 19 := by have := (flush2_2 t).mp hf; have := t.isLt; omega
  obtain rfl : t = tlast2 := Fin.ext h19
  obtain ⟨-, -, -, -, e0, e1⟩ := idx_facts2 tlast2
  show (cfg2.win 2).cut (grid2.coords tlast2) ((dat2 (F := Ideal) V c).after 2 tlast2) = _
  rw [after2_2, out2_last]
  funext j
  rw [View.read_apply]
  show Cert.Spec.pool (V c main_v27) (batch2 V c) _ = Cert.Spec.pool (V c main_v27) (batch2 V c) _
  congr 1
  funext a; apply Fin.ext
  match a with
  | ⟨0, _⟩ => show (j 0).val = win2_2.index tlast2 (0 : Fin 2) * 256 + 1 * (j 0).val; rw [e0]; omega
  | ⟨1, _⟩ => show (j 1).val = win2_2.index tlast2 (1 : Fin 2) * 64 + 1 * (j 1).val; rw [e1]; omega

/-- An index of the output array is in point t's block iff each coordinate is in the block's range on its axis. -/
theorem mem_blk2_2 (t : Fin cfg2.N) (i : S256x64.Idx) :
    i ∈ ((cfg2.win 2).blk t).view.set ↔ ∀ a : Fin 2, win2_2.index t a * S256x64.size a ≤ (i a).val ∧ (i a).val < win2_2.index t a * S256x64.size a + S256x64.size a := by
  show i ∈ ((View.whole main_v29).slice (win2_2.rect t)).set ↔ _
  rw [View.set_slice_whole, Rect.mem_set_unit]
  exact Iff.rfl

/-- The last point's block covers the output array. -/
theorem covered2_2 (i : S256x64.Idx) : ∃ t : Fin cfg2.N, (cfg2.win 2).flush t = true ∧ i ∈ ((cfg2.win 2).blk t).view.set := by
  refine ⟨tlast2, (flush2_2 tlast2).mpr rfl, ?_⟩
  rw [mem_blk2_2]
  obtain ⟨-, -, -, -, e0, e1⟩ := idx_facts2 tlast2
  have h0 : (i 0).val < 256 := (i 0).isLt
  have h1 : (i 1).val < 64 := (i 1).isLt
  intro a
  match a with
  | ⟨0, _⟩ => show win2_2.index tlast2 (0 : Fin 2) * 256 ≤ (i 0).val ∧ (i 0).val < win2_2.index tlast2 (0 : Fin 2) * 256 + 256; rw [e0]; omega
  | ⟨1, _⟩ => show win2_2.index tlast2 (1 : Fin 2) * 64 ≤ (i 1).val ∧ (i 1).val < win2_2.index tlast2 (1 : Fin 2) * 64 + 64; rw [e1]; omega

/-- The pooled array after the region's one write-back. -/
theorem arrAt2_2 (c : Dev nD) :
    (dat2 (F := Ideal) V c).arrAt 2 cfg2.N
      = Cert.Spec.pool (V c main_v27) (fun j => V c main_v28 (ix2 (j 0) (0 : Fin 1))) :=
  (dat2 (F := Ideal) V c).arrAt_eq_of_cover 2 (Cert.Spec.pool (V c main_v27) (batch2 V c)) (flushed2_2 V c) covered2_2

end Cert.KernelIdeal.HandValue

end
-- ==== Proof.KI_KValue.lean ====
/-
  The kernel program's result at the ideal instance, composed: the pooled array of the second layer's output, whose
  aggregated operand is the edge gather / scatter-add of the first layer's rectified output — each region's output array
  read through the fold of buffer contents between the program's segments, each host stretch's result read off its
  operations. The three regions' values enter as hypotheses (they are proved in their own modules).
-/
import proofs.«406771_j46110768890112_1_alg».proof.Proof.KI_Run
import proofs.«406771_j46110768890112_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx Idealize.ShloMosaic.StableHlo
open Idealize.ShloMosaic.Pipeline (Dat)

/-- The source indices of the edges, negative ones wrapped once by the node count, as a column. -/
def srcCol (ei : IVec S2x1600000 32) : IVec S1600000x1 32 :=
  broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))

/-- The destination indices of the edges, as a column. -/
def dstCol (ei : IVec S2x1600000 32) : IVec S1600000x1 32 :=
  broadcastInDim S1600000x1 ![0] bcast_S1600000_S1600000x1_0 (shapeCast _ (extractStridedSlice S1x1600000 ![1, 0] ei slices_S2x1600000_S1x1600000_1_0) shapeCasts_S1x1600000_S1600000)

/-- The neighbourhood aggregation at 38 features: gather the sources' rows, scatter-add them at the destinations. -/
def aggA (ei : IVec S2x1600000 32) (x : FVec Ideal S100000x38 .f32) : FVec Ideal S100000x38 .f32 :=
  Host.scatterAdd scatter_S100000x38_S1600000x1_S1600000x38_1_0_0_1 (broadcastInDim S100000x38 ![] bcast_S_S100000x38 (constant S_ .f32 0x00000000#32)) (dstCol ei) (Host.gather gather_S100000x38_S1600000x1_S1600000x38_1_0_n_n_0_1_138 x (srcCol ei))

/-- The neighbourhood aggregation at 64 features. -/
def aggB (ei : IVec S2x1600000 32) (h : FVec Ideal S100000x64 .f32) : FVec Ideal S100000x64 .f32 :=
  Host.scatterAdd scatter_S100000x64_S1600000x1_S1600000x64_1_0_0_1 (broadcastInDim S100000x64 ![] bcast_S_S100000x64 (constant S_ .f32 0x00000000#32)) (dstCol ei) (Host.gather gather_S100000x64_S1600000x1_S1600000x64_1_0_n_n_0_1_164 h (srcCol ei))

variable (m : (ℓ : Loc nD τ sig) → Buf (Elt Ideal) ℓ)

/-! ## The first host stretch's results -/

theorem B1_v13 (c : Dev nD) :
    B1 m c (Proc.devRef .tc main_v13) = aggA (m ((c.tc : Thread nD τ).loc main_arg1)) (m ((c.tc : Thread nD τ).loc main_arg0)) := by
  unfold aggA srcCol dstCol
  show StableHlo.after hostOps0 (fun b => m (c, b)) (Proc.devRef .tc main_v13) = _
  after_results; rfl

theorem B1_v14 (c : Dev nD) :
    B1 m c (Proc.devRef .tc main_v14) = shapeCast S1x64 (m ((c.tc : Thread nD τ).loc main_arg4)) shapeCasts_S64_S1x64 := by
  show StableHlo.after hostOps0 (fun b => m (c, b)) (Proc.devRef .tc main_v14) = _
  after_results; rfl

theorem B1_v1 (c : Dev nD) :
    B1 m c (Proc.devRef .tc main_v1) = shapeCast S1600000 (extractStridedSlice S1x1600000 ![0, 0] (m ((c.tc : Thread nD τ).loc main_arg1)) slices_S2x1600000_S1x1600000_0_0) shapeCasts_S1x1600000_S1600000 := by
  show StableHlo.after hostOps0 (fun b => m (c, b)) (Proc.devRef .tc main_v1) = _
  after_results; rfl

theorem B1_v3 (c : Dev nD) :
    B1 m c (Proc.devRef .tc main_v3) = shapeCast S1600000 (extractStridedSlice S1x1600000 ![1, 0] (m ((c.tc : Thread nD τ).loc main_arg1)) slices_S2x1600000_S1x1600000_1_0) shapeCasts_S1x1600000_S1600000 := by
  show StableHlo.after hostOps0 (fun b => m (c, b)) (Proc.devRef .tc main_v3) = _
  after_results; rfl

/-! ## A buffer nothing has written yet holds its launch contents -/

theorem B1_arg (c : Dev nD) (r : Ref sig .tc) (h0 : r ∉ hostOps0_W) : B1 m c (Proc.devRef .tc r) = m ((c.tc : Thread nD τ).loc r) :=
  StableHlo.after_of_writes_sub hostOps0 _ hostOps0_writes h0
theorem B2_arg (c : Dev nD) (r : Ref sig .tc) (h0 : r ∉ hostOps0_W)
    (ha0 : ∀ w, Pipeline.arrRef spec0 w = r → (cfg0.win w).isOut = false) : B2 m c (Proc.devRef .tc r) = m ((c.tc : Thread nD τ).loc r) :=
  (B2_keep m c r ha0).trans (B1_arg m c r h0)
theorem B3_arg (c : Dev nD) (r : Ref sig .tc) (h0 : r ∉ hostOps0_W) (h1 : r ∉ hostOps1_W)
    (ha0 : ∀ w, Pipeline.arrRef spec0 w = r → (cfg0.win w).isOut = false) : B3 m c (Proc.devRef .tc r) = m ((c.tc : Thread nD τ).loc r) :=
  (StableHlo.after_of_writes_sub hostOps1 _ hostOps1_writes h1).trans (B2_arg m c r h0 ha0)
theorem B4_arg (c : Dev nD) (r : Ref sig .tc) (h0 : r ∉ hostOps0_W) (h1 : r ∉ hostOps1_W)
    (ha0 : ∀ w, Pipeline.arrRef spec0 w = r → (cfg0.win w).isOut = false)
    (ha1 : ∀ w, Pipeline.arrRef spec1 w = r → (cfg1.win w).isOut = false) : B4 m c (Proc.devRef .tc r) = m ((c.tc : Thread nD τ).loc r) :=
  (B4_keep m c r ha1).trans (B3_arg m c r h0 h1 ha0)

/-! ## The second and third host stretches' results -/

theorem B3_v25 (c : Dev nD) :
    B3 m c (Proc.devRef .tc main_v25) = aggB (m ((c.tc : Thread nD τ).loc main_arg1)) (B2 m c (Proc.devRef .tc main_v15)) := by
  unfold aggB srcCol dstCol
  rw [← B1_v1 m c, ← B1_v3 m c, ← B2_keep m c main_v1 (by decide), ← B2_keep m c main_v3 (by decide)]
  show StableHlo.after hostOps1 (B2 m c) (Proc.devRef .tc main_v25) = _
  after_results

theorem B3_v26 (c : Dev nD) :
    B3 m c (Proc.devRef .tc main_v26) = shapeCast S1x64 (m ((c.tc : Thread nD τ).loc main_arg7)) shapeCasts_S64_S1x64 := by
  rw [← B2_arg m c main_arg7 (by decide) (by decide)]
  show StableHlo.after hostOps1 (B2 m c) (Proc.devRef .tc main_v26) = _
  after_results; rfl

theorem B3_v15 (c : Dev nD) : B3 m c (Proc.devRef .tc main_v15) = B2 m c (Proc.devRef .tc main_v15) :=
  StableHlo.after_of_writes_sub hostOps1 _ hostOps1_writes (by decide)

theorem B5_v27 (c : Dev nD) : B5 m c (Proc.devRef .tc main_v27) = B4 m c (Proc.devRef .tc main_v27) :=
  StableHlo.after_of_writes_sub hostOps2 _ hostOps2_writes (by decide)

theorem B5_v28 (c : Dev nD) :
    B5 m c (Proc.devRef .tc main_v28) = shapeCast S100000x1 (m ((c.tc : Thread nD τ).loc main_arg2)) shapeCasts_S100000_S100000x1 := by
  rw [← B4_arg m c main_arg2 (by decide) (by decide) (by decide) (by decide)]
  show StableHlo.after hostOps2 (B4 m c) (Proc.devRef .tc main_v28) = _
  after_results; rfl

/-! ## Reading the reshaped bias rows and id column -/

/-- A length-`a` array reshaped to one row, read along the row, is the array. -/
theorem row_of_reshape {a : ℕ} (x : (⟨1, ![a]⟩ : Shape).Idx → EReal) (h : (⟨1, ![a]⟩ : Shape).ShapeCasts ⟨2, ![1, a]⟩) :
    (fun j : (⟨1, ![a]⟩ : Shape).Idx => shapeCast ⟨2, ![1, a]⟩ x h (ix2 (0 : Fin 1) (j 0))) = x := by
  funext j
  rw [shapeCast_a_1a_apply x h 0 (j 0)]
  exact congrArg x (eq_ix1 j).symm

/-- A length-`a` array reshaped to one column, read down the column, is the array. -/
theorem col_of_reshape {a : ℕ} {α : Type} (x : (⟨1, ![a]⟩ : Shape).Idx → α) (h : (⟨1, ![a]⟩ : Shape).ShapeCasts ⟨2, ![a, 1]⟩) :
    (fun j : (⟨1, ![a]⟩ : Shape).Idx => shapeCast ⟨2, ![a, 1]⟩ x h (ix2 (j 0) (0 : Fin 1))) = x := by
  funext j
  refine (shapeCast_apply x h _ j ?_).trans rfl
  rw [Shape.rowMajor_val_two, Shape.rowMajor_val_one]
  show (j 0).val = (j 0).val * 1 + 0
  omega

/-! ## The composition -/

/-- The program's result array at the last boundary is the specified network of the arguments' launch contents,
    GIVEN what each region leaves in its output array as a function of the contents it is entered from. -/
theorem result_eq_of
    (H0 : ∀ (V : (c : Dev nD) → (b : Ref sig .tc) → Buf (Elt Ideal) ((c : Thread nD τ).loc b)) (c : Dev nD),
      (dat0 (F := Ideal) V c).arrAt 5 cfg0.N
        = Cert.Spec.linRelu (V c main_v13) (V c main_arg0) (V c main_arg3) (V c main_arg5) (fun j => V c main_v14 (ix2 (0 : Fin 1) (j 0))))
    (H1 : ∀ (V : (c : Dev nD) → (b : Ref sig .tc) → Buf (Elt Ideal) ((c : Thread nD τ).loc b)) (c : Dev nD),
      (dat1 (F := Ideal) V c).arrAt 5 cfg1.N
        = Cert.Spec.lin (V c main_v25) (V c main_v15) (V c main_arg6) (V c main_arg8) (fun j => V c main_v26 (ix2 (0 : Fin 1) (j 0))))
    (H2 : ∀ (V : (c : Dev nD) → (b : Ref sig .tc) → Buf (Elt Ideal) ((c : Thread nD τ).loc b)) (c : Dev nD),
      (dat2 (F := Ideal) V c).arrAt 2 cfg2.N
        = Cert.Spec.pool (V c main_v27) (fun j => V c main_v28 (ix2 (j 0) (0 : Fin 1))))
    (c : Dev nD) :
    B6 m c (Proc.devRef .tc main_v29)
      = Cert.Spec.result (aggA (m ((c.tc : Thread nD τ).loc main_arg1))) (aggB (m ((c.tc : Thread nD τ).loc main_arg1)))
          (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg2)) := by
  -- the first layer's output array
  have hA : B2 m c (Proc.devRef .tc main_v15)
      = Cert.Spec.linRelu (aggA (m ((c.tc : Thread nD τ).loc main_arg1)) (m ((c.tc : Thread nD τ).loc main_arg0)))
          (m ((c.tc : Thread nD τ).loc main_arg0)) (m ((c.tc : Thread nD τ).loc main_arg3)) (m ((c.tc : Thread nD τ).loc main_arg5))
          (m ((c.tc : Thread nD τ).loc main_arg4)) := by
    refine (B2_arr m c 5).trans ((H0 (E1 m) c).trans ?_)
    show Cert.Spec.linRelu (B1 m c (Proc.devRef .tc main_v13)) (B1 m c (Proc.devRef .tc main_arg0)) (B1 m c (Proc.devRef .tc main_arg3))
      (B1 m c (Proc.devRef .tc main_arg5)) (fun j => B1 m c (Proc.devRef .tc main_v14) (ix2 (0 : Fin 1) (j 0))) = _
    rw [B1_v13, B1_v14, B1_arg m c main_arg0 (by decide), B1_arg m c main_arg3 (by decide), B1_arg m c main_arg5 (by decide)]
    exact congrArg _ (row_of_reshape _ _)
  -- the second layer's output array
  have hB : B4 m c (Proc.devRef .tc main_v27)
      = Cert.Spec.lin (aggB (m ((c.tc : Thread nD τ).loc main_arg1)) (B2 m c (Proc.devRef .tc main_v15))) (B2 m c (Proc.devRef .tc main_v15))
          (m ((c.tc : Thread nD τ).loc main_arg6)) (m ((c.tc : Thread nD τ).loc main_arg8)) (m ((c.tc : Thread nD τ).loc main_arg7)) := by
    refine (B4_arr m c 5).trans ((H1 (E3 m) c).trans ?_)
    show Cert.Spec.lin (B3 m c (Proc.devRef .tc main_v25)) (B3 m c (Proc.devRef .tc main_v15)) (B3 m c (Proc.devRef .tc main_arg6))
      (B3 m c (Proc.devRef .tc main_arg8)) (fun j => B3 m c (Proc.devRef .tc main_v26) (ix2 (0 : Fin 1) (j 0))) = _
    rw [B3_v25, B3_v26, B3_v15, B3_arg m c main_arg6 (by decide) (by decide) (by decide), B3_arg m c main_arg8 (by decide) (by decide) (by decide)]
    exact congrArg _ (row_of_reshape _ _)
  -- the pooled array
  refine (B6_arr m c 2).trans ((H2 (E5 m) c).trans ?_)
  show Cert.Spec.pool (B5 m c (Proc.devRef .tc main_v27)) (fun j => B5 m c (Proc.devRef .tc main_v28) (ix2 (j 0) (0 : Fin 1))) = _
  rw [B5_v27, B5_v28, hB, hA, col_of_reshape]
  rfl

end Cert.KernelIdeal.HandValue

end
-- ==== Proof.RefScatter.lean ====
/-
  A scatter-add over graph ids, read at one result element, is a sum over the nodes with an indicator: an update
  lands at row `g` exactly when the node's id, read signed, is `g`, and (for the rank-2 form) at the column it has.
  Stated for the two scatter records of the reference's pooling: the 64-feature segment sum and the node count.
-/
import proofs.«406771_j46110768890112_1_alg».proof.Proof.Gen.ReferenceIdeal
import Idealize.ShloMosaic.Lib.ValueIdx
import Idealize.ShloMosaic.Lib.ValueIdxRank1
import Idealize.ShloMosaic.PureOps.Ideal.Laws

noncomputable section

namespace Cert.ReferenceIdeal.RefScatter

open Cert.ReferenceIdeal Cert.ReferenceIdeal.Gen Idealize.ShloMosaic Idealize.ShloMosaic.ValueIdx

/-- A 32-bit word read signed is a natural number below 256 exactly when it is that number's word. -/
theorem toInt_eq_iff (w : BitVec 32) (g : Nat) (hg : g < 256) : w.toInt = (g : Int) ↔ w = BitVec.ofNat 32 g := by
  have hm : g % 2 ^ 32 = g := Nat.mod_eq_of_lt (by omega)
  constructor
  · intro h
    apply BitVec.eq_of_toNat_eq
    rw [BitVec.toNat_ofNat, hm]
    have hw := w.isLt
    rw [BitVec.toInt_eq_toNat_cond] at h
    split at h <;> omega
  · rintro rfl
    rw [BitVec.toInt_eq_toNat_cond, BitVec.toNat_ofNat, hm]
    split <;> omega

/-! ## The 64-feature segment sum's record -/

/-- On the row axis the window starts at the node's id, read signed. -/
theorem start2_0 (n : Fin 100000) (f' : Fin 64) (idx : IVec S100000x1 32) :
    scatter_S256x64_S100000x1_S100000x64_1_0_0_1.start (ix2 n f') idx 0 = (idx (ix2 n 0)).toInt := by
  have e : scatter_S256x64_S100000x1_S100000x64_1_0_0_1.siIdx (ix2 n f') ⟨0, Nat.zero_lt_one⟩ = ix2 n 0 :=
    funext fun b => match b with | ⟨0, _⟩ => rfl | ⟨1, _⟩ => rfl
  exact congrArg (fun q => (idx q).toInt) e

/-- On the column axis the window starts at zero. -/
theorem start2_1 (n : Fin 100000) (f' : Fin 64) (idx : IVec S100000x1 32) :
    scatter_S256x64_S100000x1_S100000x64_1_0_0_1.start (ix2 n f') idx 1 = 0 := rfl

/-- The row axis is inserted: no window coordinate. -/
theorem window2_0 (n : Fin 100000) (f' : Fin 64) :
    scatter_S256x64_S100000x1_S100000x64_1_0_0_1.window (ix2 n f') 0 = 0 := rfl

/-- The column axis carries the update's column. -/
theorem window2_1 (n : Fin 100000) (f' : Fin 64) :
    scatter_S256x64_S100000x1_S100000x64_1_0_0_1.window (ix2 n f') 1 = f'.val := rfl

/-- The update of node `n`, column `f'` lands at `(g, f)` exactly when the node's id is `g` and the columns agree. -/
theorem result2_iff (idx : IVec S100000x1 32) (n : Fin 100000) (f' : Fin 64) (g : Fin 256) (f : Fin 64) :
    scatter_S256x64_S100000x1_S100000x64_1_0_0_1.resultIdx? (ix2 n f') idx = some (ix2 g f)
      ↔ (idx (ix2 n 0) = BitVec.ofNat 32 g.val ∧ f' = f) := by
  rw [← toInt_eq_iff _ g.val g.isLt]
  have hg := g.isLt
  have hf := f.isLt
  have hf' := f'.isLt
  unfold ScatterDims.resultIdx?
  split
  · rename_i h
    constructor
    · intro he
      have he' := Option.some.inj he
      have e0 : (scatter_S256x64_S100000x1_S100000x64_1_0_0_1.start (ix2 n f') idx 0
          + scatter_S256x64_S100000x1_S100000x64_1_0_0_1.window (ix2 n f') 0).toNat = g.val :=
        congrArg Fin.val (congrFun he' 0)
      have e1 : (scatter_S256x64_S100000x1_S100000x64_1_0_0_1.start (ix2 n f') idx 1
          + scatter_S256x64_S100000x1_S100000x64_1_0_0_1.window (ix2 n f') 1).toNat = f.val :=
        congrArg Fin.val (congrFun he' 1)
      have h0 := (h 0).1
      rw [start2_0, window2_0] at e0 h0
      rw [start2_1, window2_1] at e1
      exact ⟨by omega, Fin.ext (by omega)⟩
    · rintro ⟨hw, rfl⟩
      congr 1
      funext a
      match a with
      | ⟨0, _⟩ =>
        exact Fin.ext (show (scatter_S256x64_S100000x1_S100000x64_1_0_0_1.start (ix2 n f') idx 0
          + scatter_S256x64_S100000x1_S100000x64_1_0_0_1.window (ix2 n f') 0).toNat = g.val by
            rw [start2_0, window2_0]; omega)
      | ⟨1, _⟩ =>
        exact Fin.ext (show (scatter_S256x64_S100000x1_S100000x64_1_0_0_1.start (ix2 n f') idx 1
          + scatter_S256x64_S100000x1_S100000x64_1_0_0_1.window (ix2 n f') 1).toNat = f'.val by
            rw [start2_1, window2_1]; omega)
  · rename_i h
    constructor
    · intro he; cases he
    · rintro ⟨hw, rfl⟩
      exfalso
      apply h
      intro a
      match a with
      | ⟨0, _⟩ =>
        show 0 ≤ scatter_S256x64_S100000x1_S100000x64_1_0_0_1.start (ix2 n f') idx 0
            + scatter_S256x64_S100000x1_S100000x64_1_0_0_1.window (ix2 n f') 0
          ∧ scatter_S256x64_S100000x1_S100000x64_1_0_0_1.start (ix2 n f') idx 0
            + scatter_S256x64_S100000x1_S100000x64_1_0_0_1.window (ix2 n f') 0 < ((256 : ℕ) : Int)
        rw [start2_0, window2_0]; omega
      | ⟨1, _⟩ =>
        show 0 ≤ scatter_S256x64_S100000x1_S100000x64_1_0_0_1.start (ix2 n f') idx 1
            + scatter_S256x64_S100000x1_S100000x64_1_0_0_1.window (ix2 n f') 1
          ∧ scatter_S256x64_S100000x1_S100000x64_1_0_0_1.start (ix2 n f') idx 1
            + scatter_S256x64_S100000x1_S100000x64_1_0_0_1.window (ix2 n f') 1 < ((64 : ℕ) : Int)
        rw [start2_1, window2_1]; omega

/-- The segment sum at `(g, f)`: the operand's element plus the updates of column `f` over the nodes whose id is `g`. -/
theorem scatterAdd2_apply (x : S256x64.Idx → EReal) (idx : IVec S100000x1 32) (upd : S100000x64.Idx → EReal)
    (g : Fin 256) (f : Fin 64) :
    Ideal.hostScatterAdd scatter_S256x64_S100000x1_S100000x64_1_0_0_1 x idx upd (ix2 g f)
      = x (ix2 g f) + ∑ n : Fin 100000, if idx (ix2 n 0) = BitVec.ofNat 32 g.val then upd (ix2 n f) else 0 := by
  unfold Ideal.hostScatterAdd
  refine congrArg (x (ix2 g f) + ·) ?_
  rw [Finset.sum_filter, sum_idx2]
  refine Finset.sum_congr rfl fun n _ => ?_
  simp only [result2_iff]
  by_cases hn : idx (ix2 n 0) = BitVec.ofNat 32 g.val
  · simp only [hn, true_and, if_true]
    exact (Finset.sum_ite_eq' Finset.univ f fun f' => upd (ix2 n f')).trans (if_pos (Finset.mem_univ f))
  · simp only [hn, false_and, if_false]
    exact Finset.sum_const_zero

/-! ## The node count's record -/

/-- On the one axis the window starts at the node's id, read signed. -/
theorem start1_0 (n : Fin 100000) (idx : IVec S100000x1 32) :
    scatter_S256_S100000x1_S100000_n_0_0_1.start (ix1 n) idx 0 = (idx (ix2 n 0)).toInt := by
  have e : scatter_S256_S100000x1_S100000_n_0_0_1.siIdx (ix1 n) ⟨0, Nat.zero_lt_one⟩ = ix2 n 0 :=
    funext fun b => match b with | ⟨0, _⟩ => rfl | ⟨1, _⟩ => rfl
  exact congrArg (fun q => (idx q).toInt) e

/-- The axis is inserted: no window coordinate. -/
theorem window1_0 (n : Fin 100000) :
    scatter_S256_S100000x1_S100000_n_0_0_1.window (ix1 n) 0 = 0 := rfl

/-- The update of node `n` lands at `g` exactly when the node's id is `g`. -/
theorem result1_iff (idx : IVec S100000x1 32) (n : Fin 100000) (g : Fin 256) :
    scatter_S256_S100000x1_S100000_n_0_0_1.resultIdx? (ix1 n) idx = some (ix1 g)
      ↔ idx (ix2 n 0) = BitVec.ofNat 32 g.val := by
  rw [← toInt_eq_iff _ g.val g.isLt]
  have hg := g.isLt
  unfold ScatterDims.resultIdx?
  split
  · rename_i h
    constructor
    · intro he
      have he' := Option.some.inj he
      have e0 : (scatter_S256_S100000x1_S100000_n_0_0_1.start (ix1 n) idx 0
          + scatter_S256_S100000x1_S100000_n_0_0_1.window (ix1 n) 0).toNat = g.val :=
        congrArg Fin.val (congrFun he' 0)
      have h0 := (h 0).1
      rw [start1_0, window1_0] at e0 h0
      omega
    · intro hw
      congr 1
      funext a
      match a with
      | ⟨0, _⟩ =>
        exact Fin.ext (show (scatter_S256_S100000x1_S100000_n_0_0_1.start (ix1 n) idx 0
          + scatter_S256_S100000x1_S100000_n_0_0_1.window (ix1 n) 0).toNat = g.val by
            rw [start1_0, window1_0]; omega)
  · rename_i h
    constructor
    · intro he; cases he
    · intro hw
      exfalso
      apply h
      intro a
      match a with
      | ⟨0, _⟩ =>
        show 0 ≤ scatter_S256_S100000x1_S100000_n_0_0_1.start (ix1 n) idx 0
            + scatter_S256_S100000x1_S100000_n_0_0_1.window (ix1 n) 0
          ∧ scatter_S256_S100000x1_S100000_n_0_0_1.start (ix1 n) idx 0
            + scatter_S256_S100000x1_S100000_n_0_0_1.window (ix1 n) 0 < ((256 : ℕ) : Int)
        rw [start1_0, window1_0]; omega

/-- The count at `g`: the operand's element plus the updates over the nodes whose id is `g`. -/
theorem scatterAdd1_apply (x : S256.Idx → EReal) (idx : IVec S100000x1 32) (upd : S100000.Idx → EReal) (g : Fin 256) :
    Ideal.hostScatterAdd scatter_S256_S100000x1_S100000_n_0_0_1 x idx upd (ix1 g)
      = x (ix1 g) + ∑ n : Fin 100000, if idx (ix2 n 0) = BitVec.ofNat 32 g.val then upd (ix1 n) else 0 := by
  unfold Ideal.hostScatterAdd
  refine congrArg (x (ix1 g) + ·) ?_
  rw [Finset.sum_filter, ← Equiv.sum_comp (idxEquiv1 (n := 100000)).symm]
  refine Finset.sum_congr rfl fun n _ => ?_
  show (if scatter_S256_S100000x1_S100000_n_0_0_1.resultIdx? (ix1 n) idx = some (ix1 g) then upd (ix1 n) else 0) = _
  simp only [result1_iff]

end Cert.ReferenceIdeal.RefScatter

end
-- ==== Proof.RefValue.lean ====
/-
  The reference at the ideal instance is the network of Proof/Spec.lean: each GraphConv layer's two host products and
  bias, read at an index, are `Spec.linAt` (up to the order of the three summands, which commute in the extended reals),
  the host's rectifier is max(·, 0), and the two segment sums over the graph ids are `Spec.segSum` / `Spec.segCount`
  (a scatter-add lands an update at row `g` exactly when the node's id, read signed, is `g`).
-/
import proofs.«406771_j46110768890112_1_alg».proof.Proof.Gen.ReferenceIdeal.Run
import proofs.«406771_j46110768890112_1_alg».proof.Proof.Gen.ReferenceIdeal.Read
import proofs.«406771_j46110768890112_1_alg».proof.Proof.Spec
import proofs.«406771_j46110768890112_1_alg».proof.Proof.RefScatter
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The source indices of the edges, negative ones wrapped once by the node count, as a column. -/
def srcCol (ei : IVec S2x1600000 32) : IVec S1600000x1 32 :=
  broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))

/-- The destination indices of the edges, as a column. -/
def dstCol (ei : IVec S2x1600000 32) : IVec S1600000x1 32 :=
  broadcastInDim S1600000x1 ![0] bcast_S1600000_S1600000x1_0 (shapeCast _ (extractStridedSlice S1x1600000 ![1, 0] ei slices_S2x1600000_S1x1600000_1_0) shapeCasts_S1x1600000_S1600000)

/-- The neighbourhood aggregation at 38 features: gather the sources' rows, scatter-add them at the destinations. -/
def aggA (ei : IVec S2x1600000 32) (x : FVec Ideal S100000x38 .f32) : FVec Ideal S100000x38 .f32 :=
  Host.scatterAdd scatter_S100000x38_S1600000x1_S1600000x38_1_0_0_1 (broadcastInDim S100000x38 ![] bcast_S_S100000x38 (constant S_ .f32 0x00000000#32)) (dstCol ei) (Host.gather gather_S100000x38_S1600000x1_S1600000x38_1_0_n_n_0_1_138 x (srcCol ei))

/-- The neighbourhood aggregation at 64 features. -/
def aggB (ei : IVec S2x1600000 32) (h : FVec Ideal S100000x64 .f32) : FVec Ideal S100000x64 .f32 :=
  Host.scatterAdd scatter_S100000x64_S1600000x1_S1600000x64_1_0_0_1 (broadcastInDim S100000x64 ![] bcast_S_S100000x64 (constant S_ .f32 0x00000000#32)) (dstCol ei) (Host.gather gather_S100000x64_S1600000x1_S1600000x64_1_0_n_n_0_1_164 h (srcCol ei))

section Stages

variable (x0 : FVec Ideal S100000x38 .f32) (x1 : IVec S2x1600000 32) (x2 : IVec S100000 32)
  (x3 : FVec Ideal S38x64 .f32) (x4 : FVec Ideal S64 .f32) (x5 : FVec Ideal S38x64 .f32)
  (x6 : FVec Ideal S64x64 .f32) (x7 : FVec Ideal S64 .f32) (x8 : FVec Ideal S64x64 .f32)

/-- The first aggregation stage is `aggA` of the node features. -/
theorem v13_eq : Read.val_main_v13 (F := Ideal) x0 x1 = aggA x1 x0 := rfl

/-- The second aggregation stage is `aggB` of the first layer's output. -/
theorem v34_eq : Read.val_main_v34 (F := Ideal) x0 x1 x3 x4 x5
    = aggB x1 (Read.val_main_v20 (F := Ideal) x0 x1 x3 x4 x5) := rfl

/-- The first layer at a node and a feature: the three summands in the reference's order, then max(·, 0). -/
theorem layer1_apply (n : Fin 100000) (f : Fin 64) :
    Read.val_main_v20 (F := Ideal) x0 x1 x3 x4 x5 (ix2 n f)
      = max (Cert.Spec.linAt (aggA x1 x0) x0 x3 x5 x4 n f) 0 := by
  rw [Read.val_main_v20_apply, Read.val_main_v19_apply, Read.val_main_v17_apply, Read.val_main_v14_apply,
    Read.val_main_v16_apply, Read.val_main_v15_apply, Read.val_main_v18_apply, Read.val_main_call0_v0_apply,
    Read.val_main_call0_cst_apply, v13_eq]
  have el1 : ∀ k : Fin 38, Read.lidx_main_v14 (ix2 n f) k = ix2 n k := fun k =>
    funext fun a => match a with | ⟨0, _⟩ => rfl | ⟨1, _⟩ => rfl
  have er1 : ∀ k : Fin 38, Read.ridx_main_v14 (ix2 n f) k = ix2 k f := fun k =>
    funext fun a => match a with | ⟨0, _⟩ => rfl | ⟨1, _⟩ => rfl
  have el2 : ∀ k : Fin 38, Read.lidx_main_v18 (ix2 n f) k = ix2 n k := fun k =>
    funext fun a => match a with | ⟨0, _⟩ => rfl | ⟨1, _⟩ => rfl
  have er2 : ∀ k : Fin 38, Read.ridx_main_v18 (ix2 n f) k = ix2 k f := fun k =>
    funext fun a => match a with | ⟨0, _⟩ => rfl | ⟨1, _⟩ => rfl
  have eb : Read.idx_main_v15 (Read.idx_main_v16 (ix2 n f)) = ix1 f :=
    funext fun a => match a with | ⟨0, _⟩ => rfl
  simp only [el1, er1, el2, er2, eb, Ideal.addf_def, Ideal.maximumf_def, Ideal.ofBits_def, Ideal.ofBits_zero_f32]
  unfold Cert.Spec.linAt
  rw [add_right_comm]

/-- The first layer as an array. -/
theorem layer1_eq : Read.val_main_v20 (F := Ideal) x0 x1 x3 x4 x5 = Cert.Spec.linRelu (aggA x1 x0) x0 x3 x5 x4 := by
  funext i
  obtain ⟨n, f, rfl⟩ : ∃ (n : Fin 100000) (f : Fin 64), i = ix2 n f := ⟨i 0, i 1, eq_ix2 i⟩
  exact layer1_apply x0 x1 x3 x4 x5 n f

/-- The second layer at a node and a feature, over the first layer's output. -/
theorem layer2_apply (n : Fin 100000) (f : Fin 64) :
    Read.val_main_v40 (F := Ideal) x0 x1 x3 x4 x5 x6 x7 x8 (ix2 n f)
      = Cert.Spec.linAt (aggB x1 (Read.val_main_v20 (F := Ideal) x0 x1 x3 x4 x5))
          (Read.val_main_v20 (F := Ideal) x0 x1 x3 x4 x5) x6 x8 x7 n f := by
  rw [Read.val_main_v40_apply, Read.val_main_v38_apply, Read.val_main_v35_apply, Read.val_main_v37_apply,
    Read.val_main_v36_apply, Read.val_main_v39_apply, v34_eq]
  have el1 : ∀ k : Fin 64, Read.lidx_main_v35 (ix2 n f) k = ix2 n k := fun k =>
    funext fun a => match a with | ⟨0, _⟩ => rfl | ⟨1, _⟩ => rfl
  have er1 : ∀ k : Fin 64, Read.ridx_main_v35 (ix2 n f) k = ix2 k f := fun k =>
    funext fun a => match a with | ⟨0, _⟩ => rfl | ⟨1, _⟩ => rfl
  have el2 : ∀ k : Fin 64, Read.lidx_main_v39 (ix2 n f) k = ix2 n k := fun k =>
    funext fun a => match a with | ⟨0, _⟩ => rfl | ⟨1, _⟩ => rfl
  have er2 : ∀ k : Fin 64, Read.ridx_main_v39 (ix2 n f) k = ix2 k f := fun k =>
    funext fun a => match a with | ⟨0, _⟩ => rfl | ⟨1, _⟩ => rfl
  have eb : Read.idx_main_v36 (Read.idx_main_v37 (ix2 n f)) = ix1 f :=
    funext fun a => match a with | ⟨0, _⟩ => rfl
  simp only [el1, er1, el2, er2, eb, Ideal.addf_def]
  unfold Cert.Spec.linAt
  rw [add_right_comm]

/-- The second layer as an array, over the specified first layer. -/
theorem layer2_eq : Read.val_main_v40 (F := Ideal) x0 x1 x3 x4 x5 x6 x7 x8
    = Cert.Spec.lin (aggB x1 (Cert.Spec.linRelu (aggA x1 x0) x0 x3 x5 x4))
        (Cert.Spec.linRelu (aggA x1 x0) x0 x3 x5 x4) x6 x8 x7 := by
  funext i
  obtain ⟨n, f, rfl⟩ : ∃ (n : Fin 100000) (f : Fin 64), i = ix2 n f := ⟨i 0, i 1, eq_ix2 i⟩
  rw [layer2_apply, layer1_eq]
  rfl

/-- The node count of graph `g`: the scatter-add of ones over the graph ids. -/
theorem count_apply (g : Fin 256) : Read.val_main_v47 (F := Ideal) x2 (ix1 g) = Cert.Spec.segCount x2 g := by
  show Ideal.hostScatterAdd scatter_S256_S100000x1_S100000_n_0_0_1 (Read.val_main_v45 (F := Ideal))
    (Read.val_main_v46 (F := Ideal) x2) (Read.val_main_v44 (F := Ideal)) (ix1 g) = _
  rw [RefScatter.scatterAdd1_apply, Read.val_main_v45_apply, Read.val_main_cst_6_apply]
  have e : ∀ n : Fin 100000, Read.idx_main_v46 (ix2 n (0 : Fin 1)) = ix1 n := fun n =>
    funext fun a => match a with | ⟨0, _⟩ => rfl
  simp only [Read.val_main_v46_apply, Read.val_main_v44_apply, Read.val_main_cst_5_apply, e, Ideal.ofBits_def,
    Ideal.ofBits_zero_f32, Ideal.ofBits_one_f32, zero_add]
  rfl

/-- The feature sum of graph `g`: the scatter-add of the second layer's rows over the graph ids. -/
theorem sum_apply (g : Fin 256) (f : Fin 64) :
    Read.val_main_v43 (F := Ideal) x0 x1 x2 x3 x4 x5 x6 x7 x8 (ix2 g f)
      = Cert.Spec.segSum (Read.val_main_v40 (F := Ideal) x0 x1 x3 x4 x5 x6 x7 x8) x2 g f := by
  show Ideal.hostScatterAdd scatter_S256x64_S100000x1_S100000x64_1_0_0_1 (Read.val_main_v41 (F := Ideal))
    (Read.val_main_v42 (F := Ideal) x2) (Read.val_main_v40 (F := Ideal) x0 x1 x3 x4 x5 x6 x7 x8) (ix2 g f) = _
  rw [RefScatter.scatterAdd2_apply, Read.val_main_v41_apply, Read.val_main_cst_4_apply]
  have e : ∀ n : Fin 100000, Read.idx_main_v42 (ix2 n (0 : Fin 1)) = ix1 n := fun n =>
    funext fun a => match a with | ⟨0, _⟩ => rfl
  simp only [Read.val_main_v42_apply, e, Ideal.ofBits_def, Ideal.ofBits_zero_f32, zero_add]
  rfl

/-- The whole reference at a graph and a feature. -/
theorem main_apply (g : Fin 256) (f : Fin 64) :
    Read.val_main_v53 (F := Ideal) x0 x1 x2 x3 x4 x5 x6 x7 x8 (ix2 g f)
      = Cert.Spec.result (aggA x1) (aggB x1) x0 x3 x4 x5 x6 x7 x8 x2 (ix2 g f) := by
  rw [Read.val_main_v53_apply, Read.val_main_v52_apply, Read.val_main_call1_v0_apply, Read.val_main_call1_cst_apply,
    Read.val_main_v51_apply, Read.val_main_v50_apply, Read.val_main_v49_apply, Read.val_main_v48_apply,
    Read.val_main_cst_7_apply]
  have e1 : Read.idx_main_v50 (Read.idx_main_v51 (ix2 g f)) = ix1 g :=
    funext fun a => match a with | ⟨0, _⟩ => rfl
  rw [e1, count_apply, sum_apply, layer2_eq]
  simp only [Ideal.maximumf_def, Ideal.hostDivf_def, Ideal.ofBits_def, Ideal.ofBits_zero_f32, Ideal.ofBits_one_f32]
  rfl

end Stages

/-- The reference run's result term, at the ideal instance, is the specified network of the launch
    contents of the arguments. -/
theorem result_eq (m : (ℓ : Loc nD τ sig) → Buf (Elt Ideal) ℓ) (c : Dev nD) :
    Value.res_out0 (F := Ideal) m c
      = Cert.Spec.result (aggA (m ((c.tc : Thread nD τ).loc main_arg1))) (aggB (m ((c.tc : Thread nD τ).loc main_arg1)))
          (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg2)) := by
  show Value.res_main_v53 (F := Ideal) m c = _
  rw [Read.val_main_v53_eq]
  funext i
  obtain ⟨g, f, rfl⟩ : ∃ (g : Fin 256) (f : Fin 64), i = ix2 g f := ⟨i 0, i 1, eq_ix2 i⟩
  exact main_apply _ _ _ _ _ _ _ _ _ g f

end Cert.ReferenceIdeal.RefValue

end
-- ==== Proof.lean ====
/-
  The certificate of a two-layer GraphConv network with a global mean pool, computed by three tiled kernels, against
  its plain host reference.

  At the ideal instance both programs compute, for every graph g and feature f,
      max( (∑_{n : id n = g} h₂[n, f]) / max(#{n : id n = g}, 1), 0 ),
  where h₂ = (A₂·W₂rel + h₁·W₂root) + b₂, h₁ = max((A₁·W₁rel + x·W₁root) + b₁, 0), and A₁, A₂ are the neighbourhood
  aggregations of x and h₁ along the edges (the same host gather and scatter-add in both programs). The kernels tile the
  node axis in twenty tiles of 5000 rows; the pooling kernel accumulates one-hot products over the tiles in two scratch
  buffers and divides at the last tile, where the reference scatter-adds the rows at their graph ids. A one-hot factor
  is 0 or 1 and 0·x = 0, 1·x = x hold for every extended real, a scatter-add drops exactly the ids no one-hot column
  matches, and the reference's (A·W + b) + x·W' is the kernel's (A·W + x·W') + b by commutativity: no law that needs
  finiteness is used, so the precondition is never opened.

  The three frames: each kernel program's run is composed segment by segment (three host stretches, three regions),
  each region's body run symbolically at a generic grid point; the reference's run is its host operations in order.
  Nothing was rewritten by the idealization, so `preserves` is trivial.
-/
import proofs.«406771_j46110768890112_1_alg».proof.Defs
import proofs.«406771_j46110768890112_1_alg».proof.Proof.Gen.Kernel
import proofs.«406771_j46110768890112_1_alg».proof.Proof.Gen.KernelIdeal
import proofs.«406771_j46110768890112_1_alg».proof.Proof.Gen.ReferenceIdeal
import proofs.«406771_j46110768890112_1_alg».proof.Proof.Gen.Pre_finite_inputs
import proofs.«406771_j46110768890112_1_alg».proof.Proof.K_Run
import proofs.«406771_j46110768890112_1_alg».proof.Proof.KI_Run
import proofs.«406771_j46110768890112_1_alg».proof.Proof.KI_Val0
import proofs.«406771_j46110768890112_1_alg».proof.Proof.KI_Val1
import proofs.«406771_j46110768890112_1_alg».proof.Proof.KI_Val2
import proofs.«406771_j46110768890112_1_alg».proof.Proof.KI_KValue
import proofs.«406771_j46110768890112_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The two programs' neighbourhood aggregations are one function: the same host operations over the same shapes. -/
theorem aggA_eq : Cert.ReferenceIdeal.RefValue.aggA = Cert.KernelIdeal.HandValue.aggA := rfl
theorem aggB_eq : Cert.ReferenceIdeal.RefValue.aggB = Cert.KernelIdeal.HandValue.aggB := rfl

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel program's result array and the reference's are the specified network of the
    (agreeing) arguments. -/
theorem algebraic : Cert.algebraic_KernelIdeal_ReferenceIdeal := by
  intro m ρ m' ρ' _ hagree
  refine ⟨fun c => Cert.Spec.result (Cert.KernelIdeal.HandValue.aggA (m ((c.tc : Thread Cert.KernelIdeal.nD Cert.KernelIdeal.τ).loc Cert.KernelIdeal.main_arg1)))
      (Cert.KernelIdeal.HandValue.aggB (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg2)), ?_, ?_⟩
  · -- the kernel program: the run's last boundary read at the result array and at each argument
    refine (θ_run Cert.KernelIdeal.defs _ _).mono (fun r h c => ⟨?_, ?_⟩)
      (Cert.KernelIdeal.Hand.run_all (F := Ideal) m ρ)
    · exact (h c _ (Cert.KernelIdeal.Hand.mem_uc Cert.KernelIdeal.main_v29 (by decide))).trans
        (Cert.KernelIdeal.HandValue.result_eq_of m Cert.KernelIdeal.HandValue.arrAt0_5 Cert.KernelIdeal.HandValue.arrAt1_5
          Cert.KernelIdeal.HandValue.arrAt2_2 c)
    · exact ⟨(h c _ (Cert.KernelIdeal.Hand.mem_uc Cert.KernelIdeal.main_arg0 (by decide))).trans (Cert.KernelIdeal.Hand.B6_of_unwritten m c Cert.KernelIdeal.main_arg0 (by decide) (by decide) (by decide) (by decide) (by decide) (by decide)),
        (h c _ (Cert.KernelIdeal.Hand.mem_uc Cert.KernelIdeal.main_arg1 (by decide))).trans (Cert.KernelIdeal.Hand.B6_of_unwritten m c Cert.KernelIdeal.main_arg1 (by decide) (by decide) (by decide) (by decide) (by decide) (by decide)),
        (h c _ (Cert.KernelIdeal.Hand.mem_uc Cert.KernelIdeal.main_arg2 (by decide))).trans (Cert.KernelIdeal.Hand.B6_of_unwritten m c Cert.KernelIdeal.main_arg2 (by decide) (by decide) (by decide) (by decide) (by decide) (by decide)),
        (h c _ (Cert.KernelIdeal.Hand.mem_uc Cert.KernelIdeal.main_arg3 (by decide))).trans (Cert.KernelIdeal.Hand.B6_of_unwritten m c Cert.KernelIdeal.main_arg3 (by decide) (by decide) (by decide) (by decide) (by decide) (by decide)),
        (h c _ (Cert.KernelIdeal.Hand.mem_uc Cert.KernelIdeal.main_arg4 (by decide))).trans (Cert.KernelIdeal.Hand.B6_of_unwritten m c Cert.KernelIdeal.main_arg4 (by decide) (by decide) (by decide) (by decide) (by decide) (by decide)),
        (h c _ (Cert.KernelIdeal.Hand.mem_uc Cert.KernelIdeal.main_arg5 (by decide))).trans (Cert.KernelIdeal.Hand.B6_of_unwritten m c Cert.KernelIdeal.main_arg5 (by decide) (by decide) (by decide) (by decide) (by decide) (by decide)),
        (h c _ (Cert.KernelIdeal.Hand.mem_uc Cert.KernelIdeal.main_arg6 (by decide))).trans (Cert.KernelIdeal.Hand.B6_of_unwritten m c Cert.KernelIdeal.main_arg6 (by decide) (by decide) (by decide) (by decide) (by decide) (by decide)),
        (h c _ (Cert.KernelIdeal.Hand.mem_uc Cert.KernelIdeal.main_arg7 (by decide))).trans (Cert.KernelIdeal.Hand.B6_of_unwritten m c Cert.KernelIdeal.main_arg7 (by decide) (by decide) (by decide) (by decide) (by decide) (by decide)),
        (h c _ (Cert.KernelIdeal.Hand.mem_uc Cert.KernelIdeal.main_arg8 (by decide))).trans (Cert.KernelIdeal.Hand.B6_of_unwritten m c Cert.KernelIdeal.main_arg8 (by decide) (by decide) (by decide) (by decide) (by decide) (by decide))⟩
  · -- the reference: its run's term is the same network of its own arguments, which agree with the kernel's
    refine (θ_run Cert.ReferenceIdeal.defs _ _).mono (fun _ h c => ⟨?_, (h c).2⟩)
      (Cert.ReferenceIdeal.Value.run (F := Ideal) m' ρ')
    refine (h c).1.trans ((Cert.ReferenceIdeal.RefValue.result_eq m' c).trans ?_)
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2, aggA_eq, aggB_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
